-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x512 : Shape := ⟨3, ![4, 8192, 512]⟩
abbrev S4x8192x3 : Shape := ⟨3, ![4, 8192, 3]⟩
abbrev S4x2048x2 : Shape := ⟨3, ![4, 2048, 2]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S4x8192x3 : S_.BroadcastsInDim S4x8192x3 (![] : Fin 0 → Fin S4x8192x3.rank)
  reducesTo_S4x8192x3_S_d0_1_2 : S4x8192x3.ReducesTo [0, 1, 2] S_

variable [Facts]

def fn {F : FTy → Type} [FloatOps F] (main_arg0 : FVec F S4x8192x512 .f32) (main_arg1 : FVec F S4x8192x3 .f32) (main_arg2 : FVec F S4x8192x512 .f32) (main_arg3 : IVec S4x2048x2 32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4x8192x512 .f32 := Host.absf main_arg2
  let main_cst_2 : FVec F S_ .f32 := constant S_ .f32 0x7F800000#32
  let main_v10 : FVec F S4x8192x512 .f32 := broadcastInDim S4x8192x512 ![] bcast_S_S4x8192x512 main_cst_2
  let main_v11 : IVec S4x8192x512 1 := cmpf .olt main_v9 main_v10
  let main_c_3 : IVec S_ 1 := constantI S_ 1 1#1
  let main_v12 : IVec S_ 1 := (fun x v => Host.reduce IntOp.andi x v reducesTo_S4x8192x512_S_d0_1_2 h_S_) main_v11 main_c_3
  let main_v13 : IVec S_ 1 := andi main_v8 main_v12
  main_v13
-- ==== Kernel.lean ====
abbrev S4x8192x512 : Shape := ⟨3, ![4, 8192, 512]⟩
abbrev S4x8192x3 : Shape := ⟨3, ![4, 8192, 3]⟩
abbrev S4x2048x2 : Shape := ⟨3, ![4, 2048, 2]⟩
abbrev S4x2048x1 : Shape := ⟨3, ![4, 2048, 1]⟩
abbrev S4x2048x512 : Shape := ⟨3, ![4, 2048, 512]⟩
abbrev S_ : Shape := ⟨0, ![]⟩
abbrev S4x2048x512x1 : Shape := ⟨4, ![4, 2048, 512, 1]⟩
abbrev S1 : Shape := ⟨1, ![1]⟩
abbrev S1x1x1x1 : Shape := ⟨4, ![1, 1, 1, 1]⟩
abbrev S4x2048x3 : Shape := ⟨3, ![4, 2048, 3]⟩
abbrev S4x2048x3x1 : Shape := ⟨4, ![4, 2048, 3, 1]⟩
abbrev S1x2048x512 : Shape := ⟨3, ![1, 2048, 512]⟩
abbrev S1x1024x512 : Shape := ⟨3, ![1, 1024, 512]⟩
abbrev S1x2048x3 : Shape := ⟨3, ![1, 2048, 3]⟩
abbrev S1x1024x3 : Shape := ⟨3, ![1, 1024, 3]⟩
abbrev S1x2048x1 : Shape := ⟨3, ![1, 2048, 1]⟩
abbrev S2048x1 : Shape := ⟨2, ![2048, 1]⟩
abbrev S2048x512 : Shape := ⟨2, ![2048, 512]⟩
abbrev S1024x512 : Shape := ⟨2, ![1024, 512]⟩
abbrev S2048x1024 : Shape := ⟨2, ![2048, 1024]⟩
abbrev S2048x3 : Shape := ⟨2, ![2048, 3]⟩
abbrev S1024x3 : Shape := ⟨2, ![1024, 3]⟩
abbrev S2048 : Shape := ⟨1, ![2048]⟩
abbrev S1024 : Shape := ⟨1, ![1024]⟩
abbrev S1x1024 : Shape := ⟨2, ![1, 1024]⟩
abbrev S1024x1 : Shape := ⟨2, ![1024, 1]⟩

abbrev nBuf : Space → Nat
  | .hbm => 81
  | .vmem => 13
  | .smem => 0
  | _ => 0

abbrev bufTy : (tb : Table) → Fin (tcTables nBuf tb) → BufTy
  | .hbm, ⟨0, _⟩ => ⟨S4x8192x512, .f32⟩
  | .hbm, ⟨1, _⟩ => ⟨S4x8192x3, .f32⟩
  | .hbm, ⟨2, _⟩ => ⟨S4x8192x512, .f32⟩
  | .hbm, ⟨3, _⟩ => ⟨S4x2048x2, .i32⟩
  | .hbm, ⟨4, _⟩ => ⟨S4x2048x1, .i32⟩
  | .hbm, ⟨5, _⟩ => ⟨S4x2048x512, .i32⟩
  | .hbm, ⟨6, _⟩ => ⟨S_, .i32⟩
  | .hbm, ⟨7, _⟩ => ⟨S4x2048x512, .i32⟩
  | .hbm, ⟨8, _⟩ => ⟨S4x2048x512, .i1⟩
  | .hbm, ⟨9, _⟩ => ⟨S_, .i32⟩
  | .hbm, ⟨10, _⟩ => ⟨S4x2048x512, .i32⟩
  | .hbm, ⟨11, _⟩ => ⟨S4x2048x512, .i32⟩
  | .hbm, ⟨12, _⟩ => ⟨S4x2048x512, .i32⟩
  | .hbm, ⟨13, _⟩ => ⟨S4x2048x512x1, .i32⟩
  | .hbm, ⟨14, _⟩ => ⟨S1, .i32⟩
  | .hbm, ⟨15, _⟩ => ⟨S_, .i32⟩
  | .hbm, ⟨16, _⟩ => ⟨S4x2048x512x1, .i32⟩
  | .hbm, ⟨17, _⟩ => ⟨S4x2048x512x1, .i1⟩
  | .hbm, ⟨18, _⟩ => ⟨S1x1x1x1, .i32⟩
  | .hbm, ⟨19, _⟩ => ⟨S4x2048x512x1, .i32⟩
  | .hbm, ⟨20, _⟩ => ⟨S4x2048x512x1, .i1⟩
  | .hbm, ⟨21, _⟩ => ⟨S4x2048x512x1, .i1⟩
  | .hbm, ⟨22, _⟩ => ⟨S_, .i1⟩
  | .hbm, ⟨23, _⟩ => ⟨S4x2048x512, .i1⟩
  | .hbm, ⟨24, _⟩ => ⟨S4x2048x512, .f32⟩
  | .hbm, ⟨25, _⟩ => ⟨S_, .f32⟩
  | .hbm, ⟨26, _⟩ => ⟨S4x2048x512, .f32⟩
  | .hbm, ⟨27, _⟩ => ⟨S4x2048x512, .f32⟩
  | .hbm, ⟨28, _⟩ => ⟨S4x2048x1, .i32⟩
  | .hbm, ⟨29, _⟩ => ⟨S4x2048x3, .i32⟩
  | .hbm, ⟨30, _⟩ => ⟨S_, .i32⟩
  | .hbm, ⟨31, _⟩ => ⟨S4x2048x3, .i32⟩
  | .hbm, ⟨32, _⟩ => ⟨S4x2048x3, .i1⟩
  | .hbm, ⟨33, _⟩ => ⟨S_, .i32⟩
  | .hbm, ⟨34, _⟩ => ⟨S4x2048x3, .i32⟩
  | .hbm, ⟨35, _⟩ => ⟨S4x2048x3, .i32⟩
  | .hbm, ⟨36, _⟩ => ⟨S4x2048x3, .i32⟩
  | .hbm, ⟨37, _⟩ => ⟨S4x2048x3x1, .i32⟩
  | .hbm, ⟨38, _⟩ => ⟨S1, .i32⟩
  | .hbm, ⟨39, _⟩ => ⟨S_, .i32⟩
  | .hbm, ⟨40, _⟩ => ⟨S4x2048x3x1, .i32⟩
  | .hbm, ⟨41, _⟩ => ⟨S4x2048x3x1, .i1⟩
  | .hbm, ⟨42, _⟩ => ⟨S1x1x1x1, .i32⟩
  | .hbm, ⟨43, _⟩ => ⟨S4x2048x3x1, .i32⟩
  | .hbm, ⟨44, _⟩ => ⟨S4x2048x3x1, .i1⟩
  | .hbm, ⟨45, _⟩ => ⟨S4x2048x3x1, .i1⟩
  | .hbm, ⟨46, _⟩ => ⟨S_, .i1⟩
  | .hbm, ⟨47, _⟩ => ⟨S4x2048x3, .i1⟩
  | .hbm, ⟨48, _⟩ => ⟨S4x2048x3, .f32⟩
  | .hbm, ⟨49, _⟩ => ⟨S_, .f32⟩
  | .hbm, ⟨50, _⟩ => ⟨S4x2048x3, .f32⟩
  | .hbm, ⟨51, _⟩ => ⟨S4x2048x3, .f32⟩
  | .hbm, ⟨52, _⟩ => ⟨S4x2048x1, .i32⟩
  | .hbm, ⟨53, _⟩ => ⟨S4x2048x512, .i32⟩
  | .hbm, ⟨54, _⟩ => ⟨S_, .i32⟩
  | .hbm, ⟨55, _⟩ => ⟨S4x2048x512, .i32⟩
  | .hbm, ⟨56, _⟩ => ⟨S4x2048x512, .i1⟩
  | .hbm, ⟨57, _⟩ => ⟨S_, .i32⟩
  | .hbm, ⟨58, _⟩ => ⟨S4x2048x512, .i32⟩
  | .hbm, ⟨59, _⟩ => ⟨S4x2048x512, .i32⟩
  | .hbm, ⟨60, _⟩ => ⟨S4x2048x512, .i32⟩
  | .hbm, ⟨61, _⟩ => ⟨S4x2048x512x1, .i32⟩
  | .hbm, ⟨62, _⟩ => ⟨S1, .i32⟩
  | .hbm, ⟨63, _⟩ => ⟨S_, .i32⟩
  | .hbm, ⟨64, _⟩ => ⟨S4x2048x512x1, .i32⟩
  | .hbm, ⟨65, _⟩ => ⟨S4x2048x512x1, .i1⟩
  | .hbm, ⟨66, _⟩ => ⟨S1x1x1x1, .i32⟩
  | .hbm, ⟨67, _⟩ => ⟨S4x2048x512x1, .i32⟩
  | .hbm, ⟨68, _⟩ => ⟨S4x2048x512x1, .i1⟩
  | .hbm, ⟨69, _⟩ => ⟨S4x2048x512x1, .i1⟩
  | .hbm, ⟨70, _⟩ => ⟨S_, .i1⟩
  | .hbm, ⟨71, _⟩ => ⟨S4x2048x512, .i1⟩
  | .hbm, ⟨72, _⟩ => ⟨S4x2048x512, .f32⟩
  | .hbm, ⟨73, _⟩ => ⟨S_, .f32⟩
  | .hbm, ⟨74, _⟩ => ⟨S4x2048x512, .f32⟩
  | .hbm, ⟨75, _⟩ => ⟨S4x2048x512, .f32⟩
  | .hbm, ⟨76, _⟩ => ⟨S4x2048x1, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .local _ .vmem, ⟨0, _⟩ => ⟨S1x2048x512, .f32⟩
  | .local _ .vmem, ⟨1, _⟩ => ⟨S1x2048x512, .f32⟩
  | .local _ .vmem, ⟨2, _⟩ => ⟨S1x1024x512, .f32⟩
  | .local _ .vmem, ⟨3, _⟩ => ⟨S1x1024x512, .f32⟩
  | .local _ .vmem, ⟨4, _⟩ => ⟨S1x2048x3, .f32⟩
  | .local _ .vmem, ⟨5, _⟩ => ⟨S1x2048x3, .f32⟩
  | .local _ .vmem, ⟨6, _⟩ => ⟨S1x1024x3, .f32⟩
  | .local _ .vmem, ⟨7, _⟩ => ⟨S1x1024x3, .f32⟩
  | .local _ .vmem, ⟨8, _⟩ => ⟨S1x2048x1, .f32⟩
  | .local _ .vmem, ⟨9, _⟩ => ⟨S1x2048x1, .f32⟩
  | .local _ .vmem, ⟨10, _⟩ => ⟨S2048x1, .f32⟩
  | .local _ .vmem, ⟨11, _⟩ => ⟨S2048x1, .f32⟩
  | .local _ .vmem, ⟨12, _⟩ => ⟨S2048x512, .bf16⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_cst : Ref sig .tc := ⟨.hbm, 73, rfl⟩
abbrev main_call2_v14 : Ref sig .tc := ⟨.hbm, 74, rfl⟩
abbrev main_v8 : Ref sig .tc := ⟨.hbm, 75, rfl⟩
abbrev main_v9 : Ref sig .tc := ⟨.hbm, 76, rfl⟩
abbrev main_cst : Ref sig .tc := ⟨.hbm, 77, rfl⟩
abbrev main_v10 : Ref sig .tc := ⟨.hbm, 78, rfl⟩
abbrev main_cst_0 : Ref sig .tc := ⟨.hbm, 79, rfl⟩
abbrev main_v11 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c1024_i32 : BitVec 32 := 1024#32
  let v62 : BitVec 32 := Scalar.muli arg1 c1024_i32
  v62
def k0_off1 (i : grid0.Coords) : Fin 3 → Nat :=
  let c0_21 : Index := 0#32
  let arg1 : BitVec 32 := BitVec.ofNat 32 (i 1).val
  let c1024_i32 : BitVec 32 := 1024#32
  let v62 : BitVec 32 := Scalar.muli arg1 c1024_i32
  let v63 : BitVec 32 := v62
  let v64 : Index := Scalar.indexCast v63
  let c0_22 : Index := 0#32
  ![0, v64.toNat, 0]
def k0_off2 (i : grid0.Coords) : Fin 2 → Nat :=
  let arg1 : BitVec 32 := BitVec.ofNat 32 (i 1).val
  let c1024_i32 : BitVec 32 := 1024#32
  let v62 : BitVec 32 := Scalar.muli arg1 c1024_i32
  let v63 : BitVec 32 := v62
  let v83 : Index := Scalar.indexCast v63
  let c0_28 : Index := 0#32
  ![v83.toNat, 0]
def k0_cond2 (i : grid0.Coords) : BitVec 1 :=
  let arg1 : BitVec 32 := BitVec.ofNat 32 (i 1).val
  let c1_i32 : BitVec 32 := 1#32
  let v87 : BitVec 1 := Scalar.cmpi .eq arg1 c1_i32
  let v88 : BitVec 32 := Scalar.extui v87
  let c0_i32_29 : BitVec 32 := 0#32
  let v89 : BitVec 1 := Scalar.cmpi .ne v88 c0_i32_29
  v89

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S4x2048x2_S4x2048x1_0_0_0 : S4x2048x2.Slices ![0, 0, 0] S4x2048x1
  bcast_S4x2048x1_S4x2048x512_0_1_2 : S4x2048x1.BroadcastsInDim S4x2048x512 (![0, 1, 2] : Fin 3 → Fin S4x2048x512.rank)
  bcast_S_S4x2048x512 : S_.BroadcastsInDim S4x2048x512 (![] : Fin 0 → Fin S4x2048x512.rank)
  shapeCasts_S4x2048x512_S4x2048x512x1 : S4x2048x512.ShapeCasts S4x2048x512x1
  bcast_S_S4x2048x512x1 : S_.BroadcastsInDim S4x2048x512x1 (![] : Fin 0 → Fin S4x2048x512x1.rank)
  bcast_S1_S1x1x1x1_3 : S1.BroadcastsInDim S1x1x1x1 (![3] : Fin 1 → Fin S1x1x1x1.rank)
  bcast_S1x1x1x1_S4x2048x512x1_0_1_2_3 : S1x1x1x1.BroadcastsInDim S4x2048x512x1 (![0, 1, 2, 3] : Fin 4 → Fin S4x2048x512x1.rank)
  reducesTo_S4x2048x512x1_S4x2048x512_d3 : S4x2048x512x1.ReducesTo [3] S4x2048x512
  h_S_ : 0 < S_.numel
  bcast_S4x2048x1_S4x2048x3_0_1_2 : S4x2048x1.BroadcastsInDim S4x2048x3 (![0, 1, 2] : Fin 3 → Fin S4x2048x3.rank)
  bcast_S_S4x2048x3 : S_.BroadcastsInDim S4x2048x3 (![] : Fin 0 → Fin S4x2048x3.rank)
  shapeCasts_S4x2048x3_S4x2048x3x1 : S4x2048x3.ShapeCasts S4x2048x3x1
  bcast_S_S4x2048x3x1 : S_.BroadcastsInDim S4x2048x3x1 (![] : Fin 0 → Fin S4x2048x3x1.rank)
  bcast_S1x1x1x1_S4x2048x3x1_0_1_2_3 : S1x1x1x1.BroadcastsInDim S4x2048x3x1 (![0, 1, 2, 3] : Fin 4 → Fin S4x2048x3x1.rank)
  reducesTo_S4x2048x3x1_S4x2048x3_d3 : S4x2048x3x1.ReducesTo [3] S4x2048x3
  slices_S4x2048x2_S4x2048x1_0_0_1 : S4x2048x2.Slices ![0, 0, 1] S4x2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S2048x3_S2048 : S2048x3.Reduces [1] S2048
  shapeCasts_S2048_S2048x1 : S2048.ShapeCasts S2048x1
  reduces_S1024x3_S1024 : S1024x3.Reduces [1] S1024
  shapeCasts_S1024_S1x1024 : S1024.ShapeCasts S1x1024
  slices_S2048x3_o0_0_S2048x1 : S2048x3.Slices ![0, 0] S2048x1
  slices_S1024x3_o0_0_S1024x1 : S1024x3.Slices ![0, 0] S1024x1
  shapeCasts_S1024x1_S1024 : S1024x1.ShapeCasts S1024
  broadcasts_S2048x1_S2048x1024 : S2048x1.Broadcasts S2048x1024
  broadcasts_S1x1024_S2048x1024 : S1x1024.Broadcasts S2048x1024
  slices_S2048x3_o0_1_S2048x1 : S2048x3.Slices ![0, 1] S2048x1
  slices_S1024x3_o0_1_S1024x1 : S1024x3.Slices ![0, 1] S1024x1
  slices_S2048x3_o0_2_S2048x1 : S2048x3.Slices ![0, 2] S2048x1
  slices_S1024x3_o0_2_S1024x1 : S1024x3.Slices ![0, 2] S1024x1
  natLt_1_32 : 1 < 32
  reduces_S2048x1024_S2048 : S2048x1024.Reduces [1] S2048
  reduces_S1024x512_S1024 : S1024x512.Reduces [1] S1024
  shapeCasts_S1024_S1024x1 : S1024.ShapeCasts S1024x1
  h_S1024x1 : 0 < S1024x1.numel
  shapeCasts_S1024x1_S1024x1 : S1024x1.ShapeCasts S1024x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  reducesTo_S4x2048x1_S_d0_1_2 : S4x2048x1.ReducesTo [0, 1, 2] S_
  gather_S4x8192x512_S4x2048x512x1_S4x2048x512_n_1_02_02_1_3_111_wf : GatherDims.WF S4x8192x512 S4x2048x512x1 S4x2048x512 [] [1] [0, 2] [1] [0, 2] 3 ![1, 1, 1]
  gather_S4x8192x3_S4x2048x3x1_S4x2048x3_n_1_02_02_1_3_111_wf : GatherDims.WF S4x8192x3 S4x2048x3x1 S4x2048x3 [] [1] [0, 2] [1] [0, 2] 3 ![1, 1, 1]
  dot_S2048x512_S1024x512_S2048x1024_1_1_0_0_n_n_wf : DotDims.WF S2048x512 S1024x512 S2048x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1x1024x512.size a ≤ S1x2048x512.size a
  k0_off2_inb : ∀ i : grid0.Coords, ∀ a, (k0_off2 i) a + S1024x1.size a ≤ S2048x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x2048x512.size a
  hwx0_0 : ∀ i : grid0.Coords, EltTy.bits .f32 = 32 ∨ (Rect.block (s := S4x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S4x2048x512.size a
  hwx0_1 : ∀ i : grid0.Coords, EltTy.bits .f32 = 32 ∨ (Rect.block (s := S4x2048x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x3.size a ≤ S4x2048x3.size a
  hwx0_2 : ∀ i : grid0.Coords, EltTy.bits .f32 = 32 ∨ (Rect.block (s := S4x2048x3) S1x2048x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x3.size a ≤ S4x2048x3.size a
  hwx0_3 : ∀ i : grid0.Coords, EltTy.bits .f32 = 32 ∨ (Rect.block (s := S4x2048x3) S1x1024x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1.size a ≤ S4x2048x1.size a
  hwx0_4 : ∀ i : grid0.Coords, EltTy.bits .f32 = 32 ∨ (Rect.block (s := S4x2048x1) S1x2048x1.size (cc0_transform_4 i) (hinb0_4 i)).WholeWords (EltTy.packing .f32)

variable [Facts₀]

def gather_S4x8192x512_S4x2048x512x1_S4x2048x512_n_1_02_02_1_3_111 : GatherDims S4x8192x512 S4x2048x512x1 S4x2048x512 where
  offsetDims := []
  collapsedSliceDims := [1]
  operandBatchingDims := [0, 2]
  startIndicesBatchingDims := [0, 2]
  startIndexMap := [1]
  indexVectorDim := 3
  sliceSizes := ![1, 1, 1]
  wf := gather_S4x8192x512_S4x2048x512x1_S4x2048x512_n_1_02_02_1_3_111_wf
def gather_S4x8192x3_S4x2048x3x1_S4x2048x3_n_1_02_02_1_3_111 : GatherDims S4x8192x3 S4x2048x3x1 S4x2048x3 where
  offsetDims := []
  collapsedSliceDims := [1]
  operandBatchingDims := [0, 2]
  startIndicesBatchingDims := [0, 2]
  startIndexMap := [1]
  indexVectorDim := 3
  sliceSizes := ![1, 1, 1]
  wf := gather_S4x8192x3_S4x2048x3x1_S4x2048x3_n_1_02_02_1_3_111_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v2) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x8192x512 : Shape := ⟨3, ![4, 8192, 512]⟩
abbrev S4x8192x3 : Shape := ⟨3, ![4, 8192, 3]⟩
abbrev S4x2048x2 : Shape := ⟨3, ![4, 2048, 2]⟩
abbrev S4x2048x1 : Shape := ⟨3, ![4, 2048, 1]⟩
abbrev S4x2048x512 : Shape := ⟨3, ![4, 2048, 512]⟩
abbrev S_ : Shape := ⟨0, ![]⟩
abbrev S4x2048x512x1 : Shape := ⟨4, ![4, 2048, 512, 1]⟩
abbrev S1 : Shape := ⟨1, ![1]⟩
abbrev S1x1x1x1 : Shape := ⟨4, ![1, 1, 1, 1]⟩
abbrev S4x2048x3 : Shape := ⟨3, ![4, 2048, 3]⟩
abbrev S4x2048x3x1 : Shape := ⟨4, ![4, 2048, 3, 1]⟩
abbrev S4x2048 : Shape := ⟨2, ![4, 2048]⟩
abbrev S4x2048x2048 : Shape := ⟨3, ![4, 2048, 2048]⟩
abbrev S4x2048x2049 : Shape := ⟨3, ![4, 2048, 2049]⟩
abbrev S4x1x2048 : Shape := ⟨3, ![4, 1, 2048]⟩

abbrev nBuf : Space → Nat
  | .hbm => 135
  | .vmem => 0
  | .smem => 0
  | _ => 0

abbrev hbmTy0_0 (i : Nat) : BufTy := match i % 128 with
  | 0 => ⟨S4x8192x512, .f32⟩
  | 1 => ⟨S4x8192x3, .f32⟩
  | 2 => ⟨S4x8192x512, .f32⟩
  | 3 => ⟨S4x2048x2, .i32⟩
  | 4 => ⟨S4x2048x1, .i32⟩
  | 5 => ⟨S4x2048x512, .i32⟩
  | 6 => ⟨S_, .i32⟩
  | 7 => ⟨S4x2048x512, .i32⟩
  | 8 => ⟨S4x2048x512, .i1⟩
  | 9 => ⟨S_, .i32⟩
  | 10 => ⟨S4x2048x512, .i32⟩
  | 11 => ⟨S4x2048x512, .i32⟩
  | 12 => ⟨S4x2048x512, .i32⟩
  | 13 => ⟨S4x2048x512x1, .i32⟩
  | 14 => ⟨S1, .i32⟩
  | 15 => ⟨S_, .i32⟩
  | 16 => ⟨S4x2048x512x1, .i32⟩
  | 17 => ⟨S4x2048x512x1, .i1⟩
  | 18 => ⟨S1x1x1x1, .i32⟩
  | 19 => ⟨S4x2048x512x1, .i32⟩
  | 20 => ⟨S4x2048x512x1, .i1⟩
  | 21 => ⟨S4x2048x512x1, .i1⟩
  | 22 => ⟨S_, .i1⟩
  | 23 => ⟨S4x2048x512, .i1⟩
  | 24 => ⟨S4x2048x512, .f32⟩
  | 25 => ⟨S_, .f32⟩
  | 26 => ⟨S4x2048x512, .f32⟩
  | 27 => ⟨S4x2048x512, .f32⟩
  | 28 => ⟨S4x2048x1, .i32⟩
  | 29 => ⟨S4x2048x3, .i32⟩
  | 30 => ⟨S_, .i32⟩
  | 31 => ⟨S4x2048x3, .i32⟩
  | 32 => ⟨S4x2048x3, .i1⟩
  | 33 => ⟨S_, .i32⟩
  | 34 => ⟨S4x2048x3, .i32⟩
  | 35 => ⟨S4x2048x3, .i32⟩
  | 36 => ⟨S4x2048x3, .i32⟩
  | 37 => ⟨S4x2048x3x1, .i32⟩
  | 38 => ⟨S1, .i32⟩
  | 39 => ⟨S_, .i32⟩
  | 40 => ⟨S4x2048x3x1, .i32⟩
  | 41 => ⟨S4x2048x3x1, .i1⟩
  | 42 => ⟨S1x1x1x1, .i32⟩
  | 43 => ⟨S4x2048x3x1, .i32⟩
  | 44 => ⟨S4x2048x3x1, .i1⟩
  | 45 => ⟨S4x2048x3x1, .i1⟩
  | 46 => ⟨S_, .i1⟩
  | 47 => ⟨S4x2048x3, .i1⟩
  | 48 => ⟨S4x2048x3, .f32⟩
  | 49 => ⟨S_, .f32⟩
  | 50 => ⟨S4x2048x3, .f32⟩
  | 51 => ⟨S4x2048x3, .f32⟩
  | 52 => ⟨S4x2048x1, .i32⟩
  | 53 => ⟨S4x2048x512, .i32⟩
  | 54 => ⟨S_, .i32⟩
  | 55 => ⟨S4x2048x512, .i32⟩
  | 56 => ⟨S4x2048x512, .i1⟩
  | 57 => ⟨S_, .i32⟩
  | 58 => ⟨S4x2048x512, .i32⟩
  | 59 => ⟨S4x2048x512, .i32⟩
  | 60 => ⟨S4x2048x512, .i32⟩
  | 61 => ⟨S4x2048x512x1, .i32⟩
  | 62 => ⟨S1, .i32⟩
  | 63 => ⟨S_, .i32⟩
  | 64 => ⟨S4x2048x512x1, .i32⟩
  | 65 => ⟨S4x2048x512x1, .i1⟩
  | 66 => ⟨S1x1x1x1, .i32⟩
  | 67 => ⟨S4x2048x512x1, .i32⟩
  | 68 => ⟨S4x2048x512x1, .i1⟩
  | 69 => ⟨S4x2048x512x1, .i1⟩
  | 70 => ⟨S_, .i1⟩
  | 71 => ⟨S4x2048x512, .i1⟩
  | 72 => ⟨S4x2048x512, .f32⟩
  | 73 => ⟨S_, .f32⟩
  | 74 => ⟨S4x2048x512, .f32⟩
  | 75 => ⟨S4x2048x512, .f32⟩
  | 76 => ⟨S4x2048x512, .f32⟩
  | 77 => ⟨S_, .f32⟩
  | 78 => ⟨S4x2048, .f32⟩
  | 79 => ⟨S4x2048x512, .f32⟩
  | 80 => ⟨S_, .f32⟩
  | 81 => ⟨S4x2048, .f32⟩
  | 82 => ⟨S4x2048, .f32⟩
  | 83 => ⟨S4x2048x512, .f32⟩
  | 84 => ⟨S_, .f32⟩
  | 85 => ⟨S4x2048, .f32⟩
  | 86 => ⟨S4x2048, .f32⟩
  | 87 => ⟨S4x2048, .f32⟩
  | 88 => ⟨S_, .f32⟩
  | 89 => ⟨S4x2048, .f32⟩
  | 90 => ⟨S4x2048, .f32⟩
  | 91 => ⟨S4x2048, .f32⟩
  | 92 => ⟨S4x2048x1, .f32⟩
  | 93 => ⟨S4x2048x2048, .f32⟩
  | 94 => ⟨S4x2048x2049, .f32⟩
  | 95 => ⟨S4x2048x3, .f32⟩
  | 96 => ⟨S_, .f32⟩
  | 97 => ⟨S4x2048, .f32⟩
  | 98 => ⟨S4x2048x1, .f32⟩
  | 99 => ⟨S4x1x2048, .f32⟩
  | 100 => ⟨S4x2048x2048, .f32⟩
  | 101 => ⟨S4x2048x2048, .f32⟩
  | 102 => ⟨S4x2048x2048, .f32⟩
  | 103 => ⟨S4x2048x2048, .f32⟩
  | 104 => ⟨S_, .f32⟩
  | 105 => ⟨S4x2048x2048, .f32⟩
  | 106 => ⟨S4x2048x2048, .f32⟩
  | 107 => ⟨S4x2048x2048, .f32⟩
  | 108 => ⟨S_, .f32⟩
  | 109 => ⟨S4x2048x2048, .f32⟩
  | 110 => ⟨S4x2048x2048, .i1⟩
  | 111 => ⟨S4x2048x1, .i1⟩
  | 112 => ⟨S_, .i1⟩
  | 113 => ⟨S4x2048x1, .i1⟩
  | 114 => ⟨S4x2048x2049, .i1⟩
  | 115 => ⟨S_, .f32⟩
  | 116 => ⟨S4x2048x2049, .f32⟩
  | 117 => ⟨S4x2048x2049, .f32⟩
  | 118 => ⟨S4x2048x2049, .f32⟩
  | 119 => ⟨S4x2048x2049, .f32⟩
  | 120 => ⟨S4x2048x2049, .f32⟩
  | 121 => ⟨S_, .f32⟩
  | 122 => ⟨S4x2048, .f32⟩
  | 123 => ⟨S4x2048x1, .f32⟩
  | 124 => ⟨S_, .f32⟩
  | 125 => ⟨S4x2048x1, .f32⟩
  | 126 => ⟨S4x2048x1, .f32⟩
  | 127 => ⟨S4x2048x1, .f32⟩
  | _ => ⟨S4x8192x512, .f32⟩

abbrev hbmTy0_1 (i : Nat) : BufTy := match i % 128 with
  | 0 => ⟨S4x2048x1, .f32⟩
  | 1 => ⟨S4x2048x1, .f32⟩
  | 2 => ⟨S4x2048x1, .f32⟩
  | 3 => ⟨S_, .f32⟩
  | 4 => ⟨S_, .f32⟩
  | 5 => ⟨S_, .f32⟩
  | 6 => ⟨S_, .f32⟩
  | _ => ⟨S4x8192x512, .f32⟩

abbrev hbmTy (i : Nat) : BufTy := match i / 128 with
  | 0 => hbmTy0_0 i
  | 1 => hbmTy0_1 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_cst : Ref sig .tc := ⟨.hbm, 73, rfl⟩
abbrev main_call2_v14 : Ref sig .tc := ⟨.hbm, 74, rfl⟩
abbrev main_v8 : Ref sig .tc := ⟨.hbm, 75, rfl⟩
abbrev main_v9 : Ref sig .tc := ⟨.hbm, 76, rfl⟩
abbrev main_cst : Ref sig .tc := ⟨.hbm, 77, rfl⟩
abbrev main_v10 : Ref sig .tc := ⟨.hbm, 78, rfl⟩
abbrev main_call3_v0 : Ref sig .tc := ⟨.hbm, 79, rfl⟩
abbrev main_call3_cst : Ref sig .tc := ⟨.hbm, 80, rfl⟩
abbrev main_call3_v1 : Ref sig .tc := ⟨.hbm, 81, rfl⟩
abbrev main_v11 : Ref sig .tc := ⟨.hbm, 82, rfl⟩
abbrev main_call4_v0 : Ref sig .tc := ⟨.hbm, 83, rfl⟩
abbrev main_call4_cst : Ref sig .tc := ⟨.hbm, 84, rfl⟩
abbrev main_call4_v1 : Ref sig .tc := ⟨.hbm, 85, rfl⟩
abbrev main_v12 : Ref sig .tc := ⟨.hbm, 86, rfl⟩
abbrev main_v13 : Ref sig .tc := ⟨.hbm, 87, rfl⟩
abbrev main_cst_0 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_cst_1 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_cst_2 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_cst_3 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_c : Ref sig .tc := ⟨.hbm, 112, rfl⟩
abbrev main_v34 : Ref sig .tc := ⟨.hbm, 113, rfl⟩
abbrev main_v35 : Ref sig .tc := ⟨.hbm, 114, rfl⟩
abbrev main_cst_4 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_cst_5 : Ref sig .tc := ⟨.hbm, 121, rfl⟩
abbrev main_v41 : Ref sig .tc := ⟨.hbm, 122, rfl⟩
abbrev main_v42 : Ref sig .tc := ⟨.hbm, 123, rfl⟩
abbrev main_cst_6 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_cst_7 : Ref sig .tc := ⟨.hbm, 131, rfl⟩
abbrev main_v49 : Ref sig .tc := ⟨.hbm, 132, rfl⟩
abbrev main_cst_8 : Ref sig .tc := ⟨.hbm, 133, rfl⟩
abbrev main_v50 : Ref sig .tc := ⟨.hbm, 134, rfl⟩

abbrev nD : Nat := 1
abbrev τ : Topo := Topo.v7x

variable {F : FTy → Type} [FloatOps F]

class Facts₀ : Prop where
  slices_S4x2048x2_S4x2048x1_0_0_0 : S4x2048x2.Slices ![0, 0, 0] S4x2048x1
  bcast_S4x2048x1_S4x2048x512_0_1_2 : S4x2048x1.BroadcastsInDim S4x2048x512 (![0, 1, 2] : Fin 3 → Fin S4x2048x512.rank)
  bcast_S_S4x2048x512 : S_.BroadcastsInDim S4x2048x512 (![] : Fin 0 → Fin S4x2048x512.rank)
  shapeCasts_S4x2048x512_S4x2048x512x1 : S4x2048x512.ShapeCasts S4x2048x512x1
  bcast_S_S4x2048x512x1 : S_.BroadcastsInDim S4x2048x512x1 (![] : Fin 0 → Fin S4x2048x512x1.rank)
  bcast_S1_S1x1x1x1_3 : S1.BroadcastsInDim S1x1x1x1 (![3] : Fin 1 → Fin S1x1x1x1.rank)
  bcast_S1x1x1x1_S4x2048x512x1_0_1_2_3 : S1x1x1x1.BroadcastsInDim S4x2048x512x1 (![0, 1, 2, 3] : Fin 4 → Fin S4x2048x512x1.rank)
  reducesTo_S4x2048x512x1_S4x2048x512_d3 : S4x2048x512x1.ReducesTo [3] S4x2048x512
  h_S_ : 0 < S_.numel
  bcast_S4x2048x1_S4x2048x3_0_1_2 : S4x2048x1.BroadcastsInDim S4x2048x3 (![0, 1, 2] : Fin 3 → Fin S4x2048x3.rank)
  bcast_S_S4x2048x3 : S_.BroadcastsInDim S4x2048x3 (![] : Fin 0 → Fin S4x2048x3.rank)
  shapeCasts_S4x2048x3_S4x2048x3x1 : S4x2048x3.ShapeCasts S4x2048x3x1
  bcast_S_S4x2048x3x1 : S_.BroadcastsInDim S4x2048x3x1 (![] : Fin 0 → Fin S4x2048x3x1.rank)
  bcast_S1x1x1x1_S4x2048x3x1_0_1_2_3 : S1x1x1x1.BroadcastsInDim S4x2048x3x1 (![0, 1, 2, 3] : Fin 4 → Fin S4x2048x3x1.rank)
  reducesTo_S4x2048x3x1_S4x2048x3_d3 : S4x2048x3x1.ReducesTo [3] S4x2048x3
  slices_S4x2048x2_S4x2048x1_0_0_1 : S4x2048x2.Slices ![0, 0, 1] S4x2048x1
  reducesTo_S4x2048x512_S4x2048_d2 : S4x2048x512.ReducesTo [2] S4x2048
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  concatenates_S4x2048x1_S4x2048x2048_S4x2048x2049_d2 : Shape.Concatenates [S4x2048x1, S4x2048x2048] S4x2048x2049 2
  reducesTo_S4x2048x3_S4x2048_d2 : S4x2048x3.ReducesTo [2] S4x2048
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  slices_S4x2048x2048_S4x2048x1_0_0_0 : S4x2048x2048.Slices ![0, 0, 0] S4x2048x1
  bcast_S_S4x2048x1 : S_.BroadcastsInDim S4x2048x1 (![] : Fin 0 → Fin S4x2048x1.rank)
  bcast_S_S4x2048x2049 : S_.BroadcastsInDim S4x2048x2049 (![] : Fin 0 → Fin S4x2048x2049.rank)
  reducesTo_S4x2048x2049_S4x2048_d2 : S4x2048x2049.ReducesTo [2] S4x2048
  reducesTo_S4x2048x1_S_d0_1_2 : S4x2048x1.ReducesTo [0, 1, 2] S_
  gather_S4x8192x512_S4x2048x512x1_S4x2048x512_n_1_02_02_1_3_111_wf : GatherDims.WF S4x8192x512 S4x2048x512x1 S4x2048x512 [] [1] [0, 2] [1] [0, 2] 3 ![1, 1, 1]
  gather_S4x8192x3_S4x2048x3x1_S4x2048x3_n_1_02_02_1_3_111_wf : GatherDims.WF S4x8192x3 S4x2048x3x1 S4x2048x3 [] [1] [0, 2] [1] [0, 2] 3 ![1, 1, 1]
  dot_S4x2048x512_S4x2048x512_S4x2048x2048_2_2_1_1_0_0_wf : DotDims.WF S4x2048x512 S4x2048x512 S4x2048x2048 [2] [2] [1] [1] [0] [0]
  dot_S4x2048x3_S4x2048x3_S4x2048x2048_2_2_1_1_0_0_wf : DotDims.WF S4x2048x3 S4x2048x3 S4x2048x2048 [2] [2] [1] [1] [0] [0]

variable [Facts₀]

def gather_S4x8192x512_S4x2048x512x1_S4x2048x512_n_1_02_02_1_3_111 : GatherDims S4x8192x512 S4x2048x512x1 S4x2048x512 where
  offsetDims := []
  collapsedSliceDims := [1]
  operandBatchingDims := [0, 2]
  startIndicesBatchingDims := [0, 2]
  startIndexMap := [1]
  indexVectorDim := 3
  sliceSizes := ![1, 1, 1]
  wf := gather_S4x8192x512_S4x2048x512x1_S4x2048x512_n_1_02_02_1_3_111_wf
def gather_S4x8192x3_S4x2048x3x1_S4x2048x3_n_1_02_02_1_3_111 : GatherDims S4x8192x3 S4x2048x3x1 S4x2048x3 where
  offsetDims := []
  collapsedSliceDims := [1]
  operandBatchingDims := [0, 2]
  startIndicesBatchingDims := [0, 2]
  startIndexMap := [1]
  indexVectorDim := 3
  sliceSizes := ![1, 1, 1]
  wf := gather_S4x8192x3_S4x2048x3x1_S4x2048x3_n_1_02_02_1_3_111_wf
def dot_S4x2048x512_S4x2048x512_S4x2048x2048_2_2_1_1_0_0 : DotDims S4x2048x512 S4x2048x512 S4x2048x2048 where
  lhsContracting := [2]
  rhsContracting := [2]
  lhsNonContracting := [1]
  rhsNonContracting := [1]
  lhsBatch := [0]
  rhsBatch := [0]
  wf := dot_S4x2048x512_S4x2048x512_S4x2048x2048_2_2_1_1_0_0_wf
def dot_S4x2048x3_S4x2048x3_S4x2048x2048_2_2_1_1_0_0 : DotDims S4x2048x3 S4x2048x3 S4x2048x2048 where
  lhsContracting := [2]
  rhsContracting := [2]
  lhsNonContracting := [1]
  rhsNonContracting := [1]
  lhsBatch := [0]
  rhsBatch := [0]
  wf := dot_S4x2048x3_S4x2048x3_S4x2048x2048_2_2_1_1_0_0_wf

class Facts : Prop extends Facts₀ where

variable [Facts]
-- ==== Proof.KIBase.lean ====
/- The common ground of the kernel's run: what core `c`'s unscoped buffers hold between the items of @main, each
   window's block at a grid point, and the two branch conditions of the body in closed form over the grid
   (the grid is batch × k-tile, 4 × 2: point t has k-tile t % 2). -/
import proofs.«412390_j6597069766920_3_alg».proof.Proof.Gen.KernelIdeal.Launch
import proofs.«412390_j6597069766920_3_alg».proof.Proof.Gen.KernelIdeal.Points
import proofs.«412390_j6597069766920_3_alg».proof.Proof.Gen.KernelIdeal.Skeleton
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The unscoped buffers between @main's items -/

/-- At launch. -/
abbrev V0 (c : Dev nD) : Valuation τ sig (Elt F) := fun b => m (c, b)
/-- After the slice and broadcast of the anchor indices. -/
abbrev V1 (c : Dev nD) : Valuation τ sig (Elt F) := StableHlo.after hostOps0 (V0 m c)
/-- After the gather of the anchor features. -/
abbrev V2 (c : Dev nD) : Valuation τ sig (Elt F) := StableHlo.after hostOps0_1 (V1 m c)
/-- After the second slice and broadcast of the anchor indices. -/
abbrev V3 (c : Dev nD) : Valuation τ sig (Elt F) := StableHlo.after hostOps0_2 (V2 m c)
/-- After the gather of the anchor points. -/
abbrev V4 (c : Dev nD) : Valuation τ sig (Elt F) := StableHlo.after hostOps0_3 (V3 m c)
/-- After the slice and broadcast of the positive indices. -/
abbrev V5 (c : Dev nD) : Valuation τ sig (Elt F) := StableHlo.after hostOps0_4 (V4 m c)
/-- After the gather of the positive features: what the region finds. -/
abbrev V6 (c : Dev nD) : Valuation τ sig (Elt F) := StableHlo.after hostOps0_5 (V5 m c)
/-- The same read at a TensorCore reference. -/
abbrev V (c : Dev nD) (b : Ref sig .tc) : Buf (Elt F) ((c : Thread nD τ).loc b) := V6 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions -/

/-- The first branch (reset the row sums, cache the anchor block): taken at k-tile 0. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 2 = 0 :=
  (by decide +kernel : ∀ t : Fin grid0.N, cond1 (grid0.coords t) ↔ t.val % 2 = 0)

/-- The second branch (finish the rows and store the output block): taken at k-tile 1. -/
abbrev cond2 (i : grid0.Coords) : Prop := k0_cond2 i = 1#1
theorem hcond2 : ∀ t : Fin cfg0.N, cond2 (grid0.coords t) ↔ t.val % 2 = 1 :=
  (by decide +kernel : ∀ t : Fin grid0.N, cond2 (grid0.coords t) ↔ t.val % 2 = 1)

/-! ## Where the output window is idle, and when it is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- At k-tile 0 the body stores nothing into the output block, -/
theorem idleAt4 : ∀ t : Fin cfg0.N, t.val % 2 = 0 → cfg0.idle 4 (grid0.coords t) = true := by decide +kernel
/-- and the pipeline does not write it back there; -/
theorem noFlush4 : ∀ t : Fin cfg0.N, t.val % 2 = 0 → (cfg0.win 4).flush t = false := by decide +kernel
/-- at k-tile 1 it stores the block. -/
theorem liveAt4 : ∀ t : Fin cfg0.N, t.val % 2 = 1 → cfg0.idle 4 (grid0.coords t) = false := by decide +kernel

/-! ## The staging memrefs at a point, and the scratch operands -/

abbrev ms0 (t : Fin cfg0.N) : Memref sig .tc .vmem S1x2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x3 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048x1 .f32 := win0_4.stage (cfg0.slots t 4)
abbrev hs4 (t : Fin cfg0.N) : (ms4 t).IsWhole := hstage0_4 ((cfg0.slots t 4).cast nbuf0_4)
/-- The running row sums of the masked exponentials. -/
abbrev scDen : Memref sig .tc .vmem S2048x1 .f32 := Memref.whole cc0_scratch0
/-- The rows' positive terms. -/
abbrev scNum : Memref sig .tc .vmem S2048x1 .f32 := Memref.whole cc0_scratch1
/-- The anchor block in the matrix unit's format. -/
abbrev scAq : Memref sig .tc .vmem S2048x512 .bf16 := Memref.whole cc0_scratch2

end Cert.KernelIdeal.Hand

end
-- ==== Proof.KIRuns.lean ====
/- The kernel body run once per case of its two branches. At k-tile 0 it resets the row sums, caches the anchor
   block, adds the tile's masked exponentials and stores the tile's positive terms; the output block is not touched.
   At k-tile 1 it adds the second tile's sums and positive terms to what k-tile 0 left and stores the rows' losses.
   Each run is stated with the pieces every written buffer ends with as its witness. -/
import proofs.«412390_j6597069766920_3_alg».proof.Proof.KIBase
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- K-TILE 0. The inputs' memrefs at their contents, the output's at contents handed back untouched, the three
    scratch buffers at anything: the body runs to the inputs and output as they were and each scratch with its
    pieces written (the row sums and the cached anchor block whole, the positive terms on the tile's rows). -/
noncomputable def runFirst (c : Dev nD) (i : grid0.Coords) (arg2 : Memref sig .tc .vmem S1x2048x512 .f32) (harg2 : arg2.IsWhole) (arg3 : Memref sig .tc .vmem S1x1024x512 .f32) (harg3 : arg3.IsWhole) (arg4 : Memref sig .tc .vmem S1x2048x3 .f32) (harg4 : arg4.IsWhole) (arg5 : Memref sig .tc .vmem S1x1024x3 .f32) (harg5 : arg5.IsWhole) (arg6 : Memref sig .tc .vmem S1x2048x1 .f32) (harg6 : arg6.IsWhole)
    (hc1 : cond1 i) (hc2 : ¬cond2 i)
    (x0 : Vec F S1x2048x512 .f32) (x1 : Vec F S1x1024x512 .f32) (x2 : Vec F S1x2048x3 .f32) (x3 : Vec F S1x1024x3 .f32) :
    Σ' (LD : List (View.Piece (Elt F) S2048x1 .f32)) (LN : List (View.Piece (Elt F) S2048x1 .f32)), { LA : List (View.Piece (Elt F) S2048x512 .bf16) //
      ∀ (xi4 : Vec F S1x2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ (∃ d, owns (c : Thread nD τ) scDen fullShare d) ∗ (∃ d, owns (c : Thread nD τ) scNum fullShare d) ∗ (∃ d, owns (c : Thread nD τ) scAq fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, scDen.view.loc (c : Thread nD τ) ↦[scDen.view.set]{fullShare} scDen.view.writes (Elt F) f LD)
                ∗ (∃ f, scNum.view.loc (c : Thread nD τ) ↦[scNum.view.set]{fullShare} scNum.view.writes (Elt F) f LN)
                ∗ (∃ f, scAq.view.loc (c : Thread nD τ) ↦[scAq.view.set]{fullShare} scAq.view.writes (Elt F) f LA)) -∗ K ⟨⟩))
          ⊢ wp frame (wpE (defs₀ (F := F)) Variants.none c none) E (cc0__loss_kernel i arg2 harg2 arg3 harg3 arg4 harg4 arg5 harg5 arg6 harg6 scDen (Memref.isWhole_whole _) scNum (Memref.isWhole_whole _) scAq (Memref.isWhole_whole _)) K } := by
  refine ⟨?_, ?_, ?_, fun xi4 E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, ⟨%dd, %fd, -, HD⟩, ⟨%dn, %fn, -, HN⟩, ⟨%da, %fa, -, HA⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HD]; · iexists _; iexact HD
    isplitl [HN]; · iexists _; iexact HN
    iexists _; iexact HA

set_option maxHeartbeats 4000000 in
/-- K-TILE 1. The inputs' memrefs at their contents, the output's at anything, the row sums, the positive terms and
    the cached anchor block at what the point before left (`xd`, `xn`, `xa`): the body runs to the inputs as they
    were, the cached block as it was, and the output, the row sums and the positive terms with their pieces written. -/
noncomputable def runLast (c : Dev nD) (i : grid0.Coords) (arg2 : Memref sig .tc .vmem S1x2048x512 .f32) (harg2 : arg2.IsWhole) (arg3 : Memref sig .tc .vmem S1x1024x512 .f32) (harg3 : arg3.IsWhole) (arg4 : Memref sig .tc .vmem S1x2048x3 .f32) (harg4 : arg4.IsWhole) (arg5 : Memref sig .tc .vmem S1x1024x3 .f32) (harg5 : arg5.IsWhole) (arg6 : Memref sig .tc .vmem S1x2048x1 .f32) (harg6 : arg6.IsWhole)
    (hc1 : ¬cond1 i) (hc2 : cond2 i)
    (x0 : Vec F S1x2048x512 .f32) (x1 : Vec F S1x1024x512 .f32) (x2 : Vec F S1x2048x3 .f32) (x3 : Vec F S1x1024x3 .f32)
    (xd : Vec F S2048x1 .f32) (xn : Vec F S2048x1 .f32) (xa : Vec F S2048x512 .bf16) :
    Σ' (L4 : List (View.Piece (Elt F) S1x2048x1 .f32)) (LD : List (View.Piece (Elt F) S2048x1 .f32)), { LN : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ owns (c : Thread nD τ) scDen fullShare xd ∗ owns (c : Thread nD τ) scNum fullShare xn ∗ owns (c : Thread nD τ) scAq fullShare xa
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, scDen.view.loc (c : Thread nD τ) ↦[scDen.view.set]{fullShare} scDen.view.writes (Elt F) f LD)
                ∗ (∃ f, scNum.view.loc (c : Thread nD τ) ↦[scNum.view.set]{fullShare} scNum.view.writes (Elt F) f LN)
                ∗ owns (c : Thread nD τ) scAq fullShare xa) -∗ K ⟨⟩))
          ⊢ wp frame (wpE (defs₀ (F := F)) Variants.none c none) E (cc0__loss_kernel i arg2 harg2 arg3 harg3 arg4 harg4 arg5 harg5 arg6 harg6 scDen (Memref.isWhole_whole _) scNum (Memref.isWhole_whole _) scAq (Memref.isWhole_whole _)) K } := by
  refine ⟨?_, ?_, ?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%d4, %f4, -, H4⟩, ⟨%fd, %hfd, HD⟩, ⟨%fnn, %hfn, HN⟩, ⟨%fa, %hfa, HA⟩, Hk⟩
    obtain rfl := harg2.eq_unread hf0; obtain rfl := harg3.eq_unread hf1; obtain rfl := harg4.eq_unread hf2; obtain rfl := harg5.eq_unread hf3
    obtain rfl := (Memref.isWhole_whole _ : scDen.IsWhole).eq_unread hfd; obtain rfl := (Memref.isWhole_whole _ : scNum.IsWhole).eq_unread hfn
    obtain rfl := (Memref.isWhole_whole _ : scAq.IsWhole).eq_unread hfa
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HD]; · iexists _; iexact HD
    isplitl [HN]; · iexists _; iexact HN
    iexists _; isplitr; · ipureintro; exact (Memref.isWhole_whole _ : scAq.IsWhole).read_unread _
    iexact HA

end Cert.KernelIdeal.Hand

end
-- ==== Proof.KIData.lean ====
/- The pipeline's proof data. A grid point of k-tile 0 needs nothing carried: it leaves the row sums of the first
   tile, the cached anchor block and the positive terms of rows 0–1023. The point of k-tile 1 that follows adds the
   second tile to those sums, completes the positive terms, and stores the rows' losses, which the pipeline then
   writes back. So between the two the invariant keeps the sums and the cached block exactly and the positive
   terms on their first 1024 rows; after a k-tile-1 point it keeps nothing. -/
import proofs.«412390_j6597069766920_3_alg».proof.Proof.KIRuns
import Idealize.ShloMosaic.Lib.Pipeline.FrameBody
import Idealize.ShloMosaic.Lib.WritesUnit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The views contents are stated through -/

abbrev VD : View sig .tc .vmem S2048x1 .f32 := scDen.view
abbrev VN : View sig .tc .vmem S2048x1 .f32 := scNum.view
abbrev VA : View sig .tc .vmem S2048x512 .bf16 := scAq.view
abbrev VO : View sig .tc .vmem S1x2048x1 .f32 := (Memref.whole cc0_stg4_0 : Memref sig .tc .vmem S1x2048x1 .f32).view

/-! ## What a k-tile-0 point leaves -/

/-- The body's run at a point of k-tile 0, on the point's staging memrefs and blocks. -/
def firstAt (c : Dev nD) (t : Fin cfg0.N) (h0 : t.val % 2 = 0) :=
  runFirst (F := F) c (grid0.coords t) (ms0 t) (hs0 t) (ms1 t) (hs1 t) (ms2 t) (hs2 t) (ms3 t) (hs3 t) (ms4 t) (hs4 t)
    ((hcond1 t).mpr h0) (fun h => by have := (hcond2 t).mp h; omega)
    (iblk m c 0 t) (iblk m c 1 t) (iblk m c 2 t) (iblk m c 3 t)

/-- The row sums after the first tile. -/
def denF (c : Dev nD) (t : Fin cfg0.N) (h0 : t.val % 2 = 0) : Vec F S2048x1 .f32 :=
  VD.read (Elt F) (VD.writes (Elt F) VD.junk (firstAt m c t h0).1)
/-- The positive terms, meaningful on rows 0–1023. -/
def numF (c : Dev nD) (t : Fin cfg0.N) (h0 : t.val % 2 = 0) : Vec F S2048x1 .f32 :=
  VN.read (Elt F) (VN.writes (Elt F) VN.junk (firstAt m c t h0).2.1)
/-- The cached anchor block. -/
def aqF (c : Dev nD) (t : Fin cfg0.N) (h0 : t.val % 2 = 0) : Vec F S2048x512 .bf16 :=
  VA.read (Elt F) (VA.writes (Elt F) VA.junk (firstAt m c t h0).2.2.1)

/-- Two contents of the positive terms' buffer that agree on rows 0–1023. -/
def AgreeLo (X Y : Vec F S2048x1 .f32) : Prop := ∀ y : S2048x1.Idx, (y 0).val < 1024 → X y = Y y

/-! ## What a k-tile-1 point leaves -/

/-- The point before. -/
def prevPt (t : Fin cfg0.N) : Fin cfg0.N := ⟨t.val - 1, Nat.lt_of_le_of_lt (Nat.sub_le _ _) t.isLt⟩
theorem prevPt_even (t : Fin cfg0.N) (h1 : t.val % 2 = 1) : (prevPt t).val % 2 = 0 := by
  show (t.val - 1) % 2 = 0; omega

/-- The body's run at a point of k-tile 1, on the point's staging memrefs and blocks, over carried contents. -/
def lastAt (c : Dev nD) (t : Fin cfg0.N) (h1 : t.val % 2 = 1)
    (xd xn : Vec F S2048x1 .f32) (xa : Vec F S2048x512 .bf16) :=
  runLast (F := F) c (grid0.coords t) (ms0 t) (hs0 t) (ms1 t) (hs1 t) (ms2 t) (hs2 t) (ms3 t) (hs3 t) (ms4 t) (hs4 t)
    (fun h => by have := (hcond1 t).mp h; omega) ((hcond2 t).mpr h1)
    (iblk m c 0 t) (iblk m c 1 t) (iblk m c 2 t) (iblk m c 3 t) xd xn xa

/-- The rows' losses: what the k-tile-1 point stores into the output block, over what the point before left. -/
def outL (c : Dev nD) (t : Fin cfg0.N) (h1 : t.val % 2 = 1) : Vec F S1x2048x1 .f32 :=
  VO.read (Elt F) (VO.writes (Elt F) VO.junk
    (lastAt m c t h1 (denF m c (prevPt t) (prevPt_even t h1)) (numF m c (prevPt t) (prevPt_even t h1)) (aqF m c (prevPt t) (prevPt_even t h1))).1)

/-- The output block after the body at point `t`: the losses at k-tile 1; at k-tile 0 the block is not stored
    (a placeholder nothing reads). -/
def after4 (c : Dev nD) (t : Fin cfg0.N) : Vec F S1x2048x1 .f32 :=
  if h1 : t.val % 2 = 1 then outL m c t h1 else VO.read (Elt F) VO.junk

/-! ## The invariant -/

/-- Before position `n`: at the start, and after a k-tile-1 point, the scratch buffers at anything; after a
    k-tile-0 point the sums and the cached block at what it left, the positive terms so on rows 0–1023. -/
def PhiS (c : Dev nD) : (n : ℕ) → n ≤ cfg0.N → sProp 𝕄
  | 0, _ => Pipeline.ΦA spec0 c
  | n + 1, hn =>
    if h0 : n % 2 = 0 then
      iprop(owns (c : Thread nD τ) scDen fullShare (denF m c ⟨n, hn⟩ h0)
        ∗ (∃ X, ⌜AgreeLo X (numF m c ⟨n, hn⟩ h0)⌝ ∗ owns (c : Thread nD τ) scNum fullShare X)
        ∗ owns (c : Thread nD τ) scAq fullShare (aqF m c ⟨n, hn⟩ h0) ∗ ∃ r, prngReg c r)
    else Pipeline.ΦA spec0 c

/-- The scratch buffers at anything and the generator register at some state. -/
theorem PhiA_eq (c : Dev nD) :
    (Pipeline.ΦA spec0 c : sProp 𝕄)
      = iprop(iprop((∃ d, owns (c : Thread nD τ) scDen fullShare d) ∗ (∃ d, owns (c : Thread nD τ) scNum fullShare d) ∗ (∃ d, owns (c : Thread nD τ) scAq fullShare d)) ∗ (∃ r, prngReg c r)) := by
  unfold Pipeline.ΦA; rw [scopedRest0_eq]; simp only [scDen, scNum, scAq, owns_whole]; try rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => after4 m c t
  Φ t := PhiS m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem q0_eq (c : Dev nD) : (dats m 0 c).q 0 = fullShare := rfl
theorem q1_eq (c : Dev nD) : (dats m 0 c).q 1 = fullShare := rfl
theorem q2_eq (c : Dev nD) : (dats m 0 c).q 2 = fullShare.left := rfl
theorem q3_eq (c : Dev nD) : (dats m 0 c).q 3 = fullShare.right := rfl
theorem owed_eq (c : Dev nD) (t : Fin (cfg0.N + 1)) : (dats m 0 c).owed t = 0 := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4_eq (c : Dev nD) (t : Fin cfg0.N) : (dats m 0 c).after 4 t = after4 m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.Hand

end
-- ==== Proof.KIOpen.lean ====
/- What the body's runs found, opened: the pieces that fill a buffer cover it; the positive terms a k-tile-0 point
   leaves on rows 0–1023 do not depend on what the buffer held; and the losses a k-tile-1 point stores read the
   carried positive terms on rows 0–1023 only (rows 1024–2047 are the ones it has just stored). -/
import proofs.«412390_j6597069766920_3_alg».proof.Proof.KIData
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The row sums' pieces at a k-tile-0 point cover the buffer. -/
theorem coverD_first (c : Dev nD) (t : Fin cfg0.N) (h0 : t.val % 2 = 0) (y : S2048x1.Idx) :
    ∃ pc ∈ (firstAt m c t h0).1, y ∈ pc.1.set := by
  unfold firstAt
  exact View.cover_of_tiled _ S2048x1.size (by sl_kernel_rfl) y

/-- The cached block's piece at a k-tile-0 point covers the buffer. -/
theorem coverA_first (c : Dev nD) (t : Fin cfg0.N) (h0 : t.val % 2 = 0) (y : S2048x512.Idx) :
    ∃ pc ∈ (firstAt m c t h0).2.2.1, y ∈ pc.1.set := by
  unfold firstAt
  exact View.cover_of_tiled _ S2048x512.size (by sl_kernel_rfl) y

/-- The output block's piece at a k-tile-1 point covers the block. -/
theorem cover4_last (c : Dev nD) (t : Fin cfg0.N) (h1 : t.val % 2 = 1)
    (xd xn : Vec F S2048x1 .f32) (xa : Vec F S2048x512 .bf16) (y : S1x2048x1.Idx) :
    ∃ pc ∈ (lastAt m c t h1 xd xn xa).1, y ∈ pc.1.set := by
  unfold lastAt
  exact View.cover_of_tiled _ S1x2048x1.size (by sl_kernel_rfl) y

/-! ## The positive terms' store: which rows it covers

The body stores the tile's 1024 positive terms at rows `1024 · (k-tile)` of the positive terms' buffer: rows 0–1023 at
k-tile 0, rows 1024–2047 at k-tile 1. The offset is a word of the grid point, decided over the eight points. -/

theorem off2_first : ∀ t : Fin cfg0.N, t.val % 2 = 0 → k0_off2 (grid0.coords t) = ![0, 0] :=
  (by decide +kernel : ∀ t : Fin grid0.N, t.val % 2 = 0 → k0_off2 (grid0.coords t) = ![0, 0])
theorem off2_last : ∀ t : Fin cfg0.N, t.val % 2 = 1 → k0_off2 (grid0.coords t) = ![1024, 0] :=
  (by decide +kernel : ∀ t : Fin grid0.N, t.val % 2 = 1 → k0_off2 (grid0.coords t) = ![1024, 0])

/-- After a store of the rows 1024–2047 the buffer reads the payload on those rows and what it held on rows 0–1023:
    so over two prior contents that agree on rows 0–1023, any load reads the same. -/
theorem readAt_rows_hi_congr {off : Fin 2 → ℕ} (hoff : off = ![1024, 0])
    (inb : ∀ a, off a + S1024x1.size a ≤ S2048x1.size a)
    (w : (Rect.unit (s := S2048x1) off S1024x1.size inb).shape.Idx → Elt F .f32)
    (r : Rect S2048x1) (hw : scNum.IsWhole) (X Y : Vec F S2048x1 .f32) (h : AgreeLo X Y) :
    View.readAt (Elt F) scNum.view r.toLoadRect
        (scNum.view.writes (Elt F) (hw.unread X) [(⟨Rect.unit (s := S2048x1) off S1024x1.size inb, w⟩ : View.Piece (Elt F) S2048x1 .f32)])
      = View.readAt (Elt F) scNum.view r.toLoadRect
        (scNum.view.writes (Elt F) (hw.unread Y) [(⟨Rect.unit (s := S2048x1) off S1024x1.size inb, w⟩ : View.Piece (Elt F) S2048x1 .f32)]) := by
  have key : scNum.view.read (Elt F) (scNum.view.writes (Elt F) (hw.unread X) [(⟨Rect.unit (s := S2048x1) off S1024x1.size inb, w⟩ : View.Piece (Elt F) S2048x1 .f32)])
      = scNum.view.read (Elt F) (scNum.view.writes (Elt F) (hw.unread Y) [(⟨Rect.unit (s := S2048x1) off S1024x1.size inb, w⟩ : View.Piece (Elt F) S2048x1 .f32)]) := by
    funext y
    rw [View.read_writes_cons_rows (o := 1024) (W := 1024) scNum.view (hw.unread X) inb w [] y hoff rfl rfl,
      View.read_writes_cons_rows (o := 1024) (W := 1024) scNum.view (hw.unread Y) inb w [] y hoff rfl rfl]
    by_cases hr : 1024 ≤ (y (0 : Fin 2)).val ∧ (y (0 : Fin 2)).val < 1024 + 1024
    · rw [dif_pos hr, dif_pos hr]
    · rw [dif_neg hr, dif_neg hr, View.writes_nil, View.writes_nil, hw.read_unread, hw.read_unread]
      have := (y (0 : Fin 2)).isLt
      exact h y (by
        have h2 : (y (0 : Fin 2)).val < 2048 := this
        omega)
  exact congrArg (fun Z => View.ld Z r) key

/-- After a k-tile-0 point the positive terms' buffer, whatever it held, agrees on rows 0–1023 with `numF`. -/
theorem numF_agree (c : Dev nD) (t : Fin cfg0.N) (h0 : t.val % 2 = 0) (f : VN.ty.Contents (Elt F)) :
    AgreeLo (VN.read (Elt F) (VN.writes (Elt F) f (firstAt m c t h0).2.1)) (numF m c t h0) := by
  intro y hy
  unfold numF
  refine View.read_writes_apply_eq VN f VN VN.junk y _ ?_
  unfold firstAt runFirst; dsimp only; sl_unfold_run_names
  -- the one piece is the rows from the point's offset on, 1024 of them: at k-tile 0 the rows 0–1023
  refine ⟨_, List.mem_cons_self, ?_⟩
  dsimp only
  rw [Rect.mem_set_unit, off2_first t h0]
  exact Rect.unit_rows_mem (o := 0) (W := 1024) y rfl rfl ⟨Nat.zero_le _, by omega⟩

/-- The output pieces of a k-tile-1 point depend on the carried positive terms through rows 0–1023 only. -/
theorem lastAt_out_congr (c : Dev nD) (t : Fin cfg0.N) (h1 : t.val % 2 = 1)
    (xd X Y : Vec F S2048x1 .f32) (xa : Vec F S2048x512 .bf16) (h : AgreeLo X Y) :
    (lastAt m c t h1 xd X xa).1 = (lastAt m c t h1 xd Y xa).1 := by
  unfold lastAt runLast; dsimp only; sl_unfold_run_names
  rw [readAt_rows_hi_congr (off2_last t h1) _ _ _ _ X Y h]

end Cert.KernelIdeal.Hand

end
-- ==== Proof.KIBody.lean ====
/- The body obligation. At a point of k-tile 0 the invariant hands the body the scratch buffers at anything and
   takes them back at what the run left; at a point of k-tile 1 it hands them at what the point before left, and
   the output block comes back at the rows' losses. The core owes nothing throughout. -/
import proofs.«412390_j6597069766920_3_alg».proof.Proof.KIOpen
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The invariant, point by point -/

theorem PhiS_castSucc (c : Dev nD) (t : Fin cfg0.N) :
    (dats m 0 c).Φ t.castSucc = PhiS m c t.val (Nat.le_of_lt t.isLt) := by
  dsimp only [dats]; simp only [Fin.coe_castSucc]

theorem PhiS_succ_even (c : Dev nD) (n : ℕ) (hn : n < cfg0.N) (h0 : n % 2 = 0) :
    PhiS m c (n + 1) hn = iprop(owns (c : Thread nD τ) scDen fullShare (denF m c ⟨n, hn⟩ h0)
        ∗ (∃ X, ⌜AgreeLo X (numF m c ⟨n, hn⟩ h0)⌝ ∗ owns (c : Thread nD τ) scNum fullShare X)
        ∗ owns (c : Thread nD τ) scAq fullShare (aqF m c ⟨n, hn⟩ h0) ∗ ∃ r, prngReg c r) := by
  show (if h0 : n % 2 = 0 then _ else _) = _
  rw [dif_pos h0]

theorem PhiS_succ_odd (c : Dev nD) (n : ℕ) (hn : n < cfg0.N) (h1 : ¬ n % 2 = 0) :
    PhiS m c (n + 1) hn = Pipeline.ΦA spec0 c := by
  show (if h0 : n % 2 = 0 then _ else _) = _
  rw [dif_neg h1]

theorem PhiS_even (c : Dev nD) (n : ℕ) (h : n ≤ cfg0.N) (h0 : n % 2 = 0) : PhiS m c n h = Pipeline.ΦA spec0 c := by
  cases n with
  | zero => rfl
  | succ k => exact PhiS_succ_odd m c k h (by omega)

theorem PhiS_at_odd (c : Dev nD) (t : Fin cfg0.N) (h1 : t.val % 2 = 1) :
    PhiS m c t.val (Nat.le_of_lt t.isLt)
      = iprop(owns (c : Thread nD τ) scDen fullShare (denF m c (prevPt t) (prevPt_even t h1))
        ∗ (∃ X, ⌜AgreeLo X (numF m c (prevPt t) (prevPt_even t h1))⌝ ∗ owns (c : Thread nD τ) scNum fullShare X)
        ∗ owns (c : Thread nD τ) scAq fullShare (aqF m c (prevPt t) (prevPt_even t h1)) ∗ ∃ r, prngReg c r) := by
  obtain ⟨n, hn⟩ := t
  cases n with
  | zero => simp at h1
  | succ k => exact PhiS_succ_even m c k (Nat.lt_of_succ_lt hn) (by simp only at h1; omega)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).Φ t.succ = PhiS m c (t.val + 1) t.isLt from rfl]
  by_cases h0 : t.val % 2 = 0
  · rw [Dat.leavesExact_idle (dats m 0 c) 4 t (idleAt4 t h0) (noFlush4 t h0)]
    rw [PhiS_castSucc m c t, PhiS_even m c _ _ h0, PhiA_eq, PhiS_succ_even m c t.val t.isLt h0]
    iintro ⟨⟨⟨HD, HN, HA⟩, Hg⟩, Ho, ⟨%d0, H0⟩, ⟨%d1, H1⟩, ⟨%d2, H2⟩, ⟨%d3, H3⟩, ⟨%d4, H4⟩⟩
    iapply ((firstAt m c t h0).2.2.2 ((dats m 0 c).before 4 t d4) Set.univ _)
    isplitl [H0]; · iexact H0
    isplitl [H1]; · iexact H1
    isplitl [H2]; · iexact H2
    isplitl [H3]; · iexact H3
    isplitl [H4]; · iexact H4
    isplitl [HD]; · iexact HD
    isplitl [HN]; · iexact HN
    isplitl [HA]; · iexact HA
    iintro ⟨H0, H1, H2, H3, H4, ⟨%fd, HD⟩, ⟨%fn, HN⟩, ⟨%fa, HA⟩⟩
    isplitl [HD HN HA Hg]
    · isplitl [HD]
      · unfold owns; iexists _; isplitr
        swap; · iexact HD
        ipureintro; exact View.read_writes_of_cover _ _ _ _ _ (coverD_first m c t h0)
      isplitl [HN]
      · iexists _; isplitr
        · ipureintro; exact numF_agree m c t h0 fn
        unfold owns; iexists _; isplitr
        swap; · iexact HN
        ipureintro; rfl
      isplitl [HA]
      · unfold owns; iexists _; isplitr
        swap; · iexact HA
        ipureintro; exact View.read_writes_of_cover _ _ _ _ _ (coverA_first m c t h0)
      iexact Hg
    isplitl [Ho]; · iexact Ho
    isplitl [H0]; · iexact H0
    isplitl [H1]; · iexact H1
    isplitl [H2]; · iexact H2
    isplitl [H3]; · iexact H3
    iexists _; iexact H4
  · have h1 : t.val % 2 = 1 := by omega
    rw [show (dats m 0 c).leavesExact 4 t = owns (c : Thread nD τ) (ms4 t) fullShare ((dats m 0 c).after 4 t) from by
      unfold Dat.leavesExact; rw [liveAt4 t h1], after4_eq, show after4 m c t = outL m c t h1 from dif_pos h1]
    rw [PhiS_castSucc m c t, PhiS_at_odd m c t h1, PhiS_succ_odd m c t.val t.isLt h0, PhiA_eq]
    iintro ⟨⟨HD, ⟨%X, %hX, HN⟩, HA, Hg⟩, Ho, ⟨%d0, H0⟩, ⟨%d1, H1⟩, ⟨%d2, H2⟩, ⟨%d3, H3⟩, ⟨%d4, H4⟩⟩
    iapply ((lastAt m c t h1 (denF m c (prevPt t) (prevPt_even t h1)) X (aqF m c (prevPt t) (prevPt_even t h1))).2.2.2 Set.univ _)
    isplitl [H0]; · iexact H0
    isplitl [H1]; · iexact H1
    isplitl [H2]; · iexact H2
    isplitl [H3]; · iexact H3
    isplitl [H4]; · iexists _; iexact H4
    isplitl [HD]; · iexact HD
    isplitl [HN]; · iexact HN
    isplitl [HA]; · iexact HA
    iintro ⟨H0, H1, H2, H3, ⟨%f4, H4⟩, ⟨%fd, HD⟩, ⟨%fn, HN⟩, HA⟩
    isplitl [HD HN HA Hg]
    · isplitl [HD HN HA]
      · isplitl [HD]
        · iexists _; unfold owns; iexists _; isplitr
          swap; · iexact HD
          ipureintro; rfl
        isplitl [HN]
        · iexists _; unfold owns; iexists _; isplitr
          swap; · iexact HN
          ipureintro; rfl
        iexists _; iexact HA
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro
    unfold outL
    rw [lastAt_out_congr m c t h1 _ X (numF m c (prevPt t) (prevPt_even t h1)) _ hX]
    exact View.read_writes_of_cover _ _ _ _ _ (cover4_last m c t h1 _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl]
  try exact Idealize.SL.BI.Entails.refl _

/-- After the last point (a k-tile-1 point) the invariant keeps nothing: the scratch buffers at anything. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_even m c _ _ (show cfg0.N % 2 = 0 from by rw [show cfg0.N = 8 from N_0])]
  try exact Idealize.SL.BI.Entails.refl _

end Cert.KernelIdeal.Hand

end
-- ==== Proof.KIHost.lean ====
/- @main around the kernel region: six stretches of host operations (three slices and broadcasts of the index
   pairs, three gathers), the region, and the mean of the rows' losses. Given the region's record between the
   thread states stated here, every fair run of @main ends with the mean at the host operations' value of what
   the region left in the loss array, and with the four arguments as launched. -/
import proofs.«412390_j6597069766920_3_alg».proof.Proof.KIBase

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- What the region leaves in the loss array, per core: the unknown the valuations below are written over. -/
abbrev Outs : Type := (c : Dev nD) → Buf (Elt F) ((c : Thread nD τ).loc main_v9)

/-- The unscoped buffers after the region: the loss array at what the region left, the others untouched. -/
abbrev V7 (outs : Outs (F := F)) (c : Dev nD) : Valuation τ sig (Elt F) := Function.update (V6 m c) main_v9 (outs c)
/-- And after the mean. -/
abbrev V8 (outs : Outs (F := F)) (c : Dev nD) : Valuation τ sig (Elt F) := StableHlo.after hostOps1 (V7 m outs c)

/-- No core owes another anything: no level is assigned. -/
abbrev L : GSem nD τ sig → Finset Unit := fun _ => ∅
abbrev lv : GSem nD τ sig → Unit → ℕ := fun _ _ => 0
/-- No pallas_call has a prefetched table. -/
abbrev adm : (p : Fin 1) → (pcfgs (F := F) p).Adm := fun p => (cfgs p).toPCfg_adm

/-- What rides beside the buffers between @main's items: the core owing nothing, and its generator register. -/
abbrev Rest (c : Dev nD) : sProp 𝕄 :=
  iprop((∃ W, owes (c : Thread nD τ) (0 : CellTallies nD τ sig Unit) W) ∗ ∃ r, prngReg c r)

/-! ## What the host stretches write

Every operation of a stretch writes one buffer, its result, and allocates none. Per stretch: the list of the
references written, so that a reference outside the list is read after the stretch as before it. -/

/-- The results of the first slice of the index pairs and its broadcast. -/
abbrev hostW0 : List (Ref sig .tc) :=
  [main_v0, main_v1]
theorem host0_fresh : (hostOps0 : List (HloOp τ sig (Elt F))).Forall fun op => op.fresh = ∅ := by
  simp only [List.Forall]; repeat' constructor
theorem host0_writes : (hostOps0 : List (HloOp τ sig (Elt F))).Forall fun op => op.writes ⊆ (hostW0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The results of the gather of the anchor features. -/
abbrev hostW1 : List (Ref sig .tc) :=
  [main_call0_c, main_call0_v0, main_call0_v1, main_call0_c_0, main_call0_v2, main_call0_v3, main_call0_v4,
    main_call0_v5, main_call0_c_1, main_call0_c_2, main_call0_v6, main_call0_v7, main_call0_v8, main_call0_v9, main_call0_v10,
    main_call0_v11, main_call0_c_3, main_call0_v12, main_call0_v13, main_call0_cst, main_call0_v14, main_v2]
theorem host1_fresh : (hostOps0_1 : List (HloOp τ sig (Elt F))).Forall fun op => op.fresh = ∅ := by
  simp only [List.Forall]; repeat' constructor
theorem host1_writes : (hostOps0_1 : List (HloOp τ sig (Elt F))).Forall fun op => op.writes ⊆ (hostW1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The results of the second slice and its broadcast. -/
abbrev hostW2 : List (Ref sig .tc) :=
  [main_v3, main_v4]
theorem host2_fresh : (hostOps0_2 : List (HloOp τ sig (Elt F))).Forall fun op => op.fresh = ∅ := by
  simp only [List.Forall]; repeat' constructor
theorem host2_writes : (hostOps0_2 : List (HloOp τ sig (Elt F))).Forall fun op => op.writes ⊆ (hostW2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The results of the gather of the anchor points. -/
abbrev hostW3 : List (Ref sig .tc) :=
  [main_call1_c, main_call1_v0, main_call1_v1, main_call1_c_0, main_call1_v2, main_call1_v3, main_call1_v4,
    main_call1_v5, main_call1_c_1, main_call1_c_2, main_call1_v6, main_call1_v7, main_call1_v8, main_call1_v9, main_call1_v10,
    main_call1_v11, main_call1_c_3, main_call1_v12, main_call1_v13, main_call1_cst, main_call1_v14, main_v5]
theorem host3_fresh : (hostOps0_3 : List (HloOp τ sig (Elt F))).Forall fun op => op.fresh = ∅ := by
  simp only [List.Forall]; repeat' constructor
theorem host3_writes : (hostOps0_3 : List (HloOp τ sig (Elt F))).Forall fun op => op.writes ⊆ (hostW3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The results of the slice of the positive indices and its broadcast. -/
abbrev hostW4 : List (Ref sig .tc) :=
  [main_v6, main_v7]
theorem host4_fresh : (hostOps0_4 : List (HloOp τ sig (Elt F))).Forall fun op => op.fresh = ∅ := by
  simp only [List.Forall]; repeat' constructor
theorem host4_writes : (hostOps0_4 : List (HloOp τ sig (Elt F))).Forall fun op => op.writes ⊆ (hostW4.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The results of the gather of the positive features. -/
abbrev hostW5 : List (Ref sig .tc) :=
  [main_call2_c, main_call2_v0, main_call2_v1, main_call2_c_0, main_call2_v2, main_call2_v3, main_call2_v4,
    main_call2_v5, main_call2_c_1, main_call2_c_2, main_call2_v6, main_call2_v7, main_call2_v8, main_call2_v9, main_call2_v10,
    main_call2_v11, main_call2_c_3, main_call2_v12, main_call2_v13, main_call2_cst, main_call2_v14, main_v8]
theorem host5_fresh : (hostOps0_5 : List (HloOp τ sig (Elt F))).Forall fun op => op.fresh = ∅ := by
  simp only [List.Forall]; repeat' constructor
theorem host5_writes : (hostOps0_5 : List (HloOp τ sig (Elt F))).Forall fun op => op.writes ⊆ (hostW5.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The results of the mean. -/
abbrev hostW7 : List (Ref sig .tc) :=
  [main_cst, main_v10, main_cst_0, main_v11]
theorem host7_fresh : (hostOps1 : List (HloOp τ sig (Elt F))).Forall fun op => op.fresh = ∅ := by
  simp only [List.Forall]; repeat' constructor
theorem host7_writes : (hostOps1 : List (HloOp τ sig (Elt F))).Forall fun op => op.writes ⊆ (hostW7.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-! ## What reaches the end as launched

A reference that no stretch writes and that is not the loss array holds at the end what it held at launch: the
valuations are peeled from the last to the first. -/

theorem host_keeps (outs : Outs (F := F)) (c : Dev nD) (r : Ref sig .tc)
    (h0 : r ∉ hostW0) (h1 : r ∉ hostW1) (h2 : r ∉ hostW2) (h3 : r ∉ hostW3) (h4 : r ∉ hostW4) (h5 : r ∉ hostW5)
    (h6 : r ≠ main_v9) (h7 : r ∉ hostW7) : V8 m outs c r = m ((c : Thread nD τ).loc r) :=
  (StableHlo.after_of_writes_sub hostOps1 _ host7_writes h7).trans <|
  (Function.update_of_ne (StableHlo.devRef_ne_of_ne h6 : (Proc.devRef .tc r : DevRef τ sig) ≠ Proc.devRef .tc main_v9) _ _).trans <|
  (StableHlo.after_of_writes_sub hostOps0_5 _ host5_writes h5).trans <|
  (StableHlo.after_of_writes_sub hostOps0_4 _ host4_writes h4).trans <|
  (StableHlo.after_of_writes_sub hostOps0_3 _ host3_writes h3).trans <|
  (StableHlo.after_of_writes_sub hostOps0_2 _ host2_writes h2).trans <|
  (StableHlo.after_of_writes_sub hostOps0_1 _ host1_writes h1).trans <|
  (StableHlo.after_of_writes_sub hostOps0 _ host0_writes h0).trans rfl

/-- The four arguments are such references. -/
theorem host_arg0 (outs : Outs (F := F)) (c : Dev nD) : V8 m outs c main_arg0 = m ((c : Thread nD τ).loc main_arg0) :=
  host_keeps m outs c main_arg0 (by decide) (by decide) (by decide) (by decide) (by decide) (by decide) (by decide) (by decide)
theorem host_arg1 (outs : Outs (F := F)) (c : Dev nD) : V8 m outs c main_arg1 = m ((c : Thread nD τ).loc main_arg1) :=
  host_keeps m outs c main_arg1 (by decide) (by decide) (by decide) (by decide) (by decide) (by decide) (by decide) (by decide)
theorem host_arg2 (outs : Outs (F := F)) (c : Dev nD) : V8 m outs c main_arg2 = m ((c : Thread nD τ).loc main_arg2) :=
  host_keeps m outs c main_arg2 (by decide) (by decide) (by decide) (by decide) (by decide) (by decide) (by decide) (by decide)
theorem host_arg3 (outs : Outs (F := F)) (c : Dev nD) : V8 m outs c main_arg3 = m ((c : Thread nD τ).loc main_arg3) :=
  host_keeps m outs c main_arg3 (by decide) (by decide) (by decide) (by decide) (by decide) (by decide) (by decide) (by decide)

/-! ## The stretches as segments -/

/-- A stretch of operations on TensorCore references that allocates nothing, run over the unscoped buffers from the
    valuation `W`, `Rest` riding along: it leaves them at `StableHlo.after ops (W c)`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

set_option backward.isDefEq.respectTransparency.types false in
/-- THE RUN, given the region's record: entered from the unscoped buffers at `V6` beside `Rest`, left at `V7`. -/
theorem run_of_region (ρ : Dev nD → PrngReg) (outs : Outs (F := F))
    (pdats : (p : Fin 1) → (c : Dev nD) → Dat τ (Elt F) Unit ℕ (UR sig nD τ) ℕ (cfgs p) c)
    (R0 : RegionSeg (pcfgs (F := F)) adm pdats () defs₀ Variants.none L lv 0)
    (hpre : ∀ c : Dev nD, iprop(StableHlo.held (c : Thread nD τ) (Pipeline.ucRefs τ sig) (V6 m c) ∗ Rest c) ⊢ R0.pre c)
    (hpost : ∀ c : Dev nD, R0.post c ⊢ iprop(StableHlo.held (c : Thread nD τ) (Pipeline.ucRefs τ sig) (V7 m outs c) ∗ Rest c)) :
    θ_run defs (onTc (τ := τ) (main (F := F))) ⟨m, fun _ => 0, ρ⟩ (fun r => ∀ c : Dev nD,
      r.2.mem ((c.tc : Thread nD τ).loc main_v11) = V8 m outs c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit (pcfgs (F := F)) adm pdats () cellOf_inj emb₁ defs₀ Variants.none L lv m ρ main
    [ .host (hostSeg hostOps0 hostOps0_sub host0_fresh (V0 m)),
      .host (hostSeg hostOps0_1 hostOps0_1_sub host1_fresh (V1 m)),
      .host (hostSeg hostOps0_2 hostOps0_2_sub host2_fresh (V2 m)),
      .host (hostSeg hostOps0_3 hostOps0_3_sub host3_fresh (V3 m)),
      .host (hostSeg hostOps0_4 hostOps0_4_sub host4_fresh (V4 m)),
      .host (hostSeg hostOps0_5 hostOps0_5_sub host5_fresh (V5 m)),
      .region R0,
      .host (hostSeg hostOps1 hostOps1_sub host7_fresh (V7 m outs)) ]
    (fun c Q => by
      -- @main is the chain of its items, and the segments run as the chain of theirs
      rewrite [main_chain c, Seg.run_eq_chain]
      exact .rfl)
    (by simp only [Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Rest c))
    (Tₙ := fun c => iprop(StableHlo.held (c : Thread nD τ) (Pipeline.ucRefs τ sig) (V8 m outs c) ∗ ∃ r, prngReg c r))
    (hch := ⟨fun _ => .rfl, fun _ => .rfl, fun _ => .rfl, fun _ => .rfl, fun _ => .rfl, fun _ => .rfl, hpre, hpost, fun c => ?_⟩)
    (hinit := ?_)
    (QY := fun c s => s.mem ((c.tc : Thread nD τ).loc main_v11) = V8 m outs c main_v11
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch element is the pipeline library's, whole; no ghost resource is asked of it
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- after the mean: the buffers at `V8`, and `Rest` parts into the register and the core owing nothing
    refine (show iprop(StableHlo.held (c : Thread nD τ) (Pipeline.ucRefs τ sig) (V8 m outs c) ∗ Rest c) ⊢ _ from ?_)
    iintro ⟨Hh, HO, Hp⟩
    isplitr [HO]
    · isplitl [Hh] <;> iassumption
    · iexact HO
  · -- the launch: the unscoped buffers are held at `V0`; the core owes nothing; its register is as dealt
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [HO]
    · iexists ∅; iexact HO
    · iexists _; iexact Hp
  · -- the end: the mean and each argument read off the last valuation
    unfold StableHlo.held
    iintro ⟨⟨Hh, -⟩, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v11) (Finset.mem_filter.mpr ⟨StableHlo.devRef_mem_tcRefs main_v11, by decide⟩),
        (h (Proc.devRef .tc main_arg0) (Finset.mem_filter.mpr ⟨StableHlo.devRef_mem_tcRefs main_arg0, by decide⟩)).trans (host_arg0 m outs c),
        (h (Proc.devRef .tc main_arg1) (Finset.mem_filter.mpr ⟨StableHlo.devRef_mem_tcRefs main_arg1, by decide⟩)).trans (host_arg1 m outs c),
        (h (Proc.devRef .tc main_arg2) (Finset.mem_filter.mpr ⟨StableHlo.devRef_mem_tcRefs main_arg2, by decide⟩)).trans (host_arg2 m outs c),
        (h (Proc.devRef .tc main_arg3) (Finset.mem_filter.mpr ⟨StableHlo.devRef_mem_tcRefs main_arg3, by decide⟩)).trans (host_arg3 m outs c)⟩
    · iexact HSI

end Cert.KernelIdeal.Hand

end
-- ==== Proof.KIRegion.lean ====
/- The kernel region's record. The anchor points' array is handed to the kernel through two windows (all the
   rows, and the k-tile's rows), so its buffer is held half by each; the other arrays are held whole. Entered
   from the unscoped buffers as the gathers left them, the region leaves them with the loss array at what the
   pipeline's write-backs made of it. -/
import proofs.«412390_j6597069766920_3_alg».proof.Proof.KIHost

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

/-- The buffers behind the five windows' arrays are four. -/
theorem arrImage : (Finset.univ.image (Pipeline.arrRef spec0)) = [main_v2, main_v8, main_v5, main_v9].toFinset := by decide

/-- Those four buffers, each whole at the full share, listed. -/
theorem arrBufs_eq (c : Dev nD) (W : (b : Ref sig .tc) → Buf (Elt F) ((c : Thread nD τ).loc b)) :
    (Pipeline.arrBufs spec0 c W : sProp 𝕄)
      = iprop((((c : Thread nD τ).loc main_v2) ↦{fullShare} W main_v2) ∗ (((c : Thread nD τ).loc main_v8) ↦{fullShare} W main_v8)
          ∗ (((c : Thread nD τ).loc main_v5) ↦{fullShare} W main_v5) ∗ (((c : Thread nD τ).loc main_v9) ↦{fullShare} W main_v9)) := by
  unfold Pipeline.arrBufs
  exact bigSep_eq_bigSepL_of_eq _ arrImage (by decide) _

/-- Each window's array, held as the pipeline holds it, is its buffer whole: at the share the proof data names for
    an input window, at the full share for the output window. -/
theorem arr0_eq (c : Dev nD) (dat : Dat τ (Elt F) Unit ℕ (UR sig nD τ) ℕ cfg0 c) (f : Buf (Elt F) ((cfg0.win 0).arr.view.loc (c : Thread nD τ))) :
    ((cfg0.win 0).arr.view.loc (c : Thread nD τ) ↦[(cfg0.win 0).arr.view.set]{dat.share 0} f : sProp 𝕄)
      = (((c : Thread nD τ).loc main_v2) ↦{dat.q 0} f) := by
  rw [(arr_whole0 0).set_eq_univ]; unfold Dat.share; rfl
theorem arr1_eq (c : Dev nD) (dat : Dat τ (Elt F) Unit ℕ (UR sig nD τ) ℕ cfg0 c) (f : Buf (Elt F) ((cfg0.win 1).arr.view.loc (c : Thread nD τ))) :
    ((cfg0.win 1).arr.view.loc (c : Thread nD τ) ↦[(cfg0.win 1).arr.view.set]{dat.share 1} f : sProp 𝕄)
      = (((c : Thread nD τ).loc main_v8) ↦{dat.q 1} f) := by
  rw [(arr_whole0 1).set_eq_univ]; unfold Dat.share; rfl
theorem arr2_eq (c : Dev nD) (dat : Dat τ (Elt F) Unit ℕ (UR sig nD τ) ℕ cfg0 c) (f : Buf (Elt F) ((cfg0.win 2).arr.view.loc (c : Thread nD τ))) :
    ((cfg0.win 2).arr.view.loc (c : Thread nD τ) ↦[(cfg0.win 2).arr.view.set]{dat.share 2} f : sProp 𝕄)
      = (((c : Thread nD τ).loc main_v5) ↦{dat.q 2} f) := by
  rw [(arr_whole0 2).set_eq_univ]; unfold Dat.share; rfl
theorem arr3_eq (c : Dev nD) (dat : Dat τ (Elt F) Unit ℕ (UR sig nD τ) ℕ cfg0 c) (f : Buf (Elt F) ((cfg0.win 3).arr.view.loc (c : Thread nD τ))) :
    ((cfg0.win 3).arr.view.loc (c : Thread nD τ) ↦[(cfg0.win 3).arr.view.set]{dat.share 3} f : sProp 𝕄)
      = (((c : Thread nD τ).loc main_v5) ↦{dat.q 3} f) := by
  rw [(arr_whole0 3).set_eq_univ]; unfold Dat.share; rfl
theorem arr4_eq (c : Dev nD) (dat : Dat τ (Elt F) Unit ℕ (UR sig nD τ) ℕ cfg0 c) (f : Buf (Elt F) ((cfg0.win 4).arr.view.loc (c : Thread nD τ))) :
    ((cfg0.win 4).arr.view.loc (c : Thread nD τ) ↦[(cfg0.win 4).arr.view.set]{dat.share 4} f : sProp 𝕄)
      = (((c : Thread nD τ).loc main_v9) ↦{fullShare} f) := by
  rw [(arr_whole0 4).set_eq_univ]; unfold Dat.share; rfl

/-- The five windows' arrays at contents `G`, listed: the anchor points' buffer appears twice, half a share each. -/
theorem arrays_eq5 (c : Dev nD) (dat : Dat τ (Elt F) Unit ℕ (UR sig nD τ) ℕ cfg0 c)
    (hq0 : dat.q 0 = fullShare) (hq1 : dat.q 1 = fullShare) (hq2 : dat.q 2 = fullShare.left) (hq3 : dat.q 3 = fullShare.right)
    (G : (w : Fin cfg0.W) → Buf (Elt F) ((cfg0.win w).arr.view.loc (c : Thread nD τ))) :
    (dat.arrays G : sProp 𝕄)
      = iprop((((c : Thread nD τ).loc main_v2) ↦{fullShare} G 0) ∗ (((c : Thread nD τ).loc main_v8) ↦{fullShare} G 1)
          ∗ (((c : Thread nD τ).loc main_v5) ↦{fullShare.left} G 2) ∗ (((c : Thread nD τ).loc main_v5) ↦{fullShare.right} G 3)
          ∗ (((c : Thread nD τ).loc main_v9) ↦{fullShare} G 4)) := by
  unfold Dat.arrays
  refine (bigSep_W0 _).trans ?_
  exact congrArg₂ _ ((arr0_eq c dat _).trans (by rw [hq0])) (congrArg₂ _ ((arr1_eq c dat _).trans (by rw [hq1]))
    (congrArg₂ _ ((arr2_eq c dat _).trans (by rw [hq2])) (congrArg₂ _ ((arr3_eq c dat _).trans (by rw [hq3])) (arr4_eq c dat _))))

/-- ENTRY: the four buffers at `W` are the five windows' arrays at what `W` holds behind each, the anchor
    points' buffer dealt in two halves to the two windows on it. -/
theorem arrays_of_arrBufs (c : Dev nD) (dat : Dat τ (Elt F) Unit ℕ (UR sig nD τ) ℕ cfg0 c)
    (hq0 : dat.q 0 = fullShare) (hq1 : dat.q 1 = fullShare) (hq2 : dat.q 2 = fullShare.left) (hq3 : dat.q 3 = fullShare.right)
    (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    (Pipeline.arrBufs spec0 c W : sProp 𝕄) ⊢ dat.arrays G := by
  obtain rfl : G = fun w => W (Pipeline.arrRef spec0 w) := funext hG
  rw [arrBufs_eq, arrays_eq5 c dat hq0 hq1 hq2 hq3]
  iintro ⟨H2, H8, H5, H9⟩
  ihave H5' := (pointsTo_share (PosShare.mem_left_op_right fullShare)).1 $$ H5
  icases H5' with ⟨H5l, H5r⟩
  isplitl [H2]; · iexact H2
  isplitl [H8]; · iexact H8
  isplitl [H5l]; · iexact H5l
  isplitl [H5r]; · iexact H5r
  iexact H9

/-- EXIT: the five windows' arrays, the two on the anchor points' buffer at the same contents, are the four
    buffers whole again. -/
theorem arrBufs_of_arrays (c : Dev nD) (dat : Dat τ (Elt F) Unit ℕ (UR sig nD τ) ℕ cfg0 c)
    (hq0 : dat.q 0 = fullShare) (hq1 : dat.q 1 = fullShare) (hq2 : dat.q 2 = fullShare.left) (hq3 : dat.q 3 = fullShare.right)
    (W : (b : Ref sig .tc) → Buf (Elt F) ((c : Thread nD τ).loc b))
    (G : (w : Fin cfg0.W) → Buf (Elt F) ((cfg0.win w).arr.view.loc (c : Thread nD τ)))
    (h0 : G 0 = W main_v2) (h1 : G 1 = W main_v8) (h2 : G 2 = W main_v5) (h3 : G 3 = W main_v5) (h4 : G 4 = W main_v9) :
    (dat.arrays G : sProp 𝕄) ⊢ Pipeline.arrBufs spec0 c W := by
  rw [arrBufs_eq, arrays_eq5 c dat hq0 hq1 hq2 hq3, h0, h1, h2, h3, h4]
  iintro ⟨H2, H8, H5l, H5r, H9⟩
  isplitl [H2]; · iexact H2
  isplitl [H8]; · iexact H8
  isplitl [H5l H5r]
  · iapply (pointsTo_share (PosShare.mem_left_op_right fullShare)).2
    isplitl [H5l]; · iexact H5l
    iexact H5r
  iexact H9

/-- What the region leaves in the loss array: the pipeline's account of its write-backs. -/
abbrev outsOf (dats : (p : Fin 1) → (c : Dev nD) → Dat τ (Elt F) Unit ℕ (UR sig nD τ) ℕ (cfgs p) c) : Outs (F := F) :=
  fun c => (dats 0 c).arrAt 4 cfg0.N

section

variable (m : (ℓ : Loc nD τ sig) → Buf (Elt F) ℓ)

/-- The core owing nothing is what the pipeline holds before a point at which the proof data owes nothing and
    bounds nothing, -/
theorem owesAt_of_owes (c : Dev nD) (dat : Dat τ (Elt F) Unit ℕ (UR sig nD τ) ℕ cfg0 c) (t : Fin (cfg0.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩
  iexists W
  isplitr
  · ipureintro; intro x _; exact Or.inl (by rw [hr]; exact Set.mem_univ x)
  iexact HO

/-- and back. -/
theorem owes_of_owesAt (c : Dev nD) (dat : Dat τ (Elt F) Unit ℕ (UR sig nD τ) ℕ cfg0 c) (t : Fin (cfg0.N + 1))
    (ho : dat.owed t = 0) :
    (dat.owesAt () t : sProp 𝕄) ⊢ iprop(∃ W, owes (c : Thread nD τ) (0 : CellTallies nD τ sig Unit) W) := by
  unfold Pipeline.Dat.owesAt Pipeline.owesWithin
  rw [ho]
  iintro ⟨%W, -, HO⟩
  iexists W
  iexact HO

/-- The unscoped buffers after the region, read at the TensorCore's references. -/
abbrev W7 (outs : Outs (F := F)) (c : Dev nD) (b : Ref sig .tc) : Buf (Elt F) ((c : Thread nD τ).loc b) :=
  V7 m outs c (Proc.devRef .tc b)

/-- The loss array apart they are as the region found them; -/
theorem W7_of_ne (outs : Outs (F := F)) (c : Dev nD) {b : Ref sig .tc} (hb : b ≠ main_v9) : W7 m outs c b = V m c b :=
  Function.update_of_ne (StableHlo.devRef_ne_of_ne hb) _ _
/-- the loss array is at what the region left. -/
theorem W7_self (outs : Outs (F := F)) (c : Dev nD) : W7 m outs c main_v9 = outs c := Function.update_self _ _ _

/-- The buffers that are no window's array are untouched. -/
theorem unscopedRest_W7 (outs : Outs (F := F)) (c : Dev nD) :
    (Pipeline.unscopedRest spec0 c (W7 m outs c) : sProp 𝕄) = Pipeline.unscopedRest spec0 c (V m c) := by
  unfold Pipeline.unscopedRest
  refine bigSep_congr fun b hb => ?_
  rw [W7_of_ne m outs c fun e => (Finset.mem_sdiff.mp hb).2 (Finset.mem_image.mpr ⟨4, Finset.mem_univ _, e.symm⟩)]

/-- The unscoped buffers as the region finds them: the four buffers behind the windows, and the rest. -/
theorem held_V6 (c : Dev nD) :
    (StableHlo.held (c : Thread nD τ) (Pipeline.ucRefs τ sig) (V6 m c) : sProp 𝕄)
      = iprop(Pipeline.arrBufs spec0 c (V m c) ∗ Pipeline.unscopedRest spec0 c (V m c)) := by
  rw [← Pipeline.unscopedBufs_split₀ cfgs 0 winFacts₀0.arr_unscoped c (V m c)]
  exact (Pipeline.unscopedBufs_held c (V6 m c)).symm

/-- The unscoped buffers as the region leaves them: the four buffers at the new contents, and the same rest. -/
theorem held_V7 (outs : Outs (F := F)) (c : Dev nD) :
    (StableHlo.held (c : Thread nD τ) (Pipeline.ucRefs τ sig) (V7 m outs c) : sProp 𝕄)
      = iprop(Pipeline.arrBufs spec0 c (W7 m outs c) ∗ Pipeline.unscopedRest spec0 c (V m c)) := by
  rw [← unscopedRest_W7 m outs c, ← Pipeline.unscopedBufs_split₀ cfgs 0 winFacts₀0.arr_unscoped c (W7 m outs c)]
  exact (Pipeline.unscopedBufs_held c (V7 m outs c)).symm

/-- ENTRY: the unscoped buffers as the gathers left them, beside the core owing nothing and its generator
    register, are the windows' arrays at the proof data's entry contents, the pipeline's `owes`, the register and
    the buffers that are no window's. -/
theorem entry0 (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare) (hq1 : ∀ c, (dats 0 c).q 1 = fullShare)
    (hq2 : ∀ c, (dats 0 c).q 2 = fullShare.left) (hq3 : ∀ c, (dats 0 c).q 3 = fullShare.right)
    (howed : ∀ c t, (dats 0 c).owed t = 0) (hrec : ∀ c, (dats 0 c).recorded 0 = Set.univ) (c : Dev nD) :
    iprop(StableHlo.held (c : Thread nD τ) (Pipeline.ucRefs τ sig) (V6 m c) ∗ Rest c)
      ⊢ (iprop((dats 0 c).arrays ((dats 0 c).arrAt · 0) ∗ (dats 0 c).owesAt () 0 ∗ (∃ r, prngReg c r)
          ∗ Pipeline.unscopedRest spec0 c (V m c)) : sProp 𝕄) := by
  rw [held_V6]
  iintro ⟨⟨Ha, HZ⟩, HO, HP⟩
  isplitl [Ha]
  · iapply (arrays_of_arrBufs c (dats 0 c) (hq0 c) (hq1 c) (hq2 c) (hq3 c) (V m c) _ fun w => hA c w); iexact Ha
  isplitl [HO]
  · iapply (owesAt_of_owes c (dats 0 c) 0 (howed c 0) (hrec c)); iexact HO
  isplitl [HP]; · iexact HP
  iexact HZ

/-- EXIT: the windows' arrays after the write-backs — the inputs' as they were, the two halves of the anchor
    points' buffer at the same contents, the loss array at the write-backs' account — with the same rest are the
    unscoped buffers with the loss array updated. -/
theorem exit0 (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare) (hq1 : ∀ c, (dats 0 c).q 1 = fullShare)
    (hq2 : ∀ c, (dats 0 c).q 2 = fullShare.left) (hq3 : ∀ c, (dats 0 c).q 3 = fullShare.right)
    (howed : ∀ c t, (dats 0 c).owed t = 0) (c : Dev nD) :
    (iprop((dats 0 c).arrays ((dats 0 c).arrAt · cfg0.N) ∗ (dats 0 c).owesAt () (Fin.last cfg0.N) ∗ (∃ r, prngReg c r)
        ∗ Pipeline.unscopedRest spec0 c (V m c)) : sProp 𝕄)
      ⊢ iprop(StableHlo.held (c : Thread nD τ) (Pipeline.ucRefs τ sig) (V7 m (outsOf dats) c) ∗ Rest c) := by
  rw [held_V7]
  have h0 : (dats 0 c).arrAt 0 cfg0.N = W7 m (outsOf dats) c main_v2 :=
    ((dats 0 c).arrAt_in 0 rfl _).trans ((hA c 0).trans (W7_of_ne m _ c (by decide)).symm)
  have h1 : (dats 0 c).arrAt 1 cfg0.N = W7 m (outsOf dats) c main_v8 :=
    ((dats 0 c).arrAt_in 1 rfl _).trans ((hA c 1).trans (W7_of_ne m _ c (by decide)).symm)
  have h2 : (dats 0 c).arrAt 2 cfg0.N = W7 m (outsOf dats) c main_v5 :=
    ((dats 0 c).arrAt_in 2 rfl _).trans ((hA c 2).trans (W7_of_ne m _ c (by decide)).symm)
  have h3 : (dats 0 c).arrAt 3 cfg0.N = W7 m (outsOf dats) c main_v5 :=
    ((dats 0 c).arrAt_in 3 rfl _).trans ((hA c 3).trans (W7_of_ne m _ c (by decide)).symm)
  have h4 : (dats 0 c).arrAt 4 cfg0.N = W7 m (outsOf dats) c main_v9 := (W7_self m (outsOf dats) c).symm
  iintro ⟨Ha, HO, HP, HZ⟩
  isplitr [HO HP]
  · isplitl [Ha]
    · iapply (arrBufs_of_arrays c (dats 0 c) (hq0 c) (hq1 c) (hq2 c) (hq3 c) (W7 m (outsOf dats) c)
        (fun w => (dats 0 c).arrAt w cfg0.N) h0 h1 h2 h3 h4); iexact Ha
    iexact HZ
  isplitl [HO]
  · iapply (owes_of_owesAt c (dats 0 c) _ (howed c _)); iexact HO
  iexact HP

end

-- the record's fields are stated over the pinned configuration; seeing `cfg0` through it takes unfolding plain
-- definitions inside types
set_option backward.isDefEq.respectTransparency.types false in
/-- THE REGION. -/
def reg0 (m : (ℓ : Loc nD τ sig) → Buf (Elt F) ℓ)
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare) (hq1 : ∀ c, (dats 0 c).q 1 = fullShare)
    (hq2 : ∀ c, (dats 0 c).q 2 = fullShare.left) (hq3 : ∀ c, (dats 0 c).q 3 = fullShare.right)
    (howed : ∀ c t, (dats 0 c).owed t = 0)
    (hrec : ∀ c, (dats 0 c).recorded 0 = Set.univ)
    (hbody : ∀ c, BodyObligation (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    RegionSeg (pcfgs (F := F)) adm dats () defs₀ Variants.none L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (V6 m c) ∗ Rest c)
  post c := iprop(StableHlo.held (c : Thread nD τ) (Pipeline.ucRefs τ sig) (V7 m (outsOf dats) c) ∗ Rest c)
  X c := iprop(∃ r, prngReg c r)
  Y c := iprop(∃ r, prngReg c r)
  Z c := Pipeline.unscopedRest spec0 c (V m c)
  hentry c := by
    iintro ⟨Hpre, -, -⟩
    ihave H := (entry0 m dats hA hq0 hq1 hq2 hq3 howed hrec c) $$ Hpre
    icases H with ⟨Ha, HO, HX, HZ⟩
    imodintro
    isplitl [Ha]; · iexact Ha
    isplitr; · unfold Pipeline.prefHeld; rw [show (Finset.univ : Finset (Fin 0)) = ∅ from rfl, BI.bigSep_empty]; iempintro
    isplitl [HO]; · iexact HO
    isplitl [HX]; · iexact HX
    iexact HZ
  hin c := by
    refine BIBase.Entails.trans ?_ (hin c)
    unfold Pipeline.ΦA
    iintro ⟨HX, -, HR⟩
    isplitl [HR]; · iexact HR
    iexact HX
  hout c := by
    rw [Pipeline.ownSems0_none]
    refine (hout c).trans ?_
    unfold Pipeline.ΦA
    iintro ⟨HR, HY⟩
    isplitl [HY]; · iexact HY
    isplitr; · iempintro
    iexact HR
  hexit c := by
    iintro ⟨Ha, HO, HY, HZ⟩
    imodintro
    iapply (exit0 m dats hA hq0 hq1 hq2 hq3 howed c)
    isplitl [Ha]; · iexact Ha
    isplitl [HO]; · iexact HO
    isplitl [HY]; · iexact HY
    iexact HZ

/-- It is entered from the unscoped buffers as the gathers left them, -/
theorem reg0_pre (m : (ℓ : Loc nD τ sig) → Buf (Elt F) ℓ)
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare) (hq1 : ∀ c, (dats 0 c).q 1 = fullShare)
    (hq2 : ∀ c, (dats 0 c).q 2 = fullShare.left) (hq3 : ∀ c, (dats 0 c).q 3 = fullShare.right)
    (howed : ∀ c t, (dats 0 c).owed t = 0)
    (hrec : ∀ c, (dats 0 c).recorded 0 = Set.univ)
    (hbody : ∀ c, BodyObligation (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) (c : Dev nD) :
    iprop(StableHlo.held (c : Thread nD τ) (Pipeline.ucRefs τ sig) (V6 m c) ∗ Rest c)
      ⊢ (reg0 m dats hA hq0 hq1 hq2 hq3 howed hrec hbody hin hout).pre c := .rfl

/-- and leaves them with the loss array at the write-backs' account. -/
theorem reg0_post (m : (ℓ : Loc nD τ sig) → Buf (Elt F) ℓ)
    (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare) (hq1 : ∀ c, (dats 0 c).q 1 = fullShare)
    (hq2 : ∀ c, (dats 0 c).q 2 = fullShare.left) (hq3 : ∀ c, (dats 0 c).q 3 = fullShare.right)
    (howed : ∀ c t, (dats 0 c).owed t = 0)
    (hrec : ∀ c, (dats 0 c).recorded 0 = Set.univ)
    (hbody : ∀ c, BodyObligation (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) (c : Dev nD) :
    (reg0 m dats hA hq0 hq1 hq2 hq3 howed hrec hbody hin hout).post c
      ⊢ iprop(StableHlo.held (c : Thread nD τ) (Pipeline.ucRefs τ sig) (V7 m (outsOf dats) c) ∗ Rest c) := .rfl

end Cert.KernelIdeal.Hand

end
-- ==== Proof.KIFrame.lean ====
/- The kernel's run and frame: the body obligation, the region's record and the host side joined. Every fair run of
   @main ends with the mean at the host operations' value of the loss array the write-backs made, and the four
   arguments as launched. -/
import proofs.«412390_j6597069766920_3_alg».proof.Proof.KIBody
import proofs.«412390_j6597069766920_3_alg».proof.Proof.KIRegion
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's record at the proof data. -/
abbrev regionOf : Pipeline.RegionSeg (pcfgs (F := F)) adm (dats m) () defs₀ Variants.none L lv 0 :=
  reg0 m (dats m) (A_eq m) (q0_eq m) (q1_eq m) (q2_eq m) (q3_eq m) (owed_eq m) (fun _ => rfl) (body_obligation m) (hin m) (hout m)

theorem run_main : θ_run defs (onTc (τ := τ) (main (F := F))) ⟨m, fun _ => 0, ρ⟩ (fun r => ∀ c : Dev nD,
      r.2.mem ((c.tc : Thread nD τ).loc main_v11) = V8 m (outsOf (dats m)) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of_region m ρ (outsOf (dats m)) (dats m) (regionOf m)
    (reg0_pre m (dats m) (A_eq m) (q0_eq m) (q1_eq m) (q2_eq m) (q3_eq m) (owed_eq m) (fun _ => rfl) (body_obligation m) (hin m) (hout m))
    (reg0_post m (dats m) (A_eq m) (q0_eq m) (q1_eq m) (q2_eq m) (q3_eq m) (owed_eq m) (fun _ => rfl) (body_obligation m) (hin m) (hout m))

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.KIGatherPts.lean ====
/- The kernel program's gather of the anchor points, evaluated over any contents of the unscoped buffers: the slice
   and broadcast of the index pairs' first column and the 22 operations of the row gather leave in the gathered array
   the same stages the reference computes it by. -/
import proofs.«412390_j6597069766920_3_alg».proof.Proof.KIHost
import proofs.«412390_j6597069766920_3_alg».proof.Proof.RefReadP
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

/-- The first seven operations of the row gather: the index is compared with zero, the table's height is added, and the wrapped index selected. -/
abbrev pts_ops1 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S4x2048x3, .i32⟩) (broadcastInDim S4x2048x3 ![] bcast_S_S4x2048x3),
    StableHlo.TRef.binary (.of main_v4 : StableHlo.TRef sig ⟨S4x2048x3, .i32⟩) (.of main_call1_v0 : StableHlo.TRef sig ⟨S4x2048x3, .i32⟩) (.of main_call1_v1 : StableHlo.TRef sig ⟨S4x2048x3, .i1⟩) (cmpi .slt),
    StableHlo.TRef.nullary (.of main_call1_c_0 : StableHlo.TRef sig ⟨S_, .i32⟩) (constantI S_ 32 8192#32),
    StableHlo.TRef.unary (.of main_call1_c_0 : StableHlo.TRef sig ⟨S_, .i32⟩) (.of main_call1_v2 : StableHlo.TRef sig ⟨S4x2048x3, .i32⟩) (broadcastInDim S4x2048x3 ![] bcast_S_S4x2048x3),
    StableHlo.TRef.binary (.of main_v4 : StableHlo.TRef sig ⟨S4x2048x3, .i32⟩) (.of main_call1_v2 : StableHlo.TRef sig ⟨S4x2048x3, .i32⟩) (.of main_call1_v3 : StableHlo.TRef sig ⟨S4x2048x3, .i32⟩) addi,
    StableHlo.TRef.ternary (.of main_call1_v1 : StableHlo.TRef sig ⟨S4x2048x3, .i1⟩) (.of main_call1_v3 : StableHlo.TRef sig ⟨S4x2048x3, .i32⟩) (.of main_v4 : StableHlo.TRef sig ⟨S4x2048x3, .i32⟩) (.of main_call1_v4 : StableHlo.TRef sig ⟨S4x2048x3, .i32⟩) select ]

/-- The reshape of the wrapped indices to index vectors of length one. -/
abbrev pts_ops2 : List (HloOp τ sig (Elt F)) :=
  [ StableHlo.TRef.reshape (.of main_call1_v4 : StableHlo.TRef sig ⟨S4x2048x3, .i32⟩) (.of main_call1_v5 : StableHlo.TRef sig ⟨S4x2048x3x1, .i32⟩) rfl shapeCasts_S4x2048x3_S4x2048x3x1 ]

/-- The last fourteen operations: the range test, the gather, and the select of the fill value where the index is out of range. -/
abbrev pts_ops3 : List (HloOp τ sig (Elt F)) :=
  [ StableHlo.TRef.nullary (.of main_call1_c_1 : StableHlo.TRef sig ⟨S1, .i32⟩) (constantI S1 32 8191#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S4x2048x3x1, .i32⟩) (broadcastInDim S4x2048x3x1 ![] bcast_S_S4x2048x3x1),
    StableHlo.TRef.binary (.of main_call1_v5 : StableHlo.TRef sig ⟨S4x2048x3x1, .i32⟩) (.of main_call1_v6 : StableHlo.TRef sig ⟨S4x2048x3x1, .i32⟩) (.of main_call1_v7 : StableHlo.TRef sig ⟨S4x2048x3x1, .i1⟩) (cmpi .sge),
    StableHlo.TRef.unary (.of main_call1_c_1 : StableHlo.TRef sig ⟨S1, .i32⟩) (.of main_call1_v8 : StableHlo.TRef sig ⟨S1x1x1x1, .i32⟩) (broadcastInDim S1x1x1x1 ![3] bcast_S1_S1x1x1x1_3),
    StableHlo.TRef.unary (.of main_call1_v8 : StableHlo.TRef sig ⟨S1x1x1x1, .i32⟩) (.of main_call1_v9 : StableHlo.TRef sig ⟨S4x2048x3x1, .i32⟩) (broadcastInDim S4x2048x3x1 ![0, 1, 2, 3] bcast_S1x1x1x1_S4x2048x3x1_0_1_2_3),
    StableHlo.TRef.binary (.of main_call1_v5 : StableHlo.TRef sig ⟨S4x2048x3x1, .i32⟩) (.of main_call1_v9 : StableHlo.TRef sig ⟨S4x2048x3x1, .i32⟩) (.of main_call1_v10 : StableHlo.TRef sig ⟨S4x2048x3x1, .i1⟩) (cmpi .sle),
    StableHlo.TRef.binary (.of main_call1_v7 : StableHlo.TRef sig ⟨S4x2048x3x1, .i1⟩) (.of main_call1_v10 : StableHlo.TRef sig ⟨S4x2048x3x1, .i1⟩) (.of main_call1_v11 : StableHlo.TRef sig ⟨S4x2048x3x1, .i1⟩) andi,
    StableHlo.TRef.nullary (.of main_call1_c_3 : StableHlo.TRef sig ⟨S_, .i1⟩) (constantI S_ 1 1#1),
    StableHlo.TRef.binary (.of main_call1_v11 : StableHlo.TRef sig ⟨S4x2048x3x1, .i1⟩) (.of main_call1_c_3 : StableHlo.TRef sig ⟨S_, .i1⟩) (.of main_call1_v12 : StableHlo.TRef sig ⟨S4x2048x3, .i1⟩) (fun x v => Host.reduce IntOp.andi x v reducesTo_S4x2048x3x1_S4x2048x3_d3 h_S_),
    StableHlo.TRef.binary (.of main_arg1 : StableHlo.TRef sig ⟨S4x8192x3, .f32⟩) (.of main_call1_v5 : StableHlo.TRef sig ⟨S4x2048x3x1, .i32⟩) (.of main_call1_v13 : StableHlo.TRef sig ⟨S4x2048x3, .f32⟩) (fun x i => Host.gather gather_S4x8192x3_S4x2048x3x1_S4x2048x3_n_1_02_02_1_3_111 x i),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S4x2048x3, .f32⟩) (broadcastInDim S4x2048x3 ![] bcast_S_S4x2048x3),
    StableHlo.TRef.ternary (.of main_call1_v12 : StableHlo.TRef sig ⟨S4x2048x3, .i1⟩) (.of main_call1_v13 : StableHlo.TRef sig ⟨S4x2048x3, .f32⟩) (.of main_call1_v14 : StableHlo.TRef sig ⟨S4x2048x3, .f32⟩) (.of main_v5 : StableHlo.TRef sig ⟨S4x2048x3, .f32⟩) select ]

/-- The row gather's 22 operations are those three runs in a row. -/
theorem pts_ops_split : (hostOps0_3 : List (HloOp τ sig (Elt F))) = pts_ops1 ++ (pts_ops2 ++ pts_ops3) := rfl

/-- After the slice, the broadcast and the first seven operations, the wrapped indices are the reference's. -/
theorem pts_stage1 (W : Valuation τ sig (Elt F)) :
    StableHlo.after (pts_ops1 (F := F)) (StableHlo.after hostOps0_2 W) (Proc.devRef .tc main_call1_v4)
      = Cert.ReferenceIdeal.ReadP.val_main_call1_v4 (F := F) (W (Proc.devRef .tc main_arg3)) := by
  after_results_simp
  try simp only [StableHlo.TRef.ofBuf, StableHlo.TRef.toBuf, cast_eq]
  simp only [Cert.ReferenceIdeal.ReadP.val_main_v3, Cert.ReferenceIdeal.ReadP.val_main_v4, Cert.ReferenceIdeal.ReadP.val_main_call1_c, Cert.ReferenceIdeal.ReadP.val_main_call1_v0, Cert.ReferenceIdeal.ReadP.val_main_call1_v1, Cert.ReferenceIdeal.ReadP.val_main_call1_c_0, Cert.ReferenceIdeal.ReadP.val_main_call1_v2, Cert.ReferenceIdeal.ReadP.val_main_call1_v3, Cert.ReferenceIdeal.ReadP.val_main_call1_v4] <;> rfl

/-- The reshape takes the reference's wrapped indices to the reference's index vectors. -/
theorem pts_stage2 (W : Valuation τ sig (Elt F)) (x3 : (⟨S4x2048x2, .i32⟩ : BufTy).Contents (Elt F))
    (h4 : W (Proc.devRef .tc main_call1_v4) = Cert.ReferenceIdeal.ReadP.val_main_call1_v4 (F := F) x3) :
    StableHlo.after (pts_ops2 (F := F)) W (Proc.devRef .tc main_call1_v5) = Cert.ReferenceIdeal.ReadP.val_main_call1_v5 (F := F) x3 := by
  rw [StableHlo.after_cons, StableHlo.after_nil, StableHlo.reshape_result, h4]
  rfl

/-- From the reference's index vectors, the last fourteen operations leave the reference's gathered rows. -/
theorem pts_stage3 (W : Valuation τ sig (Elt F)) (x3 : (⟨S4x2048x2, .i32⟩ : BufTy).Contents (Elt F))
    (h5 : W (Proc.devRef .tc main_call1_v5) = Cert.ReferenceIdeal.ReadP.val_main_call1_v5 (F := F) x3) :
    StableHlo.after (pts_ops3 (F := F)) W (Proc.devRef .tc main_v5)
      = Cert.ReferenceIdeal.ReadP.val_main_v5 (F := F) (W (Proc.devRef .tc main_arg1)) x3 := by
  after_results_simp
  try simp only [StableHlo.TRef.ofBuf, StableHlo.TRef.toBuf, cast_eq]
  rw [h5]
  simp only [Cert.ReferenceIdeal.ReadP.val_main_call1_c_1, Cert.ReferenceIdeal.ReadP.val_main_call1_c_2, Cert.ReferenceIdeal.ReadP.val_main_call1_v6, Cert.ReferenceIdeal.ReadP.val_main_call1_v7, Cert.ReferenceIdeal.ReadP.val_main_call1_v8, Cert.ReferenceIdeal.ReadP.val_main_call1_v9, Cert.ReferenceIdeal.ReadP.val_main_call1_v10, Cert.ReferenceIdeal.ReadP.val_main_call1_v11, Cert.ReferenceIdeal.ReadP.val_main_call1_c_3, Cert.ReferenceIdeal.ReadP.val_main_call1_v12, Cert.ReferenceIdeal.ReadP.val_main_call1_v13, Cert.ReferenceIdeal.ReadP.val_main_call1_cst, Cert.ReferenceIdeal.ReadP.val_main_call1_v14, Cert.ReferenceIdeal.ReadP.val_main_v5] <;> rfl

/-- None of the slice, the broadcast, the first seven operations and the reshape writes the points' argument. -/
theorem pts_keep0 (W : Valuation τ sig (Elt F)) :
    StableHlo.after (hostOps0_2 (F := F)) W (Proc.devRef .tc main_arg1) = W (Proc.devRef .tc main_arg1) := by
  after_results_simp <;> rfl
theorem pts_keep1 (W : Valuation τ sig (Elt F)) :
    StableHlo.after (pts_ops1 (F := F)) W (Proc.devRef .tc main_arg1) = W (Proc.devRef .tc main_arg1) := by
  after_results_simp <;> rfl
theorem pts_keep2 (W : Valuation τ sig (Elt F)) :
    StableHlo.after (pts_ops2 (F := F)) W (Proc.devRef .tc main_arg1) = W (Proc.devRef .tc main_arg1) := by
  after_results_simp <;> rfl

set_option maxRecDepth 16384 in
theorem gather1_eval (W : Valuation τ sig (Elt F)) (x1 : (⟨S4x8192x3, .f32⟩ : BufTy).Contents (Elt F)) (x3 : (⟨S4x2048x2, .i32⟩ : BufTy).Contents (Elt F))
    (h1 : W (Proc.devRef .tc main_arg1) = x1) (h3 : W (Proc.devRef .tc main_arg3) = x3) :
    StableHlo.after hostOps0_3 (StableHlo.after hostOps0_2 W) (Proc.devRef .tc main_v5)
      = Cert.ReferenceIdeal.ReadP.val_main_v5 (F := F) x1 x3 := by
  subst h1 h3
  rw [pts_ops_split, StableHlo.after_append, StableHlo.after_append]
  have h := pts_stage3 (StableHlo.after (pts_ops2 (F := F)) (StableHlo.after (pts_ops1 (F := F)) (StableHlo.after hostOps0_2 W)))
    (W (Proc.devRef .tc main_arg3))
    (pts_stage2 (StableHlo.after (pts_ops1 (F := F)) (StableHlo.after hostOps0_2 W)) (W (Proc.devRef .tc main_arg3)) (pts_stage1 W))
  rw [pts_keep2, pts_keep1, pts_keep0] at h
  exact h

end Cert.KernelIdeal.Hand

end
-- ==== Proof.KIGatherPos.lean ====
/- The kernel program's gather of the positive features, evaluated over any contents of the unscoped buffers: the
   slice and broadcast of the index pairs' second column and the 22 operations of the row gather leave in the gathered
   array the same stages the reference computes it by. -/
import proofs.«412390_j6597069766920_3_alg».proof.Proof.KIHost
import proofs.«412390_j6597069766920_3_alg».proof.Proof.RefReadP
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

/-! ## The row gather, piece by piece: each piece's result as the reference's stage of what the piece finds -/

/-- The row gather's first seven operations: the index normalised (a negative one moved up by the extent). -/
abbrev gpB : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S4x2048x512, .i32⟩) (broadcastInDim S4x2048x512 ![] bcast_S_S4x2048x512),
    StableHlo.TRef.binary (.of main_v7 : StableHlo.TRef sig ⟨S4x2048x512, .i32⟩) (.of main_call2_v0 : StableHlo.TRef sig ⟨S4x2048x512, .i32⟩) (.of main_call2_v1 : StableHlo.TRef sig ⟨S4x2048x512, .i1⟩) (cmpi .slt),
    StableHlo.TRef.nullary (.of main_call2_c_0 : StableHlo.TRef sig ⟨S_, .i32⟩) (constantI S_ 32 8192#32),
    StableHlo.TRef.unary (.of main_call2_c_0 : StableHlo.TRef sig ⟨S_, .i32⟩) (.of main_call2_v2 : StableHlo.TRef sig ⟨S4x2048x512, .i32⟩) (broadcastInDim S4x2048x512 ![] bcast_S_S4x2048x512),
    StableHlo.TRef.binary (.of main_v7 : StableHlo.TRef sig ⟨S4x2048x512, .i32⟩) (.of main_call2_v2 : StableHlo.TRef sig ⟨S4x2048x512, .i32⟩) (.of main_call2_v3 : StableHlo.TRef sig ⟨S4x2048x512, .i32⟩) addi,
    StableHlo.TRef.ternary (.of main_call2_v1 : StableHlo.TRef sig ⟨S4x2048x512, .i1⟩) (.of main_call2_v3 : StableHlo.TRef sig ⟨S4x2048x512, .i32⟩) (.of main_v7 : StableHlo.TRef sig ⟨S4x2048x512, .i32⟩) (.of main_call2_v4 : StableHlo.TRef sig ⟨S4x2048x512, .i32⟩) select ]

/-- The normalised index given its trailing unit axis. -/
abbrev gpC : List (HloOp τ sig (Elt F)) :=
  [ StableHlo.TRef.reshape (.of main_call2_v4 : StableHlo.TRef sig ⟨S4x2048x512, .i32⟩) (.of main_call2_v5 : StableHlo.TRef sig ⟨S4x2048x512x1, .i32⟩) rfl shapeCasts_S4x2048x512_S4x2048x512x1 ]

/-- The range test's lower side: the index at least zero. -/
abbrev gpD1 : List (HloOp τ sig (Elt F)) :=
  [ StableHlo.TRef.nullary (.of main_call2_c_1 : StableHlo.TRef sig ⟨S1, .i32⟩) (constantI S1 32 8191#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S4x2048x512x1, .i32⟩) (broadcastInDim S4x2048x512x1 ![] bcast_S_S4x2048x512x1),
    StableHlo.TRef.binary (.of main_call2_v5 : StableHlo.TRef sig ⟨S4x2048x512x1, .i32⟩) (.of main_call2_v6 : StableHlo.TRef sig ⟨S4x2048x512x1, .i32⟩) (.of main_call2_v7 : StableHlo.TRef sig ⟨S4x2048x512x1, .i1⟩) (cmpi .sge) ]

/-- Its upper side: the index at most the last row. -/
abbrev gpD2 : List (HloOp τ sig (Elt F)) :=
  [ StableHlo.TRef.unary (.of main_call2_c_1 : StableHlo.TRef sig ⟨S1, .i32⟩) (.of main_call2_v8 : StableHlo.TRef sig ⟨S1x1x1x1, .i32⟩) (broadcastInDim S1x1x1x1 ![3] bcast_S1_S1x1x1x1_3),
    StableHlo.TRef.unary (.of main_call2_v8 : StableHlo.TRef sig ⟨S1x1x1x1, .i32⟩) (.of main_call2_v9 : StableHlo.TRef sig ⟨S4x2048x512x1, .i32⟩) (broadcastInDim S4x2048x512x1 ![0, 1, 2, 3] bcast_S1x1x1x1_S4x2048x512x1_0_1_2_3),
    StableHlo.TRef.binary (.of main_call2_v5 : StableHlo.TRef sig ⟨S4x2048x512x1, .i32⟩) (.of main_call2_v9 : StableHlo.TRef sig ⟨S4x2048x512x1, .i32⟩) (.of main_call2_v10 : StableHlo.TRef sig ⟨S4x2048x512x1, .i1⟩) (cmpi .sle) ]

/-- Both sides. -/
abbrev gpD3 : List (HloOp τ sig (Elt F)) :=
  [ StableHlo.TRef.binary (.of main_call2_v7 : StableHlo.TRef sig ⟨S4x2048x512x1, .i1⟩) (.of main_call2_v10 : StableHlo.TRef sig ⟨S4x2048x512x1, .i1⟩) (.of main_call2_v11 : StableHlo.TRef sig ⟨S4x2048x512x1, .i1⟩) andi ]

/-- The test folded over the trailing unit axis. -/
abbrev gpD4 : List (HloOp τ sig (Elt F)) :=
  [ StableHlo.TRef.nullary (.of main_call2_c_3 : StableHlo.TRef sig ⟨S_, .i1⟩) (constantI S_ 1 1#1),
    StableHlo.TRef.binary (.of main_call2_v11 : StableHlo.TRef sig ⟨S4x2048x512x1, .i1⟩) (.of main_call2_c_3 : StableHlo.TRef sig ⟨S_, .i1⟩) (.of main_call2_v12 : StableHlo.TRef sig ⟨S4x2048x512, .i1⟩) (fun x v => Host.reduce IntOp.andi x v reducesTo_S4x2048x512x1_S4x2048x512_d3 h_S_) ]

/-- The gather itself. -/
abbrev gpD5 : List (HloOp τ sig (Elt F)) :=
  [ StableHlo.TRef.binary (.of main_arg2 : StableHlo.TRef sig ⟨S4x8192x512, .f32⟩) (.of main_call2_v5 : StableHlo.TRef sig ⟨S4x2048x512x1, .i32⟩) (.of main_call2_v13 : StableHlo.TRef sig ⟨S4x2048x512, .f32⟩) (fun x i => Host.gather gather_S4x8192x512_S4x2048x512x1_S4x2048x512_n_1_02_02_1_3_111 x i) ]

/-- The NaN rows where the index is out of range. -/
abbrev gpD6 : List (HloOp τ sig (Elt F)) :=
  [ StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S4x2048x512, .f32⟩) (broadcastInDim S4x2048x512 ![] bcast_S_S4x2048x512),
    StableHlo.TRef.ternary (.of main_call2_v12 : StableHlo.TRef sig ⟨S4x2048x512, .i1⟩) (.of main_call2_v13 : StableHlo.TRef sig ⟨S4x2048x512, .f32⟩) (.of main_call2_v14 : StableHlo.TRef sig ⟨S4x2048x512, .f32⟩) (.of main_v8 : StableHlo.TRef sig ⟨S4x2048x512, .f32⟩) select ]

/-- The 22 operations are these pieces in a row. -/
theorem gp_split : hostOps0_5 (F := F) = gpB ++ (gpC ++ (gpD1 ++ (gpD2 ++ (gpD3 ++ (gpD4 ++ (gpD5 ++ gpD6)))))) := rfl

/-- After the first stretch: the pairs' second column, spread over the 512 features. -/
theorem gp_v7 (W : Valuation τ sig (Elt F)) (x3 : (⟨S4x2048x2, .i32⟩ : BufTy).Contents (Elt F))
    (h3 : W (Proc.devRef .tc main_arg3) = x3) :
    StableHlo.after hostOps0_4 W (Proc.devRef .tc main_v7) = Cert.ReferenceIdeal.ReadP.val_main_v7 (F := F) x3 := by
  subst h3
  after_results_simp
  rfl

/-- After the first seven operations of the gather: the normalised index. -/
theorem gp_v4 (W : Valuation τ sig (Elt F)) (x3 : (⟨S4x2048x2, .i32⟩ : BufTy).Contents (Elt F))
    (h7 : W (Proc.devRef .tc main_v7) = Cert.ReferenceIdeal.ReadP.val_main_v7 (F := F) x3) :
    StableHlo.after (gpB (F := F)) W (Proc.devRef .tc main_call2_v4) = Cert.ReferenceIdeal.ReadP.val_main_call2_v4 (F := F) x3 := by
  after_results_simp
  rw [h7]
  rfl

/-- After the reshape: the index with its trailing unit axis. -/
theorem gp_v5 (W : Valuation τ sig (Elt F)) (x3 : (⟨S4x2048x2, .i32⟩ : BufTy).Contents (Elt F))
    (h4 : W (Proc.devRef .tc main_call2_v4) = Cert.ReferenceIdeal.ReadP.val_main_call2_v4 (F := F) x3) :
    StableHlo.after (gpC (F := F)) W (Proc.devRef .tc main_call2_v5) = Cert.ReferenceIdeal.ReadP.val_main_call2_v5 (F := F) x3 := by
  after_results_simp
  rw [h4]
  rfl

/-- The last row's number, as the first range piece leaves it. -/
theorem gp_c1 (W : Valuation τ sig (Elt F)) :
    StableHlo.after (gpD1 (F := F)) W (Proc.devRef .tc main_call2_c_1) = Cert.ReferenceIdeal.ReadP.val_main_call2_c_1 (F := F) := by
  after_results_simp
  rfl

/-- The index is at least zero. -/
theorem gp_ge (W : Valuation τ sig (Elt F)) (x3 : (⟨S4x2048x2, .i32⟩ : BufTy).Contents (Elt F))
    (h5 : W (Proc.devRef .tc main_call2_v5) = Cert.ReferenceIdeal.ReadP.val_main_call2_v5 (F := F) x3) :
    StableHlo.after (gpD1 (F := F)) W (Proc.devRef .tc main_call2_v7) = Cert.ReferenceIdeal.ReadP.val_main_call2_v7 (F := F) x3 := by
  after_results_simp
  rw [h5]
  rfl

/-- The index is at most the last row. -/
theorem gp_le (W : Valuation τ sig (Elt F)) (x3 : (⟨S4x2048x2, .i32⟩ : BufTy).Contents (Elt F))
    (hc : W (Proc.devRef .tc main_call2_c_1) = Cert.ReferenceIdeal.ReadP.val_main_call2_c_1 (F := F))
    (h5 : W (Proc.devRef .tc main_call2_v5) = Cert.ReferenceIdeal.ReadP.val_main_call2_v5 (F := F) x3) :
    StableHlo.after (gpD2 (F := F)) W (Proc.devRef .tc main_call2_v10) = Cert.ReferenceIdeal.ReadP.val_main_call2_v10 (F := F) x3 := by
  after_results_simp
  rw [h5, hc]
  rfl

/-- Both at once. -/
theorem gp_both (W : Valuation τ sig (Elt F)) (x3 : (⟨S4x2048x2, .i32⟩ : BufTy).Contents (Elt F))
    (hge : W (Proc.devRef .tc main_call2_v7) = Cert.ReferenceIdeal.ReadP.val_main_call2_v7 (F := F) x3)
    (hle : W (Proc.devRef .tc main_call2_v10) = Cert.ReferenceIdeal.ReadP.val_main_call2_v10 (F := F) x3) :
    StableHlo.after (gpD3 (F := F)) W (Proc.devRef .tc main_call2_v11) = Cert.ReferenceIdeal.ReadP.val_main_call2_v11 (F := F) x3 := by
  after_results_simp
  rw [hge, hle]
  rfl

/-- The contents of the folded test's buffer at its own type. -/
theorem gp_toBuf_v12 (u : (⟨S4x2048x512, .i1⟩ : BufTy).Contents (Elt F)) :
    (StableHlo.TRef.of (T := ⟨S4x2048x512, .i1⟩) main_call2_v12 : StableHlo.TRef sig ⟨S4x2048x512, .i1⟩).toBuf u = u := rfl

/-- The test folded over each index vector, of what the piece finds as the test of its entries. -/
theorem gp_fold (W : Valuation τ sig (Elt F)) :
    StableHlo.after (gpD4 (F := F)) W (Proc.devRef .tc main_call2_v12)
      = Host.reduce IntOp.andi (W (Proc.devRef .tc main_call2_v11)) (Cert.ReferenceIdeal.ReadP.val_main_call2_c_3 (F := F)) reducesTo_S4x2048x512x1_S4x2048x512_d3 h_S_ := by
  have e : StableHlo.after (gpD4 (F := F)) W (Proc.devRef .tc main_call2_v12)
      = (StableHlo.TRef.of (T := ⟨S4x2048x512, .i1⟩) main_call2_v12 : StableHlo.TRef sig ⟨S4x2048x512, .i1⟩).toBuf
          (Host.reduce IntOp.andi (W (Proc.devRef .tc main_call2_v11)) (Cert.ReferenceIdeal.ReadP.val_main_call2_c_3 (F := F)) reducesTo_S4x2048x512x1_S4x2048x512_d3 h_S_) := by
    after_results_simp
    rfl
  exact e.trans (gp_toBuf_v12 _)

/-- The gathered rows. -/
theorem gp_rows (W : Valuation τ sig (Elt F)) (x2 : (⟨S4x8192x512, .f32⟩ : BufTy).Contents (Elt F)) (x3 : (⟨S4x2048x2, .i32⟩ : BufTy).Contents (Elt F))
    (h2 : W (Proc.devRef .tc main_arg2) = x2)
    (h5 : W (Proc.devRef .tc main_call2_v5) = Cert.ReferenceIdeal.ReadP.val_main_call2_v5 (F := F) x3) :
    StableHlo.after (gpD5 (F := F)) W (Proc.devRef .tc main_call2_v13) = Cert.ReferenceIdeal.ReadP.val_main_call2_v13 (F := F) x2 x3 := by
  subst h2
  after_results_simp
  rw [h5]
  rfl

/-- The select of a NaN row where the test fails, of what the piece finds as the test and the gathered rows. -/
theorem gp_res (W : Valuation τ sig (Elt F)) :
    StableHlo.after (gpD6 (F := F)) W (Proc.devRef .tc main_v8)
      = select (W (Proc.devRef .tc main_call2_v12)) (W (Proc.devRef .tc main_call2_v13)) (Cert.ReferenceIdeal.ReadP.val_main_call2_v14 (F := F)) := by
  after_results_simp
  rfl

/-! What a piece does not write it keeps. -/
theorem gp_keepA_arg2 (W : Valuation τ sig (Elt F)) :
    StableHlo.after (hostOps0_4) W (Proc.devRef .tc main_arg2) = W (Proc.devRef .tc main_arg2) := by
  after_results_simp
theorem gp_keepB_arg2 (W : Valuation τ sig (Elt F)) :
    StableHlo.after (gpB (F := F)) W (Proc.devRef .tc main_arg2) = W (Proc.devRef .tc main_arg2) := by
  after_results_simp
theorem gp_keepC_arg2 (W : Valuation τ sig (Elt F)) :
    StableHlo.after (gpC (F := F)) W (Proc.devRef .tc main_arg2) = W (Proc.devRef .tc main_arg2) := by
  after_results_simp
theorem gp_keepD1_arg2 (W : Valuation τ sig (Elt F)) :
    StableHlo.after (gpD1 (F := F)) W (Proc.devRef .tc main_arg2) = W (Proc.devRef .tc main_arg2) := by
  after_results_simp
theorem gp_keepD2_arg2 (W : Valuation τ sig (Elt F)) :
    StableHlo.after (gpD2 (F := F)) W (Proc.devRef .tc main_arg2) = W (Proc.devRef .tc main_arg2) := by
  after_results_simp
theorem gp_keepD3_arg2 (W : Valuation τ sig (Elt F)) :
    StableHlo.after (gpD3 (F := F)) W (Proc.devRef .tc main_arg2) = W (Proc.devRef .tc main_arg2) := by
  after_results_simp
theorem gp_keepD4_arg2 (W : Valuation τ sig (Elt F)) :
    StableHlo.after (gpD4 (F := F)) W (Proc.devRef .tc main_arg2) = W (Proc.devRef .tc main_arg2) := by
  after_results_simp
theorem gp_keepD1_v5 (W : Valuation τ sig (Elt F)) :
    StableHlo.after (gpD1 (F := F)) W (Proc.devRef .tc main_call2_v5) = W (Proc.devRef .tc main_call2_v5) := by
  after_results_simp
theorem gp_keepD2_v5 (W : Valuation τ sig (Elt F)) :
    StableHlo.after (gpD2 (F := F)) W (Proc.devRef .tc main_call2_v5) = W (Proc.devRef .tc main_call2_v5) := by
  after_results_simp
theorem gp_keepD3_v5 (W : Valuation τ sig (Elt F)) :
    StableHlo.after (gpD3 (F := F)) W (Proc.devRef .tc main_call2_v5) = W (Proc.devRef .tc main_call2_v5) := by
  after_results_simp
theorem gp_keepD4_v5 (W : Valuation τ sig (Elt F)) :
    StableHlo.after (gpD4 (F := F)) W (Proc.devRef .tc main_call2_v5) = W (Proc.devRef .tc main_call2_v5) := by
  after_results_simp
theorem gp_keepD2_ge (W : Valuation τ sig (Elt F)) :
    StableHlo.after (gpD2 (F := F)) W (Proc.devRef .tc main_call2_v7) = W (Proc.devRef .tc main_call2_v7) := by
  after_results_simp
theorem gp_keepD5_fold (W : Valuation τ sig (Elt F)) :
    StableHlo.after (gpD5 (F := F)) W (Proc.devRef .tc main_call2_v12) = W (Proc.devRef .tc main_call2_v12) := by
  after_results_simp

set_option maxRecDepth 16384 in
theorem gather2_eval (W : Valuation τ sig (Elt F)) (x2 : (⟨S4x8192x512, .f32⟩ : BufTy).Contents (Elt F)) (x3 : (⟨S4x2048x2, .i32⟩ : BufTy).Contents (Elt F))
    (h2 : W (Proc.devRef .tc main_arg2) = x2) (h3 : W (Proc.devRef .tc main_arg3) = x3) :
    StableHlo.after hostOps0_5 (StableHlo.after hostOps0_4 W) (Proc.devRef .tc main_v8)
      = Cert.ReferenceIdeal.ReadP.val_main_v8 (F := F) x2 x3 := by
  -- the contents after each piece
  have e7 := gp_v7 W x3 h3
  have e4 := gp_v4 _ x3 e7
  have e5 := gp_v5 _ x3 e4
  have e2 : StableHlo.after (gpC (F := F)) (StableHlo.after (gpB (F := F)) (StableHlo.after hostOps0_4 W)) (Proc.devRef .tc main_arg2) = x2 := by
    rw [gp_keepC_arg2, gp_keepB_arg2, gp_keepA_arg2]; exact h2
  have ege := gp_ge _ x3 e5
  have ec1 := gp_c1 (StableHlo.after (gpC (F := F)) (StableHlo.after (gpB (F := F)) (StableHlo.after hostOps0_4 W)))
  have ele := gp_le _ x3 ec1 ((gp_keepD1_v5 _).trans e5)
  have e11 := gp_both _ x3 ((gp_keepD2_ge _).trans ege) ele
  have e12 : StableHlo.after (gpD4 (F := F)) (StableHlo.after (gpD3 (F := F)) (StableHlo.after (gpD2 (F := F)) (StableHlo.after (gpD1 (F := F))
      (StableHlo.after (gpC (F := F)) (StableHlo.after (gpB (F := F)) (StableHlo.after hostOps0_4 W)))))) (Proc.devRef .tc main_call2_v12)
      = Cert.ReferenceIdeal.ReadP.val_main_call2_v12 (F := F) x3 := by
    rw [gp_fold, e11]; rfl
  have e13 := gp_rows _ x2 x3
    ((gp_keepD4_arg2 _).trans ((gp_keepD3_arg2 _).trans ((gp_keepD2_arg2 _).trans ((gp_keepD1_arg2 _).trans e2))))
    ((gp_keepD4_v5 _).trans ((gp_keepD3_v5 _).trans ((gp_keepD2_v5 _).trans ((gp_keepD1_v5 _).trans e5))))
  rw [gp_split, StableHlo.after_append, StableHlo.after_append, StableHlo.after_append, StableHlo.after_append,
    StableHlo.after_append, StableHlo.after_append, StableHlo.after_append]
  rw [gp_res, e13, (gp_keepD5_fold _).trans e12]
  rfl

end Cert.KernelIdeal.Hand

end
-- ==== Proof.KIGather.lean ====
/- The host side of the kernel's program, evaluated: the three arrays the region finds are the gathers of the
   arguments' rows at the index pairs — the same stages the reference computes them by —, and the program's result is
   the mean of the loss array: its sum from zero over the 8192 rows, divided by 8192. -/
import proofs.«412390_j6597069766920_3_alg».proof.Proof.KIHost
import proofs.«412390_j6597069766920_3_alg».proof.Proof.RefReadP
import proofs.«412390_j6597069766920_3_alg».proof.Proof.KIGatherPts
import proofs.«412390_j6597069766920_3_alg».proof.Proof.KIGatherPos
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The gather of the anchor features, evaluated

The stretch is cut at its reshape: seven operations wrap the indices, one reshapes them, fourteen test the range, gather
the rows and select the fill value. Each part is evaluated over arbitrary contents and named by the reference's stage
for the same operations; the parts are then joined. In the last part a value passes through its buffer's typed
reference on every write and read: those passages are removed around a variable first, and the operations are then
folded into the reference's stages one at a time. -/

/-! ### The reference's stages, one operation at a time

Each line: an operation of the kernel program's stretch, applied to the reference's stages for its operands, is the
reference's stage for its result (the two programs print the same operation). -/

theorem g0_v6 :
    broadcastInDim S4x2048x512x1 ![] bcast_S_S4x2048x512x1 (constantI S_ 32 0#32) = Cert.ReferenceIdeal.ReadP.val_main_call0_v6 (F := F) := rfl
theorem g0_v7 (x3 : (⟨S4x2048x2, .i32⟩ : BufTy).Contents (Elt F)) :
    cmpi CmpIPredicate.sge (Cert.ReferenceIdeal.ReadP.val_main_call0_v5 (F := F) x3) (Cert.ReferenceIdeal.ReadP.val_main_call0_v6 (F := F)) = Cert.ReferenceIdeal.ReadP.val_main_call0_v7 (F := F) x3 := rfl
theorem g0_v9 :
    broadcastInDim S4x2048x512x1 ![0, 1, 2, 3] bcast_S1x1x1x1_S4x2048x512x1_0_1_2_3 (broadcastInDim S1x1x1x1 ![3] bcast_S1_S1x1x1x1_3 (constantI S1 32 8191#32)) = Cert.ReferenceIdeal.ReadP.val_main_call0_v9 (F := F) := rfl
theorem g0_v10 (x3 : (⟨S4x2048x2, .i32⟩ : BufTy).Contents (Elt F)) :
    cmpi CmpIPredicate.sle (Cert.ReferenceIdeal.ReadP.val_main_call0_v5 (F := F) x3) (Cert.ReferenceIdeal.ReadP.val_main_call0_v9 (F := F)) = Cert.ReferenceIdeal.ReadP.val_main_call0_v10 (F := F) x3 := rfl
theorem g0_v11 (x3 : (⟨S4x2048x2, .i32⟩ : BufTy).Contents (Elt F)) :
    andi (Cert.ReferenceIdeal.ReadP.val_main_call0_v7 (F := F) x3) (Cert.ReferenceIdeal.ReadP.val_main_call0_v10 (F := F) x3) = Cert.ReferenceIdeal.ReadP.val_main_call0_v11 (F := F) x3 := rfl
theorem g0_v12 (x3 : (⟨S4x2048x2, .i32⟩ : BufTy).Contents (Elt F)) :
    Host.reduce IntOp.andi (Cert.ReferenceIdeal.ReadP.val_main_call0_v11 (F := F) x3) (constantI S_ 1 1#1) reducesTo_S4x2048x512x1_S4x2048x512_d3 h_S_ = Cert.ReferenceIdeal.ReadP.val_main_call0_v12 (F := F) x3 := rfl
theorem g0_v13 (x0 : (⟨S4x8192x512, .f32⟩ : BufTy).Contents (Elt F)) (x3 : (⟨S4x2048x2, .i32⟩ : BufTy).Contents (Elt F)) :
    Host.gather gather_S4x8192x512_S4x2048x512x1_S4x2048x512_n_1_02_02_1_3_111 x0 (Cert.ReferenceIdeal.ReadP.val_main_call0_v5 (F := F) x3) = Cert.ReferenceIdeal.ReadP.val_main_call0_v13 (F := F) x0 x3 := rfl
theorem g0_v14 :
    broadcastInDim S4x2048x512 ![] bcast_S_S4x2048x512 (constant S_ .f32 0x7FC00000#32) = Cert.ReferenceIdeal.ReadP.val_main_call0_v14 (F := F) := rfl
theorem g0_res (x0 : (⟨S4x8192x512, .f32⟩ : BufTy).Contents (Elt F)) (x3 : (⟨S4x2048x2, .i32⟩ : BufTy).Contents (Elt F)) :
    select (Cert.ReferenceIdeal.ReadP.val_main_call0_v12 (F := F) x3) (Cert.ReferenceIdeal.ReadP.val_main_call0_v13 (F := F) x0 x3) (Cert.ReferenceIdeal.ReadP.val_main_call0_v14 (F := F)) = Cert.ReferenceIdeal.ReadP.val_main_v2 (F := F) x0 x3 := rfl

/-! ### Typed references pass contents unchanged -/

/-- A typed reference reads back, unchanged, what was written through it. -/
theorem tref_ofBuf_toBuf {T : BufTy} (x : StableHlo.TRef sig T) (v : T.Contents (Elt F)) : x.ofBuf (x.toBuf v) = v := by
  obtain ⟨r, rfl, hd, hu⟩ := x
  rfl
/-- Through a reference to the index vectors' buffer, to the features' argument and to the result's buffer, contents
    pass unchanged. -/
theorem ofBuf_idx0 (h1 : (main_call0_v5 : Ref sig .tc).ty = ⟨S4x2048x512x1, .i32⟩) (h2 : (main_call0_v5 : Ref sig .tc).space ≠ .host)
    (h3 : (main_call0_v5 : Ref sig .tc).isScoped = false) (u : (main_call0_v5 : Ref sig .tc).ty.Contents (Elt F)) :
    (StableHlo.TRef.of main_call0_v5 h1 h2 h3 : StableHlo.TRef sig ⟨S4x2048x512x1, .i32⟩).ofBuf u = u := rfl
theorem ofBuf_arg0 (h1 : (main_arg0 : Ref sig .tc).ty = ⟨S4x8192x512, .f32⟩) (h2 : (main_arg0 : Ref sig .tc).space ≠ .host)
    (h3 : (main_arg0 : Ref sig .tc).isScoped = false) (u : (main_arg0 : Ref sig .tc).ty.Contents (Elt F)) :
    (StableHlo.TRef.of main_arg0 h1 h2 h3 : StableHlo.TRef sig ⟨S4x8192x512, .f32⟩).ofBuf u = u := rfl
theorem toBuf_out0 (h1 : (main_v2 : Ref sig .tc).ty = ⟨S4x2048x512, .f32⟩) (h2 : (main_v2 : Ref sig .tc).space ≠ .host)
    (h3 : (main_v2 : Ref sig .tc).isScoped = false) (u : (⟨S4x2048x512, .f32⟩ : BufTy).Contents (Elt F)) :
    (StableHlo.TRef.of main_v2 h1 h2 h3 : StableHlo.TRef sig ⟨S4x2048x512, .f32⟩).toBuf u = u := rfl

/-! ### The three parts -/

/-- The gather's first seven operations: a negative index is told apart and wrapped by the table's height, 8192. -/
abbrev anc_ops1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S4x2048x512, .i32⟩) (broadcastInDim S4x2048x512 ![] bcast_S_S4x2048x512),
    StableHlo.TRef.binary (.of main_v1 : StableHlo.TRef sig ⟨S4x2048x512, .i32⟩) (.of main_call0_v0 : StableHlo.TRef sig ⟨S4x2048x512, .i32⟩) (.of main_call0_v1 : StableHlo.TRef sig ⟨S4x2048x512, .i1⟩) (cmpi .slt),
    StableHlo.TRef.nullary (.of main_call0_c_0 : StableHlo.TRef sig ⟨S_, .i32⟩) (constantI S_ 32 8192#32),
    StableHlo.TRef.unary (.of main_call0_c_0 : StableHlo.TRef sig ⟨S_, .i32⟩) (.of main_call0_v2 : StableHlo.TRef sig ⟨S4x2048x512, .i32⟩) (broadcastInDim S4x2048x512 ![] bcast_S_S4x2048x512),
    StableHlo.TRef.binary (.of main_v1 : StableHlo.TRef sig ⟨S4x2048x512, .i32⟩) (.of main_call0_v2 : StableHlo.TRef sig ⟨S4x2048x512, .i32⟩) (.of main_call0_v3 : StableHlo.TRef sig ⟨S4x2048x512, .i32⟩) addi,
    StableHlo.TRef.ternary (.of main_call0_v1 : StableHlo.TRef sig ⟨S4x2048x512, .i1⟩) (.of main_call0_v3 : StableHlo.TRef sig ⟨S4x2048x512, .i32⟩) (.of main_v1 : StableHlo.TRef sig ⟨S4x2048x512, .i32⟩) (.of main_call0_v4 : StableHlo.TRef sig ⟨S4x2048x512, .i32⟩) select ]

/-- The eighth: the wrapped indices reshaped to index vectors of length one. -/
abbrev anc_ops2 : List (HloOp τ sig (Elt F)) :=
  [ StableHlo.TRef.reshape (.of main_call0_v4 : StableHlo.TRef sig ⟨S4x2048x512, .i32⟩) (.of main_call0_v5 : StableHlo.TRef sig ⟨S4x2048x512x1, .i32⟩) rfl shapeCasts_S4x2048x512_S4x2048x512x1 ]

/-- The last fourteen: the test that an index lies in 0–8191, the gather of the rows, and the fill value where it does not. -/
abbrev anc_ops3 : List (HloOp τ sig (Elt F)) :=
  [ StableHlo.TRef.nullary (.of main_call0_c_1 : StableHlo.TRef sig ⟨S1, .i32⟩) (constantI S1 32 8191#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S4x2048x512x1, .i32⟩) (broadcastInDim S4x2048x512x1 ![] bcast_S_S4x2048x512x1),
    StableHlo.TRef.binary (.of main_call0_v5 : StableHlo.TRef sig ⟨S4x2048x512x1, .i32⟩) (.of main_call0_v6 : StableHlo.TRef sig ⟨S4x2048x512x1, .i32⟩) (.of main_call0_v7 : StableHlo.TRef sig ⟨S4x2048x512x1, .i1⟩) (cmpi .sge),
    StableHlo.TRef.unary (.of main_call0_c_1 : StableHlo.TRef sig ⟨S1, .i32⟩) (.of main_call0_v8 : StableHlo.TRef sig ⟨S1x1x1x1, .i32⟩) (broadcastInDim S1x1x1x1 ![3] bcast_S1_S1x1x1x1_3),
    StableHlo.TRef.unary (.of main_call0_v8 : StableHlo.TRef sig ⟨S1x1x1x1, .i32⟩) (.of main_call0_v9 : StableHlo.TRef sig ⟨S4x2048x512x1, .i32⟩) (broadcastInDim S4x2048x512x1 ![0, 1, 2, 3] bcast_S1x1x1x1_S4x2048x512x1_0_1_2_3),
    StableHlo.TRef.binary (.of main_call0_v5 : StableHlo.TRef sig ⟨S4x2048x512x1, .i32⟩) (.of main_call0_v9 : StableHlo.TRef sig ⟨S4x2048x512x1, .i32⟩) (.of main_call0_v10 : StableHlo.TRef sig ⟨S4x2048x512x1, .i1⟩) (cmpi .sle),
    StableHlo.TRef.binary (.of main_call0_v7 : StableHlo.TRef sig ⟨S4x2048x512x1, .i1⟩) (.of main_call0_v10 : StableHlo.TRef sig ⟨S4x2048x512x1, .i1⟩) (.of main_call0_v11 : StableHlo.TRef sig ⟨S4x2048x512x1, .i1⟩) andi,
    StableHlo.TRef.nullary (.of main_call0_c_3 : StableHlo.TRef sig ⟨S_, .i1⟩) (constantI S_ 1 1#1),
    StableHlo.TRef.binary (.of main_call0_v11 : StableHlo.TRef sig ⟨S4x2048x512x1, .i1⟩) (.of main_call0_c_3 : StableHlo.TRef sig ⟨S_, .i1⟩) (.of main_call0_v12 : StableHlo.TRef sig ⟨S4x2048x512, .i1⟩) (fun x v => Host.reduce IntOp.andi x v reducesTo_S4x2048x512x1_S4x2048x512_d3 h_S_),
    StableHlo.TRef.binary (.of main_arg0 : StableHlo.TRef sig ⟨S4x8192x512, .f32⟩) (.of main_call0_v5 : StableHlo.TRef sig ⟨S4x2048x512x1, .i32⟩) (.of main_call0_v13 : StableHlo.TRef sig ⟨S4x2048x512, .f32⟩) (fun x i => Host.gather gather_S4x8192x512_S4x2048x512x1_S4x2048x512_n_1_02_02_1_3_111 x i),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v14 : StableHlo.TRef sig ⟨S4x2048x512, .f32⟩) (broadcastInDim S4x2048x512 ![] bcast_S_S4x2048x512),
    StableHlo.TRef.ternary (.of main_call0_v12 : StableHlo.TRef sig ⟨S4x2048x512, .i1⟩) (.of main_call0_v13 : StableHlo.TRef sig ⟨S4x2048x512, .f32⟩) (.of main_call0_v14 : StableHlo.TRef sig ⟨S4x2048x512, .f32⟩) (.of main_v2 : StableHlo.TRef sig ⟨S4x2048x512, .f32⟩) select ]

/-- The stretch is those three lists in a row. -/
theorem anc_ops_split : (hostOps0_1 : List (HloOp τ sig (Elt F))) = anc_ops1 ++ (anc_ops2 ++ anc_ops3) := rfl

/-- The slice, its broadcast and the first seven operations leave the reference's wrapped indices. -/
theorem anc_stage1 (W : Valuation τ sig (Elt F)) :
    StableHlo.after (anc_ops1 (F := F)) (StableHlo.after hostOps0 W) (Proc.devRef .tc main_call0_v4)
      = Cert.ReferenceIdeal.ReadP.val_main_call0_v4 (F := F) (W (Proc.devRef .tc main_arg3)) := by
  after_results_simp
  try simp only [StableHlo.TRef.ofBuf, StableHlo.TRef.toBuf, cast_eq]
  simp only [Cert.ReferenceIdeal.ReadP.val_main_v0, Cert.ReferenceIdeal.ReadP.val_main_v1, Cert.ReferenceIdeal.ReadP.val_main_call0_c, Cert.ReferenceIdeal.ReadP.val_main_call0_v0, Cert.ReferenceIdeal.ReadP.val_main_call0_v1, Cert.ReferenceIdeal.ReadP.val_main_call0_c_0, Cert.ReferenceIdeal.ReadP.val_main_call0_v2, Cert.ReferenceIdeal.ReadP.val_main_call0_v3, Cert.ReferenceIdeal.ReadP.val_main_call0_v4] <;> rfl

/-- The reshape of the reference's wrapped indices is the reference's index vectors. -/
theorem anc_stage2 (W : Valuation τ sig (Elt F)) (x3 : (⟨S4x2048x2, .i32⟩ : BufTy).Contents (Elt F))
    (h4 : W (Proc.devRef .tc main_call0_v4) = Cert.ReferenceIdeal.ReadP.val_main_call0_v4 (F := F) x3) :
    StableHlo.after (anc_ops2 (F := F)) W (Proc.devRef .tc main_call0_v5) = Cert.ReferenceIdeal.ReadP.val_main_call0_v5 (F := F) x3 := by
  rw [StableHlo.after_cons, StableHlo.after_nil, StableHlo.reshape_result, h4]
  rfl

/-- Over the reference's index vectors the last fourteen operations leave the reference's gathered features. -/
theorem anc_stage3 (W : Valuation τ sig (Elt F)) (x3 : (⟨S4x2048x2, .i32⟩ : BufTy).Contents (Elt F))
    (h5 : W (Proc.devRef .tc main_call0_v5) = Cert.ReferenceIdeal.ReadP.val_main_call0_v5 (F := F) x3) :
    StableHlo.after (anc_ops3 (F := F)) W (Proc.devRef .tc main_v2)
      = Cert.ReferenceIdeal.ReadP.val_main_v2 (F := F) (W (Proc.devRef .tc main_arg0)) x3 := by
  after_results_simp
  simp only [tref_ofBuf_toBuf, ofBuf_idx0, ofBuf_arg0, toBuf_out0]
  rw [h5]
  rw [g0_v6 (F := F), g0_v7 x3, g0_v9 (F := F), g0_v10 x3, g0_v11 x3, g0_v12 x3, g0_v13 (W (Proc.devRef .tc main_arg0)) x3, g0_v14 (F := F),
    g0_res (W (Proc.devRef .tc main_arg0)) x3]

/-- The features' argument is written by none of the slice, the broadcast, the first seven operations and the reshape. -/
theorem anc_keep0 (W : Valuation τ sig (Elt F)) :
    StableHlo.after (hostOps0 (F := F)) W (Proc.devRef .tc main_arg0) = W (Proc.devRef .tc main_arg0) := by
  after_results_simp <;> rfl
theorem anc_keep1 (W : Valuation τ sig (Elt F)) :
    StableHlo.after (anc_ops1 (F := F)) W (Proc.devRef .tc main_arg0) = W (Proc.devRef .tc main_arg0) := by
  after_results_simp <;> rfl
theorem anc_keep2 (W : Valuation τ sig (Elt F)) :
    StableHlo.after (anc_ops2 (F := F)) W (Proc.devRef .tc main_arg0) = W (Proc.devRef .tc main_arg0) := by
  after_results_simp <;> rfl

set_option maxRecDepth 16384 in
theorem gather0_eval (W : Valuation τ sig (Elt F)) (x0 : (⟨S4x8192x512, .f32⟩ : BufTy).Contents (Elt F)) (x3 : (⟨S4x2048x2, .i32⟩ : BufTy).Contents (Elt F))
    (h0 : W (Proc.devRef .tc main_arg0) = x0) (h3 : W (Proc.devRef .tc main_arg3) = x3) :
    StableHlo.after hostOps0_1 (StableHlo.after hostOps0 W) (Proc.devRef .tc main_v2)
      = Cert.ReferenceIdeal.ReadP.val_main_v2 (F := F) x0 x3 := by
  subst h0 h3
  rw [anc_ops_split, StableHlo.after_append, StableHlo.after_append]
  have h := anc_stage3 (StableHlo.after (anc_ops2 (F := F)) (StableHlo.after (anc_ops1 (F := F)) (StableHlo.after hostOps0 W)))
    (W (Proc.devRef .tc main_arg3))
    (anc_stage2 (StableHlo.after (anc_ops1 (F := F)) (StableHlo.after hostOps0 W)) (W (Proc.devRef .tc main_arg3)) (anc_stage1 W))
  rw [anc_keep2, anc_keep1, anc_keep0] at h
  exact h

/-! ## What the region finds, and the result -/

/-- The anchor features the region finds are the reference's gather of the first argument at the pairs' first column. -/
theorem V_anchor (c : Dev nD) :
    V m c main_v2 = Cert.ReferenceIdeal.ReadP.val_main_v2 (F := F) (m ((c : Thread nD τ).loc main_arg0)) (m ((c : Thread nD τ).loc main_arg3)) := by
  -- no later stretch writes the anchor features; the gather stretch is evaluated over the launch contents
  refine ((StableHlo.after_of_writes_sub hostOps0_5 _ host5_writes (by decide)).trans <|
    (StableHlo.after_of_writes_sub hostOps0_4 _ host4_writes (by decide)).trans <|
    (StableHlo.after_of_writes_sub hostOps0_3 _ host3_writes (by decide)).trans <|
    (StableHlo.after_of_writes_sub hostOps0_2 _ host2_writes (by decide)).trans ?_)
  exact gather0_eval (V0 m c) _ _ rfl rfl

/-- The positive features: the third argument at the pairs' second column. -/
theorem V_pos (c : Dev nD) :
    V m c main_v8 = Cert.ReferenceIdeal.ReadP.val_main_v8 (F := F) (m ((c : Thread nD τ).loc main_arg2)) (m ((c : Thread nD τ).loc main_arg3)) := by
  -- the last two stretches, over contents in which the earlier stretches have left the arguments as launched
  exact gather2_eval (V4 m c) _ _
    ((StableHlo.after_of_writes_sub hostOps0_3 _ host3_writes (by decide)).trans <|
      (StableHlo.after_of_writes_sub hostOps0_2 _ host2_writes (by decide)).trans <|
      (StableHlo.after_of_writes_sub hostOps0_1 _ host1_writes (by decide)).trans <|
      (StableHlo.after_of_writes_sub hostOps0 _ host0_writes (by decide)).trans rfl)
    ((StableHlo.after_of_writes_sub hostOps0_3 _ host3_writes (by decide)).trans <|
      (StableHlo.after_of_writes_sub hostOps0_2 _ host2_writes (by decide)).trans <|
      (StableHlo.after_of_writes_sub hostOps0_1 _ host1_writes (by decide)).trans <|
      (StableHlo.after_of_writes_sub hostOps0 _ host0_writes (by decide)).trans rfl)

/-- The anchor points: the second argument at the pairs' first column. -/
theorem V_pts (c : Dev nD) :
    V m c main_v5 = Cert.ReferenceIdeal.ReadP.val_main_v5 (F := F) (m ((c : Thread nD τ).loc main_arg1)) (m ((c : Thread nD τ).loc main_arg3)) := by
  -- no later stretch writes the anchor points; the first two stretches have left the arguments as launched
  refine ((StableHlo.after_of_writes_sub hostOps0_5 _ host5_writes (by decide)).trans <|
    (StableHlo.after_of_writes_sub hostOps0_4 _ host4_writes (by decide)).trans ?_)
  exact gather1_eval (V2 m c) _ _
    ((StableHlo.after_of_writes_sub hostOps0_1 _ host1_writes (by decide)).trans <|
      (StableHlo.after_of_writes_sub hostOps0 _ host0_writes (by decide)).trans rfl)
    ((StableHlo.after_of_writes_sub hostOps0_1 _ host1_writes (by decide)).trans <|
      (StableHlo.after_of_writes_sub hostOps0 _ host0_writes (by decide)).trans rfl)

/-- The result: the mean of what the region left in the loss array. -/
theorem V8_mean (outs : Outs (F := F)) (c : Dev nD) :
    V8 m outs c main_v11
      = Host.divf (Host.reduceAdd (outs c) (constant S_ .f32 0x00000000#32) reducesTo_S4x2048x1_S_d0_1_2 h_S_) (constant S_ .f32 0x46000000#32) := by
  show StableHlo.after hostOps1 (Function.update (V6 m c) (Proc.devRef .tc main_v9) (outs c)) (Proc.devRef .tc main_v11) = _
  after_results_simp
  rw [Function.update_self]

end Cert.KernelIdeal.Hand

end
-- ==== Proof.KIPt.lean ====
/- The grid point that stores a batch's losses: batch b's second k-tile, point 2b+1. -/
import proofs.«412390_j6597069766920_3_alg».proof.Proof.KIData
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point that stores batch `b`'s losses. -/
def lastPt (b : Fin 4) : Fin cfg0.N := ⟨2 * b.val + 1, by rw [show cfg0.N = 8 from N_0]; omega⟩
theorem lastPt_odd (b : Fin 4) : (lastPt b).val % 2 = 1 := by show (2 * b.val + 1) % 2 = 1; omega

end Cert.KernelIdeal.Hand

end
-- ==== Proof.Spec.lean ====
/- The loss of one anchor row, on the extended reals: for a batch with anchor features `a`, positive features `q`
   (2048 rows of 512) and anchor points `p` (2048 rows of 3), row `s` has the cosine similarity of its own pair,
   `dpos`, the raw similarities `a s · q t` to every row `t`, masked to the rows whose points lie farther than 5
   from its own, and the loss `-log (e^{dpos/τ} / (e^{dpos/τ} + Σ_t e^{a s · q t / τ} · far s t))`. The float constants are
   kept as their binary words: the same words stand in both programs. -/
import Idealize.ShloMosaic.PureOps.Ideal
import Idealize.ShloMosaic.Lib.ValueIdx

noncomputable section

namespace Cert.Spec

open Idealize.ShloMosaic

/-- The temperature, the word both programs divide by. -/
def tau : EReal := Ideal.ofBits .f32 0x3DCCCCCD#32
/-- The floor under the product of the norms. -/
def eps : EReal := Ideal.ofBits .f32 0x322BCC77#32
/-- The factor of the cross term of the squared distance. -/
def two : EReal := Ideal.ofBits .f32 0x40000000#32
/-- The squared radius. -/
def radius2 : EReal := Ideal.ofBits .f32 0x41C80000#32

/-- Batch `b`'s rows of an array of 4 batches of 2048 rows of width `W`. -/
def rows {W : Nat} (X : (⟨3, ![4, 2048, W]⟩ : Shape).Idx → EReal) (b : Fin 4) : Fin 2048 → Fin W → EReal :=
  fun s f => X (ValueIdx.ix3 b s f)

variable (a q : Fin 2048 → Fin 512 → EReal) (p : Fin 2048 → Fin 3 → EReal)

/-- The cosine similarity of row `s`'s own pair, the product of the norms floored. -/
def dpos (s : Fin 2048) : EReal :=
  Ideal.div (∑ f, a s f * q s f)
    (max (Ideal.sqrt (∑ f, a s f * a s f) * Ideal.sqrt (∑ f, q s f * q s f)) eps)

/-- The row's positive term. -/
def num (s : Fin 2048) : EReal := Ideal.exp (Ideal.div (dpos a q s) tau)

/-- A point's squared norm. -/
def sq (s : Fin 2048) : EReal := ∑ d, p s d * p s d

/-- The squared distance of two rows' points, as both programs spell it. -/
def dist2 (s t : Fin 2048) : EReal := (sq p s + sq p t) - two * ∑ d, p s d * p t d

/-- One where row `t`'s point is farther than the radius from row `s`'s, zero elsewhere. -/
def far (s t : Fin 2048) : EReal := if radius2 < dist2 p s t then 1 else 0

/-- Row `t`'s masked term in row `s`'s sum. -/
def term (s t : Fin 2048) : EReal := Ideal.exp (Ideal.div (∑ f, a s f * q t f) tau) * far p s t

/-- The row's loss. -/
def loss (s : Fin 2048) : EReal :=
  - Ideal.log (Ideal.div (num a q s) (num a q s + ∑ t, term a q p s t))

end Cert.Spec

end
-- ==== Proof.KIPieces.lean ====
/- The contents the body's runs leave, as explicit terms: the row sums, the cached block and the positive terms after a
   k-tile-0 point, and the losses a k-tile-1 point stores, each as the body's payloads of the point's blocks. -/
import proofs.«412390_j6597069766920_3_alg».proof.Proof.KIOpen
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

/-! ## Zero offsets, and the tile's offsets over the grid -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- The tile's rows of the anchor block start at row 0 at k-tile 0, -/
theorem off1_first : ∀ t : Fin cfg0.N, t.val % 2 = 0 → k0_off1 (grid0.coords t) = ![0, 0, 0] :=
  (by decide +kernel : ∀ t : Fin grid0.N, t.val % 2 = 0 → k0_off1 (grid0.coords t) = ![0, 0, 0])
/-- and at row 1024 at k-tile 1. -/
theorem off1_last : ∀ t : Fin cfg0.N, t.val % 2 = 1 → k0_off1 (grid0.coords t) = ![0, 1024, 0] :=
  (by decide +kernel : ∀ t : Fin grid0.N, t.val % 2 = 1 → k0_off1 (grid0.coords t) = ![0, 1024, 0])

/-! ## The tile's rows of an anchor block -/

/-- Rows 0–1023 of an anchor block, as a block of the tile's shape. -/
def R0 (x0 : Vec F S1x2048x512 .f32) : Vec F S1x1024x512 .f32 :=
  fun j => x0 (ix3 (0 : Fin 1) (⟨(j (1 : Fin 3)).val, Nat.lt_of_lt_of_le (j (1 : Fin 3)).isLt (by decide)⟩ : Fin 2048)
    (⟨(j (2 : Fin 3)).val, (j (2 : Fin 3)).isLt⟩ : Fin 512))
/-- Rows 1024–2047 of an anchor block, as a block of the tile's shape. -/
def R1 (x0 : Vec F S1x2048x512 .f32) : Vec F S1x1024x512 .f32 :=
  fun j => x0 (ix3 (0 : Fin 1) (⟨1024 + (j (1 : Fin 3)).val, Nat.add_lt_add_left (j (1 : Fin 3)).isLt 1024⟩ : Fin 2048)
    (⟨(j (2 : Fin 3)).val, (j (2 : Fin 3)).isLt⟩ : Fin 512))

theorem R0_apply (x0 : Vec F S1x2048x512 .f32) (a : Fin 1) (r : Fin 1024) (f : Fin 512) :
    R0 x0 (ix3 a r f) = x0 (ix3 (0 : Fin 1) (⟨r.val, Nat.lt_of_lt_of_le r.isLt (by decide)⟩ : Fin 2048) f) := rfl
theorem R1_apply (x0 : Vec F S1x2048x512 .f32) (a : Fin 1) (r : Fin 1024) (f : Fin 512) :
    R1 x0 (ix3 a r f) = x0 (ix3 (0 : Fin 1) (⟨1024 + r.val, Nat.add_lt_add_left r.isLt 1024⟩ : Fin 2048) f) := rfl

/-- A load of 1024 rows from row 0 on reads rows 0–1023. -/
theorem ld_rows0 {off : Fin 3 → ℕ} (hoff : off = ![0, 0, 0])
    (inb : ∀ a, off a + S1x1024x512.size a ≤ S1x2048x512.size a) (x0 : Vec F S1x2048x512 .f32) :
    View.ld x0 (Rect.unit (s := S1x2048x512) off S1x1024x512.size inb) = R0 x0 := by
  subst hoff
  funext j
  show x0 ((Rect.unit (s := S1x2048x512) ![0, 0, 0] S1x1024x512.size inb).emb j) = _
  unfold R0
  refine congrArg x0 (funext fun a => Fin.ext ?_)
  match a with
  | ⟨0, _⟩ =>
    have hj : (j (0 : Fin 3)).val < 1 := (j (0 : Fin 3)).isLt
    show 0 + 1 * (j (0 : Fin 3)).val = 0
    omega
  | ⟨1, _⟩ =>
    show 0 + 1 * (j (1 : Fin 3)).val = (j (1 : Fin 3)).val
    omega
  | ⟨2, _⟩ =>
    show 0 + 1 * (j (2 : Fin 3)).val = (j (2 : Fin 3)).val
    omega

/-- A load of 1024 rows from row 1024 on reads rows 1024–2047. -/
theorem ld_rows1 {off : Fin 3 → ℕ} (hoff : off = ![0, 1024, 0])
    (inb : ∀ a, off a + S1x1024x512.size a ≤ S1x2048x512.size a) (x0 : Vec F S1x2048x512 .f32) :
    View.ld x0 (Rect.unit (s := S1x2048x512) off S1x1024x512.size inb) = R1 x0 := by
  subst hoff
  funext j
  show x0 ((Rect.unit (s := S1x2048x512) ![0, 1024, 0] S1x1024x512.size inb).emb j) = _
  unfold R1
  refine congrArg x0 (funext fun a => Fin.ext ?_)
  match a with
  | ⟨0, _⟩ =>
    have hj : (j (0 : Fin 3)).val < 1 := (j (0 : Fin 3)).isLt
    show 0 + 1 * (j (0 : Fin 3)).val = 0
    omega
  | ⟨1, _⟩ =>
    show 1024 + 1 * (j (1 : Fin 3)).val = 1024 + (j (1 : Fin 3)).val
    omega
  | ⟨2, _⟩ =>
    show 0 + 1 * (j (2 : Fin 3)).val = (j (2 : Fin 3)).val
    omega

/-! ## The pieces a k-tile-0 run leaves, over any blocks -/

/-- The row sums: the first tile's masked exponentials added to the reset sums. -/
theorem runFirst_den (c : Dev nD) (i : grid0.Coords) (arg2 : Memref sig .tc .vmem S1x2048x512 .f32) (harg2 : arg2.IsWhole) (arg3 : Memref sig .tc .vmem S1x1024x512 .f32) (harg3 : arg3.IsWhole) (arg4 : Memref sig .tc .vmem S1x2048x3 .f32) (harg4 : arg4.IsWhole) (arg5 : Memref sig .tc .vmem S1x1024x3 .f32) (harg5 : arg5.IsWhole) (arg6 : Memref sig .tc .vmem S1x2048x1 .f32) (harg6 : arg6.IsWhole)
    (hc1 : cond1 i) (hc2 : ¬cond2 i) (x0 : Vec F S1x2048x512 .f32) (x1 : Vec F S1x1024x512 .f32) (x2 : Vec F S1x2048x3 .f32) (x3 : Vec F S1x1024x3 .f32) :
    View.canon (runFirst (F := F) c i arg2 harg2 arg3 harg3 arg4 harg4 arg5 harg5 arg6 harg6 hc1 hc2 x0 x1 x2 x3).1
      = k0_pay12 (k0_pay6 x1 (k0_pay4 x0)) (k0_pay9 x2) (k0_pay10 x3) (k0_pay11 x2 x3) k0_pay3 := by
  unfold runFirst; dsimp only; sl_unfold_run_names
  rw [View.canon_cons_unit_zero (S := S2048x1) hz2]
  simp only [View.readAt_eq_ld, Memref.IsWhole.read_unread, View.ld_unit_zero (S := S1x2048x512) hz3,
    View.ld_unit_zero (S := S1x1024x512) hz3, View.ld_unit_zero (S := S1x2048x3) hz3, View.ld_unit_zero (S := S1x1024x3) hz3,
    View.readCov_unit_zero (S := S2048x1) _ hz2, View.readCov_unit_zero (S := S2048x512) _ hz2]

/-- The cached block: the anchor block in the matrix unit's format. -/
theorem runFirst_aq (c : Dev nD) (i : grid0.Coords) (arg2 : Memref sig .tc .vmem S1x2048x512 .f32) (harg2 : arg2.IsWhole) (arg3 : Memref sig .tc .vmem S1x1024x512 .f32) (harg3 : arg3.IsWhole) (arg4 : Memref sig .tc .vmem S1x2048x3 .f32) (harg4 : arg4.IsWhole) (arg5 : Memref sig .tc .vmem S1x1024x3 .f32) (harg5 : arg5.IsWhole) (arg6 : Memref sig .tc .vmem S1x2048x1 .f32) (harg6 : arg6.IsWhole)
    (hc1 : cond1 i) (hc2 : ¬cond2 i) (x0 : Vec F S1x2048x512 .f32) (x1 : Vec F S1x1024x512 .f32) (x2 : Vec F S1x2048x3 .f32) (x3 : Vec F S1x1024x3 .f32) :
    View.canon (runFirst (F := F) c i arg2 harg2 arg3 harg3 arg4 harg4 arg5 harg5 arg6 harg6 hc1 hc2 x0 x1 x2 x3).2.2.1 = k0_pay4 x0 := by
  unfold runFirst; dsimp only; sl_unfold_run_names
  rw [View.canon_unit_zero (S := S2048x512) hz2]
  simp only [View.readAt_eq_ld, Memref.IsWhole.read_unread, View.ld_unit_zero (S := S1x2048x512) hz3]

/-- The positive terms on rows 0–1023, whatever the buffer held: the tile's rows against the positive block. -/
theorem runFirst_num (c : Dev nD) (i : grid0.Coords) (arg2 : Memref sig .tc .vmem S1x2048x512 .f32) (harg2 : arg2.IsWhole) (arg3 : Memref sig .tc .vmem S1x1024x512 .f32) (harg3 : arg3.IsWhole) (arg4 : Memref sig .tc .vmem S1x2048x3 .f32) (harg4 : arg4.IsWhole) (arg5 : Memref sig .tc .vmem S1x1024x3 .f32) (harg5 : arg5.IsWhole) (arg6 : Memref sig .tc .vmem S1x2048x1 .f32) (harg6 : arg6.IsWhole)
    (hc1 : cond1 i) (hc2 : ¬cond2 i) (x0 : Vec F S1x2048x512 .f32) (x1 : Vec F S1x1024x512 .f32) (x2 : Vec F S1x2048x3 .f32) (x3 : Vec F S1x1024x3 .f32)
    (hoff2 : k0_off2 i = ![0, 0]) (hoff1 : k0_off1 i = ![0, 0, 0])
    (f : scNum.view.ty.Contents (Elt F)) (y : S2048x1.Idx) (hy : (y (0 : Fin 2)).val < 1024) :
    scNum.view.read (Elt F) (scNum.view.writes (Elt F) f (runFirst (F := F) c i arg2 harg2 arg3 harg3 arg4 harg4 arg5 harg5 arg6 harg6 hc1 hc2 x0 x1 x2 x3).2.1) y
      = k0_pay1 (k0_pay13 (k0_pay5 x1) (R0 x0)) (ix2 (⟨(y (0 : Fin 2)).val, hy⟩ : Fin 1024) (0 : Fin 1)) := by
  unfold runFirst; dsimp only; sl_unfold_run_names
  rw [View.read_writes_cons_rows (d := ![2048, 1]) (o := 0) (W := 1024) _ f (k0_off2_inb i) _ [] y hoff2 rfl rfl]
  have hr : 0 ≤ (y (0 : Fin 2)).val ∧ (y (0 : Fin 2)).val < 0 + 1024 := ⟨Nat.zero_le _, by omega⟩
  rw [dif_pos hr]
  simp only [View.readAt_eq_ld, Memref.IsWhole.read_unread, View.ld_unit_zero (S := S1x1024x512) hz3]
  rw [ld_rows0 hoff1]
  refine congrArg _ (funext fun a => Fin.ext ?_)
  match a with
  | ⟨0, _⟩ =>
    show (y (0 : Fin 2)).val - 0 = (y (0 : Fin 2)).val
    omega
  | ⟨1, _⟩ =>
    have hj : (y (1 : Fin 2)).val < 1 := (y (1 : Fin 2)).isLt
    show (y (1 : Fin 2)).val - 0 = 0
    omega

/-! ## The pieces a k-tile-1 run leaves, over any blocks and carried contents -/

/-- The positive terms' buffer after the k-tile-1 store over carried contents `xn`. -/
def numAfter (i : grid0.Coords) (x0 : Vec F S1x2048x512 .f32) (x1 : Vec F S1x1024x512 .f32) (xn : Vec F S2048x1 .f32) :
    Vec F S2048x1 .f32 :=
  scNum.view.read (Elt F) (scNum.view.writes (Elt F) ((Memref.isWhole_whole _ : scNum.IsWhole).unread xn)
    [(⟨Rect.unit (s := S2048x1) (k0_off2 i) S1024x1.size (k0_off2_inb i),
        k0_pay1 (k0_pay13 (k0_pay5 x1) (View.ld x0 (Rect.unit (s := S1x2048x512) (k0_off1 i) S1x1024x512.size (k0_off1_inb i))))⟩ :
      View.Piece (Elt F) S2048x1 .f32)])

/-- The output block: the losses of the completed sums and positive terms. -/
theorem runLast_out (c : Dev nD) (i : grid0.Coords) (arg2 : Memref sig .tc .vmem S1x2048x512 .f32) (harg2 : arg2.IsWhole) (arg3 : Memref sig .tc .vmem S1x1024x512 .f32) (harg3 : arg3.IsWhole) (arg4 : Memref sig .tc .vmem S1x2048x3 .f32) (harg4 : arg4.IsWhole) (arg5 : Memref sig .tc .vmem S1x1024x3 .f32) (harg5 : arg5.IsWhole) (arg6 : Memref sig .tc .vmem S1x2048x1 .f32) (harg6 : arg6.IsWhole)
    (hc1 : ¬cond1 i) (hc2 : cond2 i) (x0 : Vec F S1x2048x512 .f32) (x1 : Vec F S1x1024x512 .f32) (x2 : Vec F S1x2048x3 .f32) (x3 : Vec F S1x1024x3 .f32)
    (xd xn : Vec F S2048x1 .f32) (xa : Vec F S2048x512 .bf16) :
    View.canon (runLast (F := F) c i arg2 harg2 arg3 harg3 arg4 harg4 arg5 harg5 arg6 harg6 hc1 hc2 x0 x1 x2 x3 xd xn xa).1
      = k0_pay2 (k0_pay12 (k0_pay6 x1 xa) (k0_pay9 x2) (k0_pay10 x3) (k0_pay11 x2 x3) xd)
          (numAfter i x0 x1 xn) (numAfter i x0 x1 xn) := by
  unfold runLast; dsimp only; sl_unfold_run_names
  rw [View.canon_unit_zero (S := S1x2048x1) hz3]
  have ea := (Memref.isWhole_whole _ : scAq.IsWhole).read_unread (Val := Elt F) xa
  have ed := (Memref.isWhole_whole _ : scDen.IsWhole).read_unread (Val := Elt F) xd
  simp only [ea, ed, View.readAt_eq_ld, Memref.IsWhole.read_unread, View.ld_unit_zero (S := S1x2048x512) hz3,
    View.ld_unit_zero (S := S1x1024x512) hz3, View.ld_unit_zero (S := S1x2048x3) hz3, View.ld_unit_zero (S := S1x1024x3) hz3,
    View.ld_unit_zero (S := S2048x1) hz2, View.ld_unit_zero (S := S2048x512) hz2,
    View.readCov_unit_zero (S := S2048x1) _ hz2]
  unfold numAfter
  rfl

/-- Rows 0–1023 keep what was carried. -/
theorem numAfter_lo (i : grid0.Coords) (x0 : Vec F S1x2048x512 .f32) (x1 : Vec F S1x1024x512 .f32) (xn : Vec F S2048x1 .f32)
    (hoff2 : k0_off2 i = ![1024, 0]) (y : S2048x1.Idx) (hy : (y (0 : Fin 2)).val < 1024) :
    numAfter i x0 x1 xn y = xn y := by
  unfold numAfter
  rw [View.read_writes_cons_rows (d := ![2048, 1]) (o := 1024) (W := 1024) scNum.view _ (k0_off2_inb i) _ [] y hoff2 rfl rfl]
  have hr : ¬(1024 ≤ (y (0 : Fin 2)).val ∧ (y (0 : Fin 2)).val < 1024 + 1024) := by omega
  rw [dif_neg hr, View.writes_nil, Memref.IsWhole.read_unread]

/-- Rows 1024–2047 hold the second tile's positive terms. -/
theorem numAfter_hi (i : grid0.Coords) (x0 : Vec F S1x2048x512 .f32) (x1 : Vec F S1x1024x512 .f32) (xn : Vec F S2048x1 .f32)
    (hoff2 : k0_off2 i = ![1024, 0]) (hoff1 : k0_off1 i = ![0, 1024, 0]) (y : S2048x1.Idx) (hy : 1024 ≤ (y (0 : Fin 2)).val) :
    numAfter i x0 x1 xn y
      = k0_pay1 (k0_pay13 (k0_pay5 x1) (R1 x0))
          (ix2 (⟨(y (0 : Fin 2)).val - 1024, by
            have h2 : (y (0 : Fin 2)).val < 2048 := (y (0 : Fin 2)).isLt
            omega⟩ : Fin 1024) (0 : Fin 1)) := by
  have h2 : (y (0 : Fin 2)).val < 2048 := (y (0 : Fin 2)).isLt
  unfold numAfter
  rw [View.read_writes_cons_rows (d := ![2048, 1]) (o := 1024) (W := 1024) scNum.view _ (k0_off2_inb i) _ [] y hoff2 rfl rfl]
  have hr : 1024 ≤ (y (0 : Fin 2)).val ∧ (y (0 : Fin 2)).val < 1024 + 1024 := ⟨hy, by omega⟩
  rw [dif_pos hr, ld_rows1 hoff1]
  refine congrArg _ (funext fun a => Fin.ext ?_)
  match a with
  | ⟨0, _⟩ =>
    show (y (0 : Fin 2)).val - 1024 = (y (0 : Fin 2)).val - 1024
    rfl
  | ⟨1, _⟩ =>
    have hj : (y (1 : Fin 2)).val < 1 := (y (1 : Fin 2)).isLt
    show (y (1 : Fin 2)).val - 0 = 0
    omega

/-! ## At the grid's points -/

/-- The row sums after a k-tile-0 point. -/
theorem denF_eq (c : Dev nD) (t : Fin cfg0.N) (h0 : t.val % 2 = 0) :
    denF m c t h0
      = k0_pay12 (k0_pay6 (iblk m c 1 t) (k0_pay4 (iblk m c 0 t))) (k0_pay9 (iblk m c 2 t)) (k0_pay10 (iblk m c 3 t))
          (k0_pay11 (iblk m c 2 t) (iblk m c 3 t)) k0_pay3 := by
  unfold denF
  rw [View.read_writes_eq_canon _ _ _ (coverD_first m c t h0)]
  unfold firstAt
  exact runFirst_den c (grid0.coords t) (ms0 t) (hs0 t) (ms1 t) (hs1 t) (ms2 t) (hs2 t) (ms3 t) (hs3 t) (ms4 t) (hs4 t)
    ((hcond1 t).mpr h0) (fun h => by have := (hcond2 t).mp h; omega) (iblk m c 0 t) (iblk m c 1 t) (iblk m c 2 t) (iblk m c 3 t)

/-- The cached block after a k-tile-0 point. -/
theorem aqF_eq (c : Dev nD) (t : Fin cfg0.N) (h0 : t.val % 2 = 0) :
    aqF m c t h0 = k0_pay4 (iblk m c 0 t) := by
  unfold aqF
  rw [View.read_writes_eq_canon _ _ _ (coverA_first m c t h0)]
  unfold firstAt
  exact runFirst_aq c (grid0.coords t) (ms0 t) (hs0 t) (ms1 t) (hs1 t) (ms2 t) (hs2 t) (ms3 t) (hs3 t) (ms4 t) (hs4 t)
    ((hcond1 t).mpr h0) (fun h => by have := (hcond2 t).mp h; omega) (iblk m c 0 t) (iblk m c 1 t) (iblk m c 2 t) (iblk m c 3 t)

/-- The positive terms after a k-tile-0 point, on rows 0–1023. -/
theorem numF_lo (c : Dev nD) (t : Fin cfg0.N) (h0 : t.val % 2 = 0) (y : S2048x1.Idx) (hy : (y (0 : Fin 2)).val < 1024) :
    numF m c t h0 y
      = k0_pay1 (k0_pay13 (k0_pay5 (iblk m c 1 t)) (R0 (iblk m c 0 t))) (ix2 (⟨(y (0 : Fin 2)).val, hy⟩ : Fin 1024) (0 : Fin 1)) := by
  unfold numF firstAt
  exact runFirst_num c (grid0.coords t) (ms0 t) (hs0 t) (ms1 t) (hs1 t) (ms2 t) (hs2 t) (ms3 t) (hs3 t) (ms4 t) (hs4 t)
    ((hcond1 t).mpr h0) (fun h => by have := (hcond2 t).mp h; omega) (iblk m c 0 t) (iblk m c 1 t) (iblk m c 2 t) (iblk m c 3 t)
    (off2_first t h0) (off1_first t h0) VN.junk y hy

/-- The row sums a k-tile-1 point completes. -/
def denL (c : Dev nD) (t : Fin cfg0.N) (h1 : t.val % 2 = 1) : Vec F S2048x1 .f32 :=
  k0_pay12 (k0_pay6 (iblk m c 1 t) (aqF m c (prevPt t) (prevPt_even t h1))) (k0_pay9 (iblk m c 2 t)) (k0_pay10 (iblk m c 3 t))
    (k0_pay11 (iblk m c 2 t) (iblk m c 3 t)) (denF m c (prevPt t) (prevPt_even t h1))

/-- The positive terms a k-tile-1 point completes. -/
def numL (c : Dev nD) (t : Fin cfg0.N) (h1 : t.val % 2 = 1) : Vec F S2048x1 .f32 :=
  numAfter (grid0.coords t) (iblk m c 0 t) (iblk m c 1 t) (numF m c (prevPt t) (prevPt_even t h1))

/-- The losses a k-tile-1 point stores. -/
theorem outL_eq (c : Dev nD) (t : Fin cfg0.N) (h1 : t.val % 2 = 1) :
    outL m c t h1 = k0_pay2 (denL m c t h1) (numL m c t h1) (numL m c t h1) := by
  unfold outL
  rw [View.read_writes_eq_canon _ _ _ (cover4_last m c t h1 _ _ _)]
  unfold lastAt denL numL
  exact runLast_out c (grid0.coords t) (ms0 t) (hs0 t) (ms1 t) (hs1 t) (ms2 t) (hs2 t) (ms3 t) (hs3 t) (ms4 t) (hs4 t)
    (fun h => by have := (hcond1 t).mp h; omega) ((hcond2 t).mpr h1) (iblk m c 0 t) (iblk m c 1 t) (iblk m c 2 t) (iblk m c 3 t)
    (denF m c (prevPt t) (prevPt_even t h1)) (numF m c (prevPt t) (prevPt_even t h1)) (aqF m c (prevPt t) (prevPt_even t h1))

/-- On rows 0–1023 the completed positive terms are the ones the point before left. -/
theorem numL_lo (c : Dev nD) (t : Fin cfg0.N) (h1 : t.val % 2 = 1) (y : S2048x1.Idx) (hy : (y (0 : Fin 2)).val < 1024) :
    numL m c t h1 y = numF m c (prevPt t) (prevPt_even t h1) y := by
  unfold numL
  exact numAfter_lo (grid0.coords t) (iblk m c 0 t) (iblk m c 1 t) (numF m c (prevPt t) (prevPt_even t h1)) (off2_last t h1) y hy

/-- On rows 1024–2047 they are the second tile's. -/
theorem numL_hi (c : Dev nD) (t : Fin cfg0.N) (h1 : t.val % 2 = 1) (y : S2048x1.Idx) (hy : 1024 ≤ (y (0 : Fin 2)).val) :
    numL m c t h1 y
      = k0_pay1 (k0_pay13 (k0_pay5 (iblk m c 1 t)) (R1 (iblk m c 0 t)))
          (ix2 (⟨(y (0 : Fin 2)).val - 1024, by
            have h2 : (y (0 : Fin 2)).val < 2048 := (y (0 : Fin 2)).isLt
            omega⟩ : Fin 1024) (0 : Fin 1)) := by
  unfold numL
  exact numAfter_hi (grid0.coords t) (iblk m c 0 t) (iblk m c 1 t) (numF m c (prevPt t) (prevPt_even t h1)) (off2_last t h1) (off1_last t h1) y hy

end Cert.KernelIdeal.Hand

end
-- ==== Proof.KIMath.lean ====
/- The body's payloads read at an index on the extended reals: the matrix unit's product into zero is the sum over
   the 512 features, a lane sum into zero is the sum over the lane, the mask is one where the squared distance
   exceeds the squared radius, and the stored loss is zero minus the logarithm of the positive term over the total. -/
import proofs.«412390_j6597069766920_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## Layout operations the body meets, read at an index given by coordinates -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One column of a matrix of three, cut out as `[n, 1]`, reads, at `(p, u)`, the matrix at `(p, k)`, `k` the column's number. -/
theorem column_apply {n : ℕ} (o : ℕ) (X : (⟨2, ![n, 3]⟩ : Shape).Idx → α)
    (h : (⟨2, ![n, 3]⟩ : Shape).Slices ![0, o] ⟨2, ![n, 1]⟩) (p : Fin n) (u : Fin 1) (k : Fin 3) (hk : k.val = o) :
    extractStridedSlice ⟨2, ![n, 1]⟩ ![0, o] X h (ix2 p u) = X (ix2 p k) :=
  slice2_axis1_apply o X h p u k (by have := u.isLt; omega)

end Layout

/-! ## A lane sum into zero -/

/-- The sum along the rows of an `[a, b]` matrix into the zero word reads, at `r`, the sum over the row. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  match c with
  | ⟨0, _⟩ => exact Fin.ext rfl
  | ⟨1, _⟩ => exact Fin.ext rfl

/-! ## The loaded blocks with their unit axis dropped, and the anchor block in the matrix unit's format -/

/-- The anchor block as the matrix unit takes it: the block itself, its unit axis dropped. -/
theorem pay4_apply (x0 : Vec Ideal S1x2048x512 .f32) (s : Fin 2048) (f : Fin 512) :
    k0_pay4 (F := Ideal) x0 (ix2 s f) = x0 (ix3 (0 : Fin 1) s f) := by
  unfold k0_pay4
  rw [shapeCast_self]
  exact shapeCast_1ab_ab_apply x0 _ s f

/-- The positive tile, its unit axis dropped. -/
theorem pay5_apply (x1 : Vec Ideal S1x1024x512 .f32) (t' : Fin 1024) (f : Fin 512) :
    k0_pay5 (F := Ideal) x1 (ix2 t' f) = x1 (ix3 (0 : Fin 1) t' f) := by
  unfold k0_pay5
  exact shapeCast_1ab_ab_apply x1 _ t' f

/-- The anchor points, their unit axis dropped. -/
theorem pay7_apply (x2 : Vec Ideal S1x2048x3 .f32) (s : Fin 2048) (d : Fin 3) :
    k0_pay7 (F := Ideal) x2 (ix2 s d) = x2 (ix3 (0 : Fin 1) s d) := by
  unfold k0_pay7
  exact shapeCast_1ab_ab_apply x2 _ s d

/-- The tile's points, their unit axis dropped. -/
theorem pay8_apply (x3 : Vec Ideal S1x1024x3 .f32) (t' : Fin 1024) (d : Fin 3) :
    k0_pay8 (F := Ideal) x3 (ix2 t' d) = x3 (ix3 (0 : Fin 1) t' d) := by
  unfold k0_pay8
  exact shapeCast_1ab_ab_apply x3 _ t' d

/-! ## The squared norms of the points -/

/-- An anchor point's squared norm: the sum of its three squared coordinates. -/
theorem pay9_apply (x2 : Vec Ideal S1x2048x3 .f32) (s : Fin 2048) (u : Fin 1) :
    k0_pay9 (F := Ideal) x2 (ix2 s u) = ∑ d : Fin 3, x2 (ix3 (0 : Fin 1) s d) * x2 (ix3 (0 : Fin 1) s d) := by
  unfold k0_pay9
  refine (shapeCast_a_a1_apply _ _ s u).trans ?_
  refine (laneSum_apply _ _ _ _ s).trans ?_
  refine Finset.sum_congr rfl fun d _ => ?_
  exact congrArg₂ (· * ·) (pay7_apply x2 s d) (pay7_apply x2 s d)

/-- A tile point's squared norm. -/
theorem pay10_apply (x3 : Vec Ideal S1x1024x3 .f32) (u : Fin 1) (t' : Fin 1024) :
    k0_pay10 (F := Ideal) x3 (ix2 u t') = ∑ d : Fin 3, x3 (ix3 (0 : Fin 1) t' d) * x3 (ix3 (0 : Fin 1) t' d) := by
  unfold k0_pay10
  refine (shapeCast_a_1a_apply _ _ u t').trans ?_
  refine (laneSum_apply _ _ _ _ t').trans ?_
  refine Finset.sum_congr rfl fun d _ => ?_
  exact congrArg₂ (· * ·) (pay8_apply x3 t' d) (pay8_apply x3 t' d)

/-! ## The cross term of the squared distance -/

/-- Coordinate `k` of the anchor points, spread along the row: at `(s, t')` it is anchor `s`'s coordinate. -/
theorem anchorCoord_apply (x2 : Vec Ideal S1x2048x3 .f32) (o : ℕ) (h : S2048x3.Slices ![0, o] S2048x1)
    (hb : S2048x1.Broadcasts S2048x1024) (k : Fin 3) (hk : k.val = o) (s : Fin 2048) (t' : Fin 1024) :
    broadcastTo S2048x1024 (extractStridedSlice S2048x1 ![0, o] (k0_pay7 (F := Ideal) x2) h) hb (ix2 s t')
      = x2 (ix3 (0 : Fin 1) s k) :=
  (broadcastTo_a1_ab_apply _ hb s t').trans
    ((column_apply o (k0_pay7 (F := Ideal) x2) h s 0 k hk).trans (pay7_apply x2 s k))

/-- Coordinate `k` of the tile's points, laid as a row and spread down the columns: at `(s, t')` it is tile point `t'`'s coordinate. -/
theorem tileCoord_apply (x3 : Vec Ideal S1x1024x3 .f32) (o : ℕ) (h : S1024x3.Slices ![0, o] S1024x1)
    (hc : S1024x1.ShapeCasts S1024) (hc' : S1024.ShapeCasts S1x1024)
    (hb : S1x1024.Broadcasts S2048x1024) (k : Fin 3) (hk : k.val = o) (s : Fin 2048) (t' : Fin 1024) :
    broadcastTo S2048x1024 (shapeCast S1x1024 (shapeCast S1024 (extractStridedSlice S1024x1 ![0, o] (k0_pay8 (F := Ideal) x3) h) hc) hc') hb (ix2 s t')
      = x3 (ix3 (0 : Fin 1) t' k) :=
  (broadcastTo_1b_ab_apply _ hb s t').trans
    ((shapeCast_a_1a_apply _ hc' 0 t').trans
      ((shapeCast_a1_a_apply _ hc t').trans
        ((column_apply o (k0_pay8 (F := Ideal) x3) h t' 0 k hk).trans (pay8_apply x3 t' k))))

/-- The cross term: the inner product of anchor `s`'s point and tile point `t'`, summed in the order the body adds it. -/
theorem pay11_apply (x2 : Vec Ideal S1x2048x3 .f32) (x3 : Vec Ideal S1x1024x3 .f32) (s : Fin 2048) (t' : Fin 1024) :
    k0_pay11 (F := Ideal) x2 x3 (ix2 s t')
      = (x2 (ix3 (0 : Fin 1) s 0) * x3 (ix3 (0 : Fin 1) t' 0) + x2 (ix3 (0 : Fin 1) s 1) * x3 (ix3 (0 : Fin 1) t' 1))
        + x2 (ix3 (0 : Fin 1) s 2) * x3 (ix3 (0 : Fin 1) t' 2) := by
  unfold k0_pay11
  exact congrArg₂ (· + ·)
    (congrArg₂ (· + ·)
      (congrArg₂ (· * ·) (anchorCoord_apply x2 0 _ _ 0 rfl s t') (tileCoord_apply x3 0 _ _ _ _ 0 rfl s t'))
      (congrArg₂ (· * ·) (anchorCoord_apply x2 1 _ _ 1 rfl s t') (tileCoord_apply x3 1 _ _ _ _ 1 rfl s t')))
    (congrArg₂ (· * ·) (anchorCoord_apply x2 2 _ _ 2 rfl s t') (tileCoord_apply x3 2 _ _ _ _ 2 rfl s t'))

/-! ## The matrix unit's product into zero -/

theorem lhs_matmul_0 (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_matmul_1 (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
theorem rhs_matmul_0 (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_matmul_1 (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- The matrix unit's product of an anchor block `aq` (in its own format) with the positive tile, accumulated into zero:
    at `(s, t')` the inner product over the 512 features of row `s` of `aq` and row `t'` of the tile. -/
theorem pay6_apply (x1 : Vec Ideal S1x1024x512 .f32) (aq : FVec Ideal S2048x512 .bf16) (s : Fin 2048) (t' : Fin 1024) :
    k0_pay6 (F := Ideal) x1 aq (ix2 s t') = ∑ f : Fin 512, aq (ix2 s f) * x1 (ix3 (0 : Fin 1) t' f) := by
  unfold k0_pay6
  refine (Ideal.matmul_constant_zero_apply dot_S2048x512_S1024x512_S2048x1024_1_1_0_0_n_n none aq _ (ix2 s t')).trans ?_
  rw [← Equiv.sum_comp (ValueIdx.contrEquiv1 dot_S2048x512_S1024x512_S2048x1024_1_1_0_0_n_n 512 rfl rfl).symm]
  refine Finset.sum_congr rfl fun k _ => ?_
  have hk := ValueIdx.contrEquiv1_symm_val dot_S2048x512_S1024x512_S2048x1024_1_1_0_0_n_n 512 rfl rfl k
  have el : dot_S2048x512_S1024x512_S2048x1024_1_1_0_0_n_n.lhsIdx (ix2 s t') ((ValueIdx.contrEquiv1 dot_S2048x512_S1024x512_S2048x1024_1_1_0_0_n_n 512 rfl rfl).symm k) = ix2 s k := funext fun a => Fin.ext (by
    match a with
    | ⟨0, _⟩ => exact lhs_matmul_0 _ _
    | ⟨1, _⟩ => exact (lhs_matmul_1 _ _).trans hk)
  have er : dot_S2048x512_S1024x512_S2048x1024_1_1_0_0_n_n.rhsIdx (ix2 s t') ((ValueIdx.contrEquiv1 dot_S2048x512_S1024x512_S2048x1024_1_1_0_0_n_n 512 rfl rfl).symm k) = ix2 t' k := funext fun a => Fin.ext (by
    match a with
    | ⟨0, _⟩ => exact rhs_matmul_0 _ _
    | ⟨1, _⟩ => exact (rhs_matmul_1 _ _).trans hk)
  rw [el, er]
  exact congrArg (aq (ix2 s k) * ·) (pay5_apply x1 t' k)

end Cert.KernelIdeal.Hand

end
-- ==== Proof.KIMath2.lean ====
/- Three of the body's payloads read at an index on the extended reals: the row sums' step (what was there plus the
   tile's masked exponentials summed from zero), the tile's positive terms (the exponential of the row's cosine
   similarity over the temperature), and the stored loss (zero minus the logarithm of the positive term over the total). -/
import proofs.«412390_j6597069766920_3_alg».proof.Proof.Gen.KernelIdeal.Skeleton
import proofs.«412390_j6597069766920_3_alg».proof.Proof.KIMath
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## A lane sum into zero, its accumulator's evidence as a payload carries it -/

/-- The lane sum into the zero word read at a row is the sum of the row's entries; the evidence that the accumulator is
    the sum's neutral word is here the equation of the zero word with itself, which is what a payload carries. -/
theorem laneSum_word_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction (F := Ideal) .add [1] ⟨1, ![a]⟩ src 0x00000000#32 h hφ hacc (ix1 i) = ∑ k : Fin b, src (ix2 i k) :=
  laneSum_apply src h hφ hacc i

/-! ## The mask's bit, widened to a word and read signed -/

/-- A "greater than" bit widened to 32 bits and converted signed is one where it holds and zero elsewhere. -/
theorem sitofp_extui_ogt (x y : EReal) :
    FloatOps.sitofp (F := Ideal) .f32 ((FloatOps.cmpf (F := Ideal) (φ := .f32) .ogt x y).setWidth 32)
      = if y < x then (1 : EReal) else 0 := by
  show (((((BitVec.ofBool (decide (y < x))).setWidth 32).toInt : ℤ) : ℝ) : EReal) = _
  by_cases hxy : y < x
  · have h1 : ((BitVec.ofBool true).setWidth 32).toInt = 1 := by decide
    rw [if_pos hxy, decide_eq_true hxy, h1]
    norm_num
  · have h0 : ((BitVec.ofBool false).setWidth 32).toInt = 0 := by decide
    rw [if_neg hxy, decide_eq_false hxy, h0]
    norm_num

/-! ## The three payloads at an index -/

/-- The row sums' step at row `s`: what was there plus the tile's exponentials of the similarities over the temperature,
    each kept where the squared distance exceeds the squared radius, summed over the tile's 1024 lanes. -/
theorem pay12_apply (v7 : FVec Ideal S2048x1024 .f32) (v14 : FVec Ideal S2048x1 .f32) (v17 : FVec Ideal S1x1024 .f32)
    (v40 : FVec Ideal S2048x1024 .f32) (v57 : Vec Ideal S2048x1 .f32) (s : Fin 2048) :
    k0_pay12 (F := Ideal) v7 v14 v17 v40 v57 (ix2 s (0 : Fin 1))
      = v57 (ix2 s (0 : Fin 1)) + ∑ t' : Fin 1024,
          Ideal.exp (Ideal.div (v7 (ix2 s t')) (Ideal.ofBits .f32 0x3DCCCCCD#32))
            * (if Ideal.ofBits .f32 0x41C80000#32
                  < (v14 (ix2 s (0 : Fin 1)) + v17 (ix2 (0 : Fin 1) t')) - Ideal.ofBits .f32 0x40000000#32 * v40 (ix2 s t')
                then (1 : EReal) else 0) := by
  simp only [k0_pay12]
  rw [shapeCast_self, addf_apply, shapeCast_a_a1_apply, laneSum_word_apply]
  refine congrArg (_ + ·) (Finset.sum_congr rfl fun t' _ => ?_)
  simp only [mulf, exp, divf, sitofp, extui, cmpf, subf, addf, broadcast]
  rw [broadcastTo_a1_ab_apply, broadcastTo_1b_ab_apply, sitofp_extui_ogt]
  simp only [Ideal.mulf_def, Ideal.exp_def, Ideal.divf_def, Ideal.subf_def, Ideal.addf_def, Ideal.ofBits_def]

/-- The tile's positive terms at row `r`: the exponential, over the temperature, of the cosine similarity of the row's
    two feature rows, the product of the norms floored. -/
theorem pay13_apply (v4 : FVec Ideal S1024x512 .f32) (v65 : Vec Ideal S1x1024x512 .f32) (r : Fin 1024) :
    k0_pay13 (F := Ideal) v4 v65 (ix2 r (0 : Fin 1))
      = Ideal.exp (Ideal.div
          (Ideal.div (∑ f : Fin 512, v65 (ix3 (0 : Fin 1) r f) * v4 (ix2 r f))
            (max (Ideal.sqrt (∑ f : Fin 512, v65 (ix3 (0 : Fin 1) r f) * v65 (ix3 (0 : Fin 1) r f))
                  * Ideal.sqrt (∑ f : Fin 512, v4 (ix2 r f) * v4 (ix2 r f)))
              (Ideal.ofBits .f32 0x322BCC77#32)))
          (Ideal.ofBits .f32 0x3DCCCCCD#32)) := by
  simp only [k0_pay13]
  rw [shapeCast_a_a1_apply]
  simp only [exp, divf, maximumf, broadcast, mulf_apply, sqrt]
  rw [laneSum_word_apply, laneSum_word_apply, laneSum_word_apply]
  simp only [mulf_apply, shapeCast_1ab_ab_apply, Ideal.exp_def, Ideal.divf_def, Ideal.sqrt_def, Ideal.maximumf_def,
    Ideal.ofBits_def]

/-- The positive terms stored back: a cast of a shape to itself changes nothing. -/
theorem pay1_apply (v82 : FVec Ideal S1024x1 .f32) (r : Fin 1024) :
    k0_pay1 (F := Ideal) v82 (ix2 r (0 : Fin 1)) = v82 (ix2 r (0 : Fin 1)) := by
  simp only [k0_pay1]
  rw [shapeCast_self]

/-- The stored loss at row `s`: zero minus the logarithm of the positive term over the total, which is its negation. -/
theorem pay2_apply (v90 v91 v93 : Vec Ideal S2048x1 .f32) (s : Fin 2048) :
    k0_pay2 (F := Ideal) v90 v91 v93 (ix3 (0 : Fin 1) s (0 : Fin 1))
      = - Ideal.log (Ideal.div (v93 (ix2 s (0 : Fin 1))) (v90 (ix2 s (0 : Fin 1)) + v91 (ix2 s (0 : Fin 1)))) := by
  simp only [k0_pay2]
  rw [shapeCast_ab_1ab_apply]
  simp only [subf, log, divf, addf, broadcast, Ideal.subf_def, Ideal.log_def, Ideal.divf_def, Ideal.addf_def,
    Ideal.ofBits_def, Ideal.ofBits_zero_f32, zero_sub]

end Cert.KernelIdeal.Hand

end
-- ==== Proof.KIJoin.lean ====
/- The kernel's arithmetic for one batch, joined: with the row sums taken over the two tiles of 1024 columns in turn
   (from zero, then onto the first tile's) and the positive terms tile by tile, the stored loss of row s is
   `Spec.loss` of the batch's rows — the sum over 2048 rows is the sum of its two halves. -/
import proofs.«412390_j6597069766920_3_alg».proof.Proof.KIMath
import proofs.«412390_j6597069766920_3_alg».proof.Proof.KIMath2
import proofs.«412390_j6597069766920_3_alg».proof.Proof.Spec
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The 2048 rows as two tiles of 1024 -/

/-- Row `r` of the first tile, as a row of the batch. -/
abbrev lo (r : Fin 1024) : Fin 2048 := ⟨r.val, by have := r.isLt; omega⟩
/-- Row `r` of the second tile, as a row of the batch. -/
abbrev hi (r : Fin 1024) : Fin 2048 := ⟨1024 + r.val, by have := r.isLt; omega⟩

/-- A sum over the batch's 2048 rows is the sum over the first tile's plus the sum over the second's. -/
theorem sum_rows_split (g : Fin 2048 → EReal) : ∑ t, g t = ∑ r : Fin 1024, g (lo r) + ∑ r : Fin 1024, g (hi r) :=
  Fin.sum_univ_add (a := 1024) (b := 1024) g

/-- Every row of the batch lies in one of the two tiles. -/
theorem row_cases (s : Fin 2048) : (∃ r : Fin 1024, s = lo r) ∨ (∃ r : Fin 1024, s = hi r) := by
  by_cases h : s.val < 1024
  · exact .inl ⟨⟨s.val, h⟩, Fin.ext rfl⟩
  · exact .inr ⟨⟨s.val - 1024, by have := s.isLt; omega⟩, Fin.ext (by show s.val = 1024 + (s.val - 1024); omega)⟩

/-! ## The row sums start from zero -/

/-- The vector the row sums start from is zero everywhere. -/
theorem pay3_apply (s : Fin 2048) (u : Fin 1) : k0_pay3 (F := Ideal) (ix2 s u) = 0 := by
  unfold k0_pay3
  rw [shapeCast_self]
  exact Ideal.ofBits_zero_f32

/-! ## One tile's part of a row's sum, and its positive terms -/

section Tile
variable (a q : Fin 2048 → Fin 512 → EReal) (p : Fin 2048 → Fin 3 → EReal)
variable (x0 : Vec Ideal S1x2048x512 .f32) (x2 : Vec Ideal S1x2048x3 .f32)
variable (ha : ∀ s f, x0 (ix3 (0 : Fin 1) s f) = a s f) (hp : ∀ s d, x2 (ix3 (0 : Fin 1) s d) = p s d)
/- a tile: its positive features, its points, the anchor rows at its own rows, and where its rows lie in the batch -/
variable (x1 : Vec Ideal S1x1024x512 .f32) (x3 : Vec Ideal S1x1024x3 .f32) (R : Vec Ideal S1x1024x512 .f32) (ρ : Fin 1024 → Fin 2048)
variable (hq : ∀ r f, x1 (ix3 (0 : Fin 1) r f) = q (ρ r) f) (hp3 : ∀ r d, x3 (ix3 (0 : Fin 1) r d) = p (ρ r) d)
variable (hR : ∀ r f, R (ix3 (0 : Fin 1) r f) = a (ρ r) f)

include ha hp hq hp3 in
/-- Column `t'` of the tile contributes, to row `s`, the specification's masked term of row `ρ t'`. -/
theorem tile_term (s : Fin 2048) (t' : Fin 1024) :
    Ideal.exp (Ideal.div (k0_pay6 (F := Ideal) x1 (k0_pay4 (F := Ideal) x0) (ix2 s t')) (Ideal.ofBits .f32 0x3DCCCCCD#32))
        * (if Ideal.ofBits .f32 0x41C80000#32
              < (k0_pay9 (F := Ideal) x2 (ix2 s 0) + k0_pay10 (F := Ideal) x3 (ix2 0 t'))
                - Ideal.ofBits .f32 0x40000000#32 * k0_pay11 (F := Ideal) x2 x3 (ix2 s t') then 1 else 0)
      = Cert.Spec.term a q p s (ρ t') := by
  have e6 : k0_pay6 (F := Ideal) x1 (k0_pay4 (F := Ideal) x0) (ix2 s t') = ∑ f, a s f * q (ρ t') f :=
    (pay6_apply x1 _ s t').trans (Finset.sum_congr rfl fun f _ => by rw [pay4_apply, ha, hq])
  have e9 : k0_pay9 (F := Ideal) x2 (ix2 s 0) = ∑ d, p s d * p s d :=
    (pay9_apply x2 s 0).trans (Finset.sum_congr rfl fun d _ => by rw [hp])
  have e10 : k0_pay10 (F := Ideal) x3 (ix2 0 t') = ∑ d, p (ρ t') d * p (ρ t') d :=
    (pay10_apply x3 0 t').trans (Finset.sum_congr rfl fun d _ => by rw [hp3])
  have e11 : k0_pay11 (F := Ideal) x2 x3 (ix2 s t') = ∑ d, p s d * p (ρ t') d := by
    rw [pay11_apply, Fin.sum_univ_three, hp, hp, hp, hp3, hp3, hp3]
  rw [e6, e9, e10, e11]
  unfold Cert.Spec.term Cert.Spec.far Cert.Spec.dist2 Cert.Spec.sq Cert.Spec.tau Cert.Spec.radius2 Cert.Spec.two
  rfl

include ha hp hq hp3 in
/-- A step of the row sums: what was there plus the tile's masked terms. -/
theorem tile_rowSum (v57 : Vec Ideal S2048x1 .f32) (s : Fin 2048) :
    k0_pay12 (F := Ideal) (k0_pay6 (F := Ideal) x1 (k0_pay4 (F := Ideal) x0)) (k0_pay9 (F := Ideal) x2) (k0_pay10 (F := Ideal) x3)
        (k0_pay11 (F := Ideal) x2 x3) v57 (ix2 s 0)
      = v57 (ix2 s 0) + ∑ r : Fin 1024, Cert.Spec.term a q p s (ρ r) :=
  (pay12_apply _ _ _ _ v57 s).trans
    (congrArg (v57 (ix2 s 0) + ·) (Finset.sum_congr rfl fun t' _ => tile_term a q p x0 x2 ha hp x1 x3 ρ hq hp3 s t'))

include hq hR in
/-- The tile's positive terms: row `r`'s is the specification's positive term of row `ρ r`. -/
theorem tile_num (r : Fin 1024) :
    k0_pay1 (F := Ideal) (k0_pay13 (F := Ideal) (k0_pay5 (F := Ideal) x1) R) (ix2 r 0) = Cert.Spec.num a q (ρ r) := by
  refine (pay1_apply _ r).trans ((pay13_apply _ R r).trans ?_)
  simp only [pay5_apply, hR, hq]
  unfold Cert.Spec.num Cert.Spec.dpos Cert.Spec.tau Cert.Spec.eps
  rfl

end Tile

/-! ## The stored loss of a row -/

/-- With the positive term and the two tiles' sums in hand, the stored value is the specification's loss. -/
theorem loss_of_parts (a q : Fin 2048 → Fin 512 → EReal) (p : Fin 2048 → Fin 3 → EReal) (s : Fin 2048) (den n : EReal)
    (hn : n = Cert.Spec.num a q s)
    (hden : den = (0 + ∑ r : Fin 1024, Cert.Spec.term a q p s (lo r)) + ∑ r : Fin 1024, Cert.Spec.term a q p s (hi r)) :
    - Ideal.log (Ideal.div n (den + n)) = Cert.Spec.loss a q p s := by
  unfold Cert.Spec.loss
  rw [sum_rows_split, hden, hn, zero_add, add_comm (Cert.Spec.num a q s)]

/-- The kernel's arithmetic for one batch: the row sums taken from zero over the first tile, then over the second; the positive
    terms tile by tile; the stored loss of row `s` is the specification's. -/
theorem batch_loss (a q : Fin 2048 → Fin 512 → EReal) (p : Fin 2048 → Fin 3 → EReal)
    (x0 : Vec Ideal S1x2048x512 .f32) (x1A x1B : Vec Ideal S1x1024x512 .f32) (x2 : Vec Ideal S1x2048x3 .f32)
    (x3A x3B : Vec Ideal S1x1024x3 .f32) (R0 R1 : Vec Ideal S1x1024x512 .f32) (N : Vec Ideal S2048x1 .f32)
    (ha : ∀ s f, x0 (ix3 (0 : Fin 1) s f) = a s f)
    (hR0 : ∀ (r : Fin 1024) f, R0 (ix3 (0 : Fin 1) r f) = a (lo r) f) (hR1 : ∀ (r : Fin 1024) f, R1 (ix3 (0 : Fin 1) r f) = a (hi r) f)
    (hqA : ∀ (r : Fin 1024) f, x1A (ix3 (0 : Fin 1) r f) = q (lo r) f) (hqB : ∀ (r : Fin 1024) f, x1B (ix3 (0 : Fin 1) r f) = q (hi r) f)
    (hp : ∀ s d, x2 (ix3 (0 : Fin 1) s d) = p s d)
    (hpA : ∀ (r : Fin 1024) d, x3A (ix3 (0 : Fin 1) r d) = p (lo r) d) (hpB : ∀ (r : Fin 1024) d, x3B (ix3 (0 : Fin 1) r d) = p (hi r) d)
    (hNlo : ∀ r : Fin 1024, N (ix2 (lo r) 0) = k0_pay1 (F := Ideal) (k0_pay13 (F := Ideal) (k0_pay5 (F := Ideal) x1A) R0) (ix2 r 0))
    (hNhi : ∀ r : Fin 1024, N (ix2 (hi r) 0) = k0_pay1 (F := Ideal) (k0_pay13 (F := Ideal) (k0_pay5 (F := Ideal) x1B) R1) (ix2 r 0))
    (s : Fin 2048) :
    k0_pay2 (F := Ideal)
        (k0_pay12 (F := Ideal) (k0_pay6 (F := Ideal) x1B (k0_pay4 (F := Ideal) x0)) (k0_pay9 (F := Ideal) x2) (k0_pay10 (F := Ideal) x3B)
          (k0_pay11 (F := Ideal) x2 x3B)
          (k0_pay12 (F := Ideal) (k0_pay6 (F := Ideal) x1A (k0_pay4 (F := Ideal) x0)) (k0_pay9 (F := Ideal) x2) (k0_pay10 (F := Ideal) x3A)
            (k0_pay11 (F := Ideal) x2 x3A) (k0_pay3 (F := Ideal))))
        N N (ix3 (0 : Fin 1) s 0)
      = Cert.Spec.loss a q p s := by
  refine (pay2_apply _ N N s).trans (loss_of_parts a q p s _ _ ?_ ?_)
  · rcases row_cases s with ⟨r, rfl⟩ | ⟨r, rfl⟩
    · exact (hNlo r).trans (tile_num a q x1A R0 lo hqA hR0 r)
    · exact (hNhi r).trans (tile_num a q x1B R1 hi hqB hR1 r)
  · refine (tile_rowSum a q p x0 x2 ha hp x1B x3B hi hqB hpB _ s).trans ?_
    exact congrArg (· + ∑ r : Fin 1024, Cert.Spec.term a q p s (hi r))
      ((tile_rowSum a q p x0 x2 ha hp x1A x3A lo hqA hpA _ s).trans
        (congrArg (· + ∑ r : Fin 1024, Cert.Spec.term a q p s (lo r)) (pay3_apply s 0)))

end Cert.KernelIdeal.Hand

end
-- ==== Proof.KIBlocks.lean ====
/- Each input window's block at a grid point, read at an index, is the window's array at the batch's rows: all 2048
   rows for the anchor features and the anchor points, the k-tile's 1024 rows for the positive features and for the
   points' second window. -/
import proofs.«412390_j6597069766920_3_alg».proof.Proof.KIPt
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The input windows' index maps, decided over the eight points -/

/-- The anchor features' window sits at batch t / 2, -/
theorem index0 : ∀ t : Fin cfg0.N,
    win0_0.index t (0 : Fin 3) = t.val / 2 ∧ win0_0.index t (1 : Fin 3) = 0 ∧ win0_0.index t (2 : Fin 3) = 0 :=
  (by decide +kernel : ∀ t : Fin grid0.N, _)
/-- the positive features' at batch t / 2 and row tile t % 2, -/
theorem index1 : ∀ t : Fin cfg0.N,
    win0_1.index t (0 : Fin 3) = t.val / 2 ∧ win0_1.index t (1 : Fin 3) = t.val % 2 ∧ win0_1.index t (2 : Fin 3) = 0 :=
  (by decide +kernel : ∀ t : Fin grid0.N, _)
/-- the anchor points' window on all rows at batch t / 2, -/
theorem index2 : ∀ t : Fin cfg0.N,
    win0_2.index t (0 : Fin 3) = t.val / 2 ∧ win0_2.index t (1 : Fin 3) = 0 ∧ win0_2.index t (2 : Fin 3) = 0 :=
  (by decide +kernel : ∀ t : Fin grid0.N, _)
/-- and their row-tiled window at batch t / 2 and row tile t % 2. -/
theorem index3 : ∀ t : Fin cfg0.N,
    win0_3.index t (0 : Fin 3) = t.val / 2 ∧ win0_3.index t (1 : Fin 3) = t.val % 2 ∧ win0_3.index t (2 : Fin 3) = 0 :=
  (by decide +kernel : ∀ t : Fin grid0.N, _)

/-- The two points of batch `b`: its storing point 2b + 1 and the one before, 2b. -/
theorem lastPt_div (b : Fin 4) : (lastPt b).val / 2 = b.val := by show (2 * b.val + 1) / 2 = b.val; omega
theorem prevPt_div (b : Fin 4) : (prevPt (lastPt b)).val / 2 = b.val := by show (2 * b.val + 1 - 1) / 2 = b.val; omega
theorem prevPt_mod (b : Fin 4) : (prevPt (lastPt b)).val % 2 = 0 := by show (2 * b.val + 1 - 1) % 2 = 0; omega

/-! ## A window's block of ANY array, read at an index: the index arithmetic -/

/-- Window 0's block at a point of batch `b` is the batch's 2048 rows. -/
theorem blk0_read (A : (⟨S4x2048x512, .f32⟩ : BufTy).Contents (Elt F)) (t : Fin cfg0.N) (b : Fin 4) (hb : t.val / 2 = b.val)
    (s : Fin 2048) (f : Fin 512) :
    (((cfg0.win 0).blk t).view.read (Elt F) A : S1x2048x512.Idx → Elt F .f32) (ix3 (0 : Fin 1) s f) = A (ix3 b s f) := by
  obtain ⟨e0, e1, e2⟩ := index0 t
  show A (((cfg0.win 0).blk t).view.emb (ix3 (0 : Fin 1) s f)) = A (ix3 b s f)
  refine congrArg A (funext fun a => Fin.ext ?_)
  match a with
  | ⟨0, _⟩ => show win0_0.index t (0 : Fin 3) * 1 + 1 * 0 = b.val; rw [e0]; omega
  | ⟨1, _⟩ => show win0_0.index t (1 : Fin 3) * 2048 + 1 * s.val = s.val; rw [e1]; omega
  | ⟨2, _⟩ => show win0_0.index t (2 : Fin 3) * 512 + 1 * f.val = f.val; rw [e2]; omega

/-- Window 1's block at a point of batch `b` and row tile `k` is the tile's 1024 rows of the batch. -/
theorem blk1_read (A : (⟨S4x2048x512, .f32⟩ : BufTy).Contents (Elt F)) (t : Fin cfg0.N) (b : Fin 4) (hb : t.val / 2 = b.val)
    (k : Nat) (hk : t.val % 2 = k) (r : Fin 1024) (f : Fin 512) (R : Fin 2048) (hR : R.val = 1024 * k + r.val) :
    (((cfg0.win 1).blk t).view.read (Elt F) A : S1x1024x512.Idx → Elt F .f32) (ix3 (0 : Fin 1) r f) = A (ix3 b R f) := by
  obtain ⟨e0, e1, e2⟩ := index1 t
  show A (((cfg0.win 1).blk t).view.emb (ix3 (0 : Fin 1) r f)) = A (ix3 b R f)
  refine congrArg A (funext fun a => Fin.ext ?_)
  match a with
  | ⟨0, _⟩ => show win0_1.index t (0 : Fin 3) * 1 + 1 * 0 = b.val; rw [e0]; omega
  | ⟨1, _⟩ => show win0_1.index t (1 : Fin 3) * 1024 + 1 * r.val = R.val; rw [e1]; omega
  | ⟨2, _⟩ => show win0_1.index t (2 : Fin 3) * 512 + 1 * f.val = f.val; rw [e2]; omega

/-- Window 2's block at a point of batch `b` is the batch's 2048 rows. -/
theorem blk2_read (A : (⟨S4x2048x3, .f32⟩ : BufTy).Contents (Elt F)) (t : Fin cfg0.N) (b : Fin 4) (hb : t.val / 2 = b.val)
    (s : Fin 2048) (d : Fin 3) :
    (((cfg0.win 2).blk t).view.read (Elt F) A : S1x2048x3.Idx → Elt F .f32) (ix3 (0 : Fin 1) s d) = A (ix3 b s d) := by
  obtain ⟨e0, e1, e2⟩ := index2 t
  show A (((cfg0.win 2).blk t).view.emb (ix3 (0 : Fin 1) s d)) = A (ix3 b s d)
  refine congrArg A (funext fun a => Fin.ext ?_)
  match a with
  | ⟨0, _⟩ => show win0_2.index t (0 : Fin 3) * 1 + 1 * 0 = b.val; rw [e0]; omega
  | ⟨1, _⟩ => show win0_2.index t (1 : Fin 3) * 2048 + 1 * s.val = s.val; rw [e1]; omega
  | ⟨2, _⟩ => show win0_2.index t (2 : Fin 3) * 3 + 1 * d.val = d.val; rw [e2]; omega

/-- Window 3's block at a point of batch `b` and row tile `k` is the tile's 1024 rows of the batch. -/
theorem blk3_read (A : (⟨S4x2048x3, .f32⟩ : BufTy).Contents (Elt F)) (t : Fin cfg0.N) (b : Fin 4) (hb : t.val / 2 = b.val)
    (k : Nat) (hk : t.val % 2 = k) (r : Fin 1024) (d : Fin 3) (R : Fin 2048) (hR : R.val = 1024 * k + r.val) :
    (((cfg0.win 3).blk t).view.read (Elt F) A : S1x1024x3.Idx → Elt F .f32) (ix3 (0 : Fin 1) r d) = A (ix3 b R d) := by
  obtain ⟨e0, e1, e2⟩ := index3 t
  show A (((cfg0.win 3).blk t).view.emb (ix3 (0 : Fin 1) r d)) = A (ix3 b R d)
  refine congrArg A (funext fun a => Fin.ext ?_)
  match a with
  | ⟨0, _⟩ => show win0_3.index t (0 : Fin 3) * 1 + 1 * 0 = b.val; rw [e0]; omega
  | ⟨1, _⟩ => show win0_3.index t (1 : Fin 3) * 1024 + 1 * r.val = R.val; rw [e1]; omega
  | ⟨2, _⟩ => show win0_3.index t (2 : Fin 3) * 3 + 1 * d.val = d.val; rw [e2]; omega

/-! ## The windows' blocks of the arrays the region finds, at any point of a batch -/

/-- The anchor features' block at a point of batch `b` is the batch's 2048 rows. -/
theorem iblk0_at (c : Dev nD) (t : Fin cfg0.N) (b : Fin 4) (hb : t.val / 2 = b.val) (s : Fin 2048) (f : Fin 512) :
    (iblk m c 0 t : S1x2048x512.Idx → Elt F .f32) (ix3 (0 : Fin 1) s f) = (V m c main_v2 : S4x2048x512.Idx → Elt F .f32) (ix3 b s f) := by
  unfold iblk
  exact blk0_read (V m c (Pipeline.arrRef spec0 0)) t b hb s f

/-- The positive features' block at a point of batch `b` and row tile `k` is the tile's 1024 rows of the batch. -/
theorem iblk1_at (c : Dev nD) (t : Fin cfg0.N) (b : Fin 4) (hb : t.val / 2 = b.val) (k : Nat) (hk : t.val % 2 = k)
    (r : Fin 1024) (f : Fin 512) (R : Fin 2048) (hR : R.val = 1024 * k + r.val) :
    (iblk m c 1 t : S1x1024x512.Idx → Elt F .f32) (ix3 (0 : Fin 1) r f) = (V m c main_v8 : S4x2048x512.Idx → Elt F .f32) (ix3 b R f) := by
  unfold iblk
  exact blk1_read (V m c (Pipeline.arrRef spec0 1)) t b hb k hk r f R hR

/-- The anchor points' block, through the window on all rows, at a point of batch `b` is the batch's 2048 rows. -/
theorem iblk2_at (c : Dev nD) (t : Fin cfg0.N) (b : Fin 4) (hb : t.val / 2 = b.val) (s : Fin 2048) (d : Fin 3) :
    (iblk m c 2 t : S1x2048x3.Idx → Elt F .f32) (ix3 (0 : Fin 1) s d) = (V m c main_v5 : S4x2048x3.Idx → Elt F .f32) (ix3 b s d) := by
  unfold iblk
  exact blk2_read (V m c (Pipeline.arrRef spec0 2)) t b hb s d

/-- The anchor points' block, through the row-tiled window, at a point of batch `b` and row tile `k` is the tile's
    1024 rows of the batch. -/
theorem iblk3_at (c : Dev nD) (t : Fin cfg0.N) (b : Fin 4) (hb : t.val / 2 = b.val) (k : Nat) (hk : t.val % 2 = k)
    (r : Fin 1024) (d : Fin 3) (R : Fin 2048) (hR : R.val = 1024 * k + r.val) :
    (iblk m c 3 t : S1x1024x3.Idx → Elt F .f32) (ix3 (0 : Fin 1) r d) = (V m c main_v5 : S4x2048x3.Idx → Elt F .f32) (ix3 b R d) := by
  unfold iblk
  exact blk3_read (V m c (Pipeline.arrRef spec0 3)) t b hb k hk r d R hR

/-! ## The block reads at a batch's two points -/

/-- The anchor features: all rows of the batch, at both points. -/
theorem iblk0_last (c : Dev nD) (b : Fin 4) (s : Fin 2048) (f : Fin 512) :
    (iblk m c 0 (lastPt b) : S1x2048x512.Idx → Elt F .f32) (ix3 (0 : Fin 1) s f) = (V m c main_v2 : S4x2048x512.Idx → Elt F .f32) (ix3 b s f) :=
  iblk0_at m c (lastPt b) b (lastPt_div b) s f
theorem iblk0_prev (c : Dev nD) (b : Fin 4) (s : Fin 2048) (f : Fin 512) :
    (iblk m c 0 (prevPt (lastPt b)) : S1x2048x512.Idx → Elt F .f32) (ix3 (0 : Fin 1) s f) = (V m c main_v2 : S4x2048x512.Idx → Elt F .f32) (ix3 b s f) :=
  iblk0_at m c (prevPt (lastPt b)) b (prevPt_div b) s f

/-- The positive features: the low 1024 rows at the first point, the high 1024 rows at the storing point. -/
theorem iblk1_prev (c : Dev nD) (b : Fin 4) (r : Fin 1024) (f : Fin 512) :
    (iblk m c 1 (prevPt (lastPt b)) : S1x1024x512.Idx → Elt F .f32) (ix3 (0 : Fin 1) r f)
      = (V m c main_v8 : S4x2048x512.Idx → Elt F .f32) (ix3 b (⟨r.val, by have := r.isLt; omega⟩ : Fin 2048) f) :=
  iblk1_at m c (prevPt (lastPt b)) b (prevPt_div b) 0 (prevPt_mod b) r f _ (by show r.val = 1024 * 0 + r.val; omega)
theorem iblk1_last (c : Dev nD) (b : Fin 4) (r : Fin 1024) (f : Fin 512) :
    (iblk m c 1 (lastPt b) : S1x1024x512.Idx → Elt F .f32) (ix3 (0 : Fin 1) r f)
      = (V m c main_v8 : S4x2048x512.Idx → Elt F .f32) (ix3 b (⟨1024 + r.val, by have := r.isLt; omega⟩ : Fin 2048) f) :=
  iblk1_at m c (lastPt b) b (lastPt_div b) 1 (lastPt_odd b) r f _ (by show 1024 + r.val = 1024 * 1 + r.val; omega)

/-- The anchor points through the window on all rows: all rows of the batch, at both points. -/
theorem iblk2_last (c : Dev nD) (b : Fin 4) (s : Fin 2048) (d : Fin 3) :
    (iblk m c 2 (lastPt b) : S1x2048x3.Idx → Elt F .f32) (ix3 (0 : Fin 1) s d) = (V m c main_v5 : S4x2048x3.Idx → Elt F .f32) (ix3 b s d) :=
  iblk2_at m c (lastPt b) b (lastPt_div b) s d
theorem iblk2_prev (c : Dev nD) (b : Fin 4) (s : Fin 2048) (d : Fin 3) :
    (iblk m c 2 (prevPt (lastPt b)) : S1x2048x3.Idx → Elt F .f32) (ix3 (0 : Fin 1) s d) = (V m c main_v5 : S4x2048x3.Idx → Elt F .f32) (ix3 b s d) :=
  iblk2_at m c (prevPt (lastPt b)) b (prevPt_div b) s d

/-- The anchor points through the row-tiled window: the low 1024 rows at the first point, the high 1024 rows at the
    storing point. -/
theorem iblk3_prev (c : Dev nD) (b : Fin 4) (r : Fin 1024) (d : Fin 3) :
    (iblk m c 3 (prevPt (lastPt b)) : S1x1024x3.Idx → Elt F .f32) (ix3 (0 : Fin 1) r d)
      = (V m c main_v5 : S4x2048x3.Idx → Elt F .f32) (ix3 b (⟨r.val, by have := r.isLt; omega⟩ : Fin 2048) d) :=
  iblk3_at m c (prevPt (lastPt b)) b (prevPt_div b) 0 (prevPt_mod b) r d _ (by show r.val = 1024 * 0 + r.val; omega)
theorem iblk3_last (c : Dev nD) (b : Fin 4) (r : Fin 1024) (d : Fin 3) :
    (iblk m c 3 (lastPt b) : S1x1024x3.Idx → Elt F .f32) (ix3 (0 : Fin 1) r d)
      = (V m c main_v5 : S4x2048x3.Idx → Elt F .f32) (ix3 b (⟨1024 + r.val, by have := r.isLt; omega⟩ : Fin 2048) d) :=
  iblk3_at m c (lastPt b) b (lastPt_div b) 1 (lastPt_odd b) r d _ (by show 1024 + r.val = 1024 * 1 + r.val; omega)

end Cert.KernelIdeal.Hand

end
-- ==== Proof.KIValue.lean ====
/- The losses a k-tile-1 point stores, read at a row, on the extended reals: row s of batch b gets `Spec.loss` of the
   batch's gathered anchor features, positive features and anchor points. The row sums are the two tiles' masked
   sums added to zero in turn, the positive term the exponential of the row's cosine similarity; the matrix unit's
   product into a zero accumulator is the sum over the 512 features. -/
import proofs.«412390_j6597069766920_3_alg».proof.Proof.KIPt
import proofs.«412390_j6597069766920_3_alg».proof.Proof.KIOpen
import proofs.«412390_j6597069766920_3_alg».proof.Proof.Spec
import proofs.«412390_j6597069766920_3_alg».proof.Proof.KIPieces
import proofs.«412390_j6597069766920_3_alg».proof.Proof.KIJoin
import proofs.«412390_j6597069766920_3_alg».proof.Proof.KIBlocks
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Blocks
variable (m : (ℓ : Loc nD τ sig) → Buf (Elt F) ℓ)

/-- The anchor points' block reads only the batch: it is the same block at both points of a batch. -/
theorem iblk2_prev_eq (c : Dev nD) (b : Fin 4) :
    (iblk m c 2 (prevPt (lastPt b)) : S1x2048x3.Idx → Elt F .f32) = (iblk m c 2 (lastPt b) : S1x2048x3.Idx → Elt F .f32) := by
  funext j
  obtain ⟨a, s, d, rfl⟩ : ∃ (a : Fin 1) (s : Fin 2048) (d : Fin 3), j = ix3 a s d := ⟨j 0, j 1, j 2, eq_ix3 j⟩
  obtain rfl : a = 0 := Subsingleton.elim _ _
  rw [iblk2_prev m c b s d, iblk2_last m c b s d]

end Blocks

theorem outL_apply (m : (ℓ : Loc nD τ sig) → Buf (Elt Ideal) ℓ) (c : Dev nD) (b : Fin 4) (s : Fin 2048) :
    outL m c (lastPt b) (lastPt_odd b) (ValueIdx.ix3 0 s 0)
      = Cert.Spec.loss (Cert.Spec.rows (V m c main_v2) b) (Cert.Spec.rows (V m c main_v8) b) (Cert.Spec.rows (V m c main_v5) b) s := by
  -- the completed row sums, over one anchor-points block
  have hden : denL m c (lastPt b) (lastPt_odd b)
      = k0_pay12 (k0_pay6 (iblk m c 1 (lastPt b)) (k0_pay4 (iblk m c 0 (prevPt (lastPt b))))) (k0_pay9 (iblk m c 2 (lastPt b)))
          (k0_pay10 (iblk m c 3 (lastPt b))) (k0_pay11 (iblk m c 2 (lastPt b)) (iblk m c 3 (lastPt b)))
          (k0_pay12 (k0_pay6 (iblk m c 1 (prevPt (lastPt b))) (k0_pay4 (iblk m c 0 (prevPt (lastPt b))))) (k0_pay9 (iblk m c 2 (lastPt b)))
            (k0_pay10 (iblk m c 3 (prevPt (lastPt b)))) (k0_pay11 (iblk m c 2 (lastPt b)) (iblk m c 3 (prevPt (lastPt b)))) (k0_pay3 (F := Ideal))) := by
    unfold denL
    rw [denF_eq, aqF_eq, iblk2_prev_eq m c b]
  rw [outL_eq, hden]
  refine batch_loss
    (Cert.Spec.rows (V m c main_v2) b) (Cert.Spec.rows (V m c main_v8) b) (Cert.Spec.rows (V m c main_v5) b)
    (iblk m c 0 (prevPt (lastPt b))) (iblk m c 1 (prevPt (lastPt b))) (iblk m c 1 (lastPt b)) (iblk m c 2 (lastPt b))
    (iblk m c 3 (prevPt (lastPt b))) (iblk m c 3 (lastPt b)) (R0 (iblk m c 0 (prevPt (lastPt b)))) (R1 (iblk m c 0 (lastPt b)))
    (numL m c (lastPt b) (lastPt_odd b))
    ?ha ?hR0 ?hR1 ?hqA ?hqB ?hp ?hpA ?hpB ?hNlo ?hNhi s
  case ha => exact fun s f => iblk0_prev m c b s f
  case hR0 => exact fun r f => (R0_apply _ (0 : Fin 1) r f).trans (iblk0_prev m c b (lo r) f)
  case hR1 => exact fun r f => (R1_apply _ (0 : Fin 1) r f).trans (iblk0_last m c b (hi r) f)
  case hqA => exact fun r f => iblk1_prev m c b r f
  case hqB => exact fun r f => iblk1_last m c b r f
  case hp => exact fun s d => iblk2_last m c b s d
  case hpA => exact fun r d => iblk3_prev m c b r d
  case hpB => exact fun r d => iblk3_last m c b r d
  case hNlo =>
    intro r
    refine (numL_lo m c (lastPt b) (lastPt_odd b) (ix2 (lo r) (0 : Fin 1)) r.isLt).trans
      ((numF_lo m c (prevPt (lastPt b)) (prevPt_even (lastPt b) (lastPt_odd b)) (ix2 (lo r) (0 : Fin 1)) r.isLt).trans ?_)
    rfl
  case hNhi =>
    intro r
    refine (numL_hi m c (lastPt b) (lastPt_odd b) (ix2 (hi r) (0 : Fin 1)) (Nat.le_add_right 1024 r.val)).trans ?_
    exact congrArg (fun z : Fin 1024 => k0_pay1 (k0_pay13 (k0_pay5 (iblk m c 1 (lastPt b))) (R1 (iblk m c 0 (lastPt b)))) (ix2 z (0 : Fin 1)))
      (Fin.ext (by show 1024 + r.val - 1024 = r.val; omega))

end Cert.KernelIdeal.Hand

end
-- ==== Proof.KIArr.lean ====
/- The loss array after the region: the pipeline writes the output block back after each k-tile-1 point, block b
   (rows of batch b) from point 2b+1, so entry (b, s, 0) of the array is entry (0, s, 0) of what that point stored. -/
import proofs.«412390_j6597069766920_3_alg».proof.Proof.KIData
import proofs.«412390_j6597069766920_3_alg».proof.Proof.KIPt
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The index maps over the grid -/

/-- The output window's index map, decided once over the eight points: its block sits at batch t / 2 on axis 0 and
    at 0 on the other two axes. -/
theorem idx4_facts : ∀ t : Fin cfg0.N,
    win0_4.index t (0 : Fin 3) = t.val / 2 ∧ win0_4.index t (1 : Fin 3) = 0 ∧ win0_4.index t (2 : Fin 3) = 0 :=
  (by decide +kernel : ∀ t : Fin grid0.N, _)

/-! ## The output array -/

/-- The losses depend on the point only through its value. -/
theorem outL_at (c : Dev nD) {t t' : Fin cfg0.N} (h : t.val % 2 = 1) (h' : t'.val % 2 = 1) {x x' : S1x2048x1.Idx}
    (e : t = t') (ex : x = x') : outL m c t h x = outL m c t' h' x' := by
  subst e; subst ex; rfl

/-- The whole loss array: row (b, s, 0) is row (0, s, 0) of what batch b's storing point left. -/
def lossArr (c : Dev nD) : S4x2048x1.Idx → Elt F .f32 := fun i =>
  outL m c (lastPt (i 0 : Fin 4)) (lastPt_odd (i 0 : Fin 4))
    (ValueIdx.ix3 (0 : Fin 1) (i 1 : Fin 2048) (i 2 : Fin 1))

/-- An index of the array is in point t's block iff each coordinate is in the block's range on its axis. -/
theorem mem_blk4 (t : Fin cfg0.N) (i : S4x2048x1.Idx) :
    i ∈ ((cfg0.win 4).blk t).view.set
      ↔ ∀ a : Fin 3, win0_4.index t a * S1x2048x1.size a ≤ (i a).val
          ∧ (i a).val < win0_4.index t a * S1x2048x1.size a + S1x2048x1.size a := by
  show i ∈ ((View.whole main_v9).slice (win0_4.rect t)).set ↔ _
  rw [View.set_slice_whole, Rect.mem_set_unit]
  exact Iff.rfl

/-- What a storing point writes back is its block of the loss array: the block of point t is batch t / 2, all
    rows, and t is that batch's storing point because t is odd. -/
theorem flushed4_eq (c : Dev nD) (t : Fin cfg0.N) (hf : (cfg0.win 4).flush t = true) :
    (dats m 0 c).flushed 4 t = ((cfg0.win 4).blk t).view.read (Elt F) (lossArr m c) := by
  have h1 : t.val % 2 = 1 := (flush0_4 t).mp hf
  obtain ⟨e0, e1, e2⟩ := idx4_facts t
  show (cfg0.win 4).cut (grid0.coords t) ((dats m 0 c).after 4 t) = _
  rw [after4_eq]
  unfold after4
  rw [dif_pos h1]
  funext j
  rw [View.read_apply, cast_eq]
  dsimp only [Window.cut]
  unfold lossArr
  have hj0 : (j 0).val < 1 := (j 0).isLt
  refine outL_at m c _ _ (Fin.ext ?_) (funext fun a => Fin.ext ?_)
  · show t.val = 2 * (win0_4.index t (0 : Fin 3) * 1 + 1 * (j 0).val) + 1
    rw [e0]; omega
  · match a with
    | ⟨0, _⟩ => show (j 0).val = 0; omega
    | ⟨1, _⟩ => show (j 1).val = win0_4.index t (1 : Fin 3) * 2048 + 1 * (j 1).val; rw [e1]; omega
    | ⟨2, _⟩ => show (j 2).val = win0_4.index t (2 : Fin 3) * 1 + 1 * (j 2).val; rw [e2]; omega

theorem arr_apply (c : Dev nD) (b : Fin 4) (s : Fin 2048) :
    ((dats m 0 c).arrAt 4 cfg0.N : S4x2048x1.Idx → Elt F .f32) (ValueIdx.ix3 b s 0)
      = outL m c (lastPt b) (lastPt_odd b) (ValueIdx.ix3 0 s 0) := by
  have hv : (lastPt b).val = 2 * b.val + 1 := rfl
  obtain ⟨e0, e1, e2⟩ := idx4_facts (lastPt b)
  have hmem : (ValueIdx.ix3 b s 0 : S4x2048x1.Idx) ∈ ((cfg0.win 4).blk (lastPt b)).view.set := by
    rw [mem_blk4]
    intro a
    match a with
    | ⟨0, _⟩ =>
      show win0_4.index (lastPt b) (0 : Fin 3) * 1 ≤ b.val ∧ b.val < win0_4.index (lastPt b) (0 : Fin 3) * 1 + 1
      rw [e0, hv]; omega
    | ⟨1, _⟩ =>
      show win0_4.index (lastPt b) (1 : Fin 3) * 2048 ≤ s.val ∧ s.val < win0_4.index (lastPt b) (1 : Fin 3) * 2048 + 2048
      rw [e1]; have := s.isLt; omega
    | ⟨2, _⟩ =>
      show win0_4.index (lastPt b) (2 : Fin 3) * 1 ≤ (0 : Fin 1).val ∧ (0 : Fin 1).val < win0_4.index (lastPt b) (2 : Fin 3) * 1 + 1
      rw [e2]; show 0 * 1 ≤ 0 ∧ 0 < 0 * 1 + 1; omega
  exact (dats m 0 c).arrAt_apply_of_mem 4 (lossArr m c) (flushed4_eq m c) cfg0.N (lastPt b) (ValueIdx.ix3 b s 0)
    (lastPt b).isLt ((flush0_4 (lastPt b)).mpr (lastPt_odd b)) hmem

end Cert.KernelIdeal.Hand

end
-- ==== Proof.RefValue.lean ====
/- The reference's loss array read at a row: at the exact instance, entry (b, s, 0) of the losses is the row's loss
   `Spec.loss` of batch b's gathered anchor features, positive features and anchor points. -/
import proofs.«412390_j6597069766920_3_alg».proof.Proof.RefReadP
import proofs.«412390_j6597069766920_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

open Cert.ReferenceIdeal.ReadP

open Idealize.ShloMosaic.ValueIdx

/-! ## The two concatenations along the last axis, read at an index -/

/-- A one-wide piece in front of a 2048-wide one: at last coordinate 0 the first piece at coordinate 0. -/
theorem cat_zero {α : Type} (x₁ : S4x2048x1.Idx → α) (x₂ : S4x2048x2048.Idx → α)
    (h : Shape.Concatenates [S4x2048x1, S4x2048x2048] S4x2048x2049 2) (b : Fin 4) (s : Fin 2048) :
    concatenate S4x2048x2049 2 [⟨S4x2048x1, x₁⟩, ⟨S4x2048x2048, x₂⟩] h (ix3 b s (0 : Fin 2049)) = x₁ (ix3 b s (0 : Fin 1)) :=
  concatenate_pair_apply_left 2 x₁ x₂ h (ix3 b s (0 : Fin 2049)) rfl (ix3 b s (0 : Fin 1))
    (fun a => by match a with | ⟨0, _⟩ => rfl | ⟨1, _⟩ => rfl | ⟨2, _⟩ => rfl)

/-- … and at last coordinate t + 1 the second piece at coordinate t. -/
theorem cat_succ {α : Type} (x₁ : S4x2048x1.Idx → α) (x₂ : S4x2048x2048.Idx → α)
    (h : Shape.Concatenates [S4x2048x1, S4x2048x2048] S4x2048x2049 2) (b : Fin 4) (s t : Fin 2048) :
    concatenate S4x2048x2049 2 [⟨S4x2048x1, x₁⟩, ⟨S4x2048x2048, x₂⟩] h (ix3 b s (t.succ : Fin 2049)) = x₂ (ix3 b s t) :=
  concatenate_pair_apply_right 2 x₁ x₂ h (ix3 b s (t.succ : Fin 2049)) rfl rfl (ix3 b s t)
    (fun a ha => by match a with | ⟨0, _⟩ => rfl | ⟨1, _⟩ => rfl | ⟨2, _⟩ => exact absurd rfl ha)
    (by show t.val + 1 = (t.succ : Fin 2049).val; rfl)

/-! ## The mask's bit as a number -/

/-- The constant-true bit converts to one. -/
theorem uitofp_one : FloatOps.uitofp (F := Ideal) .f32 (1#1 : BitVec 1) = (1 : EReal) := by
  show (((1#1 : BitVec 1).toNat : ℝ) : EReal) = 1
  simp

/-- A "greater than" bit converts to one where it holds and to zero elsewhere. -/
theorem uitofp_ogt (x y : EReal) :
    FloatOps.uitofp (F := Ideal) .f32 (FloatOps.cmpf (F := Ideal) (φ := .f32) .ogt x y) = if y < x then (1 : EReal) else 0 := by
  show (((BitVec.ofBool (decide (y < x))).toNat : ℝ) : EReal) = _
  by_cases hxy : y < x <;> simp [hxy]

section
variable (x0 x2 : (⟨S4x8192x512, .f32⟩ : BufTy).Contents (Elt Ideal)) (x1 : (⟨S4x8192x3, .f32⟩ : BufTy).Contents (Elt Ideal))
    (x3 : (⟨S4x2048x2, .i32⟩ : BufTy).Contents (Elt Ideal)) (b : Fin 4) (s t : Fin 2048)

/-! ## The cosine similarity of a row's own pair -/

/-- The row's inner product of its two feature rows. -/
theorem dot_apply :
    val_main_v10 (F := Ideal) x0 x2 x3 (ix2 b s)
      = ∑ f : Fin 512, val_main_v2 (F := Ideal) x0 x3 (ix3 b s f) * val_main_v8 (F := Ideal) x2 x3 (ix3 b s f) := by
  rw [val_main_v10_apply, val_main_cst_apply, Ideal.ofBits_def, Ideal.ofBits_zero_f32, zero_add]
  refine Finset.sum_congr rfl fun f _ => ?_
  rw [show idx_main_v10 (ix2 b s) f = ix3 b s f from
    funext fun a => Fin.ext (by match a with | ⟨0, _⟩ => rfl | ⟨1, _⟩ => rfl | ⟨2, _⟩ => rfl), val_main_v9_apply]
  rfl

/-- The anchor row's squared norm. -/
theorem nrmA_apply :
    val_main_call3_v1 (F := Ideal) x0 x3 (ix2 b s)
      = ∑ f : Fin 512, val_main_v2 (F := Ideal) x0 x3 (ix3 b s f) * val_main_v2 (F := Ideal) x0 x3 (ix3 b s f) := by
  rw [val_main_call3_v1_apply, val_main_call3_cst_apply, Ideal.ofBits_def, Ideal.ofBits_zero_f32, zero_add]
  refine Finset.sum_congr rfl fun f _ => ?_
  rw [show idx_main_call3_v1 (ix2 b s) f = ix3 b s f from
    funext fun a => Fin.ext (by match a with | ⟨0, _⟩ => rfl | ⟨1, _⟩ => rfl | ⟨2, _⟩ => rfl), val_main_call3_v0_apply]
  rfl

/-- The positive row's squared norm. -/
theorem nrmQ_apply :
    val_main_call4_v1 (F := Ideal) x2 x3 (ix2 b s)
      = ∑ f : Fin 512, val_main_v8 (F := Ideal) x2 x3 (ix3 b s f) * val_main_v8 (F := Ideal) x2 x3 (ix3 b s f) := by
  rw [val_main_call4_v1_apply, val_main_call4_cst_apply, Ideal.ofBits_def, Ideal.ofBits_zero_f32, zero_add]
  refine Finset.sum_congr rfl fun f _ => ?_
  rw [show idx_main_call4_v1 (ix2 b s) f = ix3 b s f from
    funext fun a => Fin.ext (by match a with | ⟨0, _⟩ => rfl | ⟨1, _⟩ => rfl | ⟨2, _⟩ => rfl), val_main_call4_v0_apply]
  rfl

/-- Entry (b, s, 0) of the cosine column is the row's `Spec.dpos`. -/
theorem dpos_apply :
    val_main_v17 (F := Ideal) x0 x2 x3 (ix3 b s (0 : Fin 1))
      = Cert.Spec.dpos (Cert.Spec.rows (val_main_v2 (F := Ideal) x0 x3) b) (Cert.Spec.rows (val_main_v8 (F := Ideal) x2 x3) b) s := by
  rw [val_main_v17_apply, show idx_main_v17 (ix3 b s (0 : Fin 1)) = ix2 b s from
    funext fun a => Fin.ext (by match a with | ⟨0, _⟩ => rfl | ⟨1, _⟩ => rfl),
    val_main_v16_apply, dot_apply, val_main_v15_apply, val_main_v13_apply, val_main_v11_apply, val_main_v12_apply,
    nrmA_apply, nrmQ_apply, val_main_v14_apply, val_main_cst_0_apply]
  simp only [Ideal.hostDivf_def, Ideal.maximumf_def, Ideal.mulf_def, Ideal.hostUnary_sqrt_def, Ideal.ofBits_def]
  unfold Cert.Spec.dpos Cert.Spec.eps Cert.Spec.rows
  rfl

end

section
variable (x0 x2 : (⟨S4x8192x512, .f32⟩ : BufTy).Contents (Elt Ideal)) (x1 : (⟨S4x8192x3, .f32⟩ : BufTy).Contents (Elt Ideal))
    (x3 : (⟨S4x2048x2, .i32⟩ : BufTy).Contents (Elt Ideal)) (b : Fin 4) (s t : Fin 2048)

/-! ## The raw similarities -/

/-- The raw similarity of row s's anchor features to row t's positive features. -/
theorem sim_apply :
    val_main_v18 (F := Ideal) x0 x2 x3 (ix3 b s t)
      = ∑ f : Fin 512, val_main_v2 (F := Ideal) x0 x3 (ix3 b s f) * val_main_v8 (F := Ideal) x2 x3 (ix3 b t f) := by
  rw [val_main_v18_apply]
  refine Finset.sum_congr rfl fun f _ => ?_
  rw [show lidx_main_v18 (ix3 b s t) f = ix3 b s f from
    funext fun a => Fin.ext (by match a with | ⟨0, _⟩ => rfl | ⟨1, _⟩ => rfl | ⟨2, _⟩ => rfl),
    show ridx_main_v18 (ix3 b s t) f = ix3 b t f from
    funext fun a => Fin.ext (by match a with | ⟨0, _⟩ => rfl | ⟨1, _⟩ => rfl | ⟨2, _⟩ => rfl)]

/-! ## The squared distances and the mask -/

/-- A point's squared norm. -/
theorem sq_apply :
    val_main_v21 (F := Ideal) x1 x3 (ix2 b s) = Cert.Spec.sq (Cert.Spec.rows (val_main_v5 (F := Ideal) x1 x3) b) s := by
  rw [val_main_v21_apply, val_main_cst_1_apply, Ideal.ofBits_def, Ideal.ofBits_zero_f32, zero_add]
  unfold Cert.Spec.sq Cert.Spec.rows
  refine Finset.sum_congr rfl fun d _ => ?_
  rw [show idx_main_v21 (ix2 b s) d = ix3 b s d from
    funext fun a => Fin.ext (by match a with | ⟨0, _⟩ => rfl | ⟨1, _⟩ => rfl | ⟨2, _⟩ => rfl), val_main_v20_apply]
  rfl

/-- The inner product of two rows' points. -/
theorem cross_apply :
    val_main_v27 (F := Ideal) x1 x3 (ix3 b s t)
      = ∑ d : Fin 3, val_main_v5 (F := Ideal) x1 x3 (ix3 b s d) * val_main_v5 (F := Ideal) x1 x3 (ix3 b t d) := by
  rw [val_main_v27_apply]
  refine Finset.sum_congr rfl fun d _ => ?_
  rw [show lidx_main_v27 (ix3 b s t) d = ix3 b s d from
    funext fun a => Fin.ext (by match a with | ⟨0, _⟩ => rfl | ⟨1, _⟩ => rfl | ⟨2, _⟩ => rfl),
    show ridx_main_v27 (ix3 b s t) d = ix3 b t d from
    funext fun a => Fin.ext (by match a with | ⟨0, _⟩ => rfl | ⟨1, _⟩ => rfl | ⟨2, _⟩ => rfl)]

/-- The squared distance of row s's point to row t's, in the program's own spelling. -/
theorem d2_apply :
    val_main_v30 (F := Ideal) x1 x3 (ix3 b s t) = Cert.Spec.dist2 (Cert.Spec.rows (val_main_v5 (F := Ideal) x1 x3) b) s t := by
  rw [val_main_v30_apply, val_main_v26_apply, val_main_v24_apply, val_main_v22_apply, val_main_v25_apply, val_main_v23_apply,
    show idx_main_v22 (idx_main_v24 (ix3 b s t)) = ix2 b s from
    funext fun a => Fin.ext (by match a with | ⟨0, _⟩ => rfl | ⟨1, _⟩ => rfl),
    show idx_main_v23 (idx_main_v25 (ix3 b s t)) = ix2 b t from
    funext fun a => Fin.ext (by match a with | ⟨0, _⟩ => rfl | ⟨1, _⟩ => rfl),
    sq_apply, sq_apply, val_main_v29_apply, val_main_v28_apply, val_main_cst_2_apply, cross_apply]
  rfl

/-- The mask's first column is one. -/
theorem mask_zero : val_main_v39 (F := Ideal) x1 x3 (ix3 b s (0 : Fin 2049)) = (1 : EReal) := by
  rw [val_main_v39_apply]
  unfold val_main_v35
  rw [cat_zero, val_main_v34_apply, val_main_c_apply, uitofp_one]

/-- The mask's column t + 1 is one where row t's point is farther than the radius from row s's. -/
theorem mask_succ :
    val_main_v39 (F := Ideal) x1 x3 (ix3 b s (t.succ : Fin 2049)) = Cert.Spec.far (Cert.Spec.rows (val_main_v5 (F := Ideal) x1 x3) b) s t := by
  rw [val_main_v39_apply]
  unfold val_main_v35
  rw [cat_succ, val_main_v32_apply, d2_apply, val_main_v31_apply, val_main_cst_3_apply, Ideal.ofBits_def, uitofp_ogt]
  rfl

/-! ## The masked terms and their sum -/

/-- The first masked term is the row's positive term. -/
theorem term_zero :
    val_main_v40 (F := Ideal) x0 x1 x2 x3 (ix3 b s (0 : Fin 2049)) = Cert.Spec.num (Cert.Spec.rows (val_main_v2 (F := Ideal) x0 x3) b) (Cert.Spec.rows (val_main_v8 (F := Ideal) x2 x3) b) s := by
  rw [val_main_v40_apply, mask_zero, val_main_v38_apply, val_main_v37_apply, val_main_v36_apply, val_main_cst_4_apply]
  unfold val_main_v19
  rw [cat_zero, dpos_apply, Ideal.mulf_def, mul_one]
  rfl

/-- Masked term t + 1 is row t's term. -/
theorem term_succ :
    val_main_v40 (F := Ideal) x0 x1 x2 x3 (ix3 b s (t.succ : Fin 2049)) = Cert.Spec.term (Cert.Spec.rows (val_main_v2 (F := Ideal) x0 x3) b) (Cert.Spec.rows (val_main_v8 (F := Ideal) x2 x3) b) (Cert.Spec.rows (val_main_v5 (F := Ideal) x1 x3) b) s t := by
  rw [val_main_v40_apply, mask_succ, val_main_v38_apply, val_main_v37_apply, val_main_v36_apply, val_main_cst_4_apply]
  unfold val_main_v19
  rw [cat_succ, sim_apply]
  rfl

/-- The row's denominator: the positive term and the masked terms of all rows. -/
theorem denom_apply :
    val_main_v41 (F := Ideal) x0 x1 x2 x3 (ix2 b s)
      = Cert.Spec.num (Cert.Spec.rows (val_main_v2 (F := Ideal) x0 x3) b) (Cert.Spec.rows (val_main_v8 (F := Ideal) x2 x3) b) s + ∑ t : Fin 2048, Cert.Spec.term (Cert.Spec.rows (val_main_v2 (F := Ideal) x0 x3) b) (Cert.Spec.rows (val_main_v8 (F := Ideal) x2 x3) b) (Cert.Spec.rows (val_main_v5 (F := Ideal) x1 x3) b) s t := by
  rw [val_main_v41_apply, val_main_cst_5_apply, Ideal.ofBits_def, Ideal.ofBits_zero_f32, zero_add,
    Fin.sum_univ_succ (n := 2048),
    show idx_main_v41 (ix2 b s) (0 : Fin 2049) = ix3 b s (0 : Fin 2049) from
    funext fun a => Fin.ext (by match a with | ⟨0, _⟩ => rfl | ⟨1, _⟩ => rfl | ⟨2, _⟩ => rfl), term_zero]
  refine congrArg (_ + ·) (Finset.sum_congr rfl fun t _ => ?_)
  rw [show idx_main_v41 (ix2 b s) (t.succ : Fin 2049) = ix3 b s (t.succ : Fin 2049) from
    funext fun a => Fin.ext (by match a with | ⟨0, _⟩ => rfl | ⟨1, _⟩ => rfl | ⟨2, _⟩ => rfl), term_succ]

end

/-- Entry (b, s, 0) of the losses is the row's loss: the negated logarithm of the positive term over the denominator. -/
theorem loss_apply (x0 x2 : (⟨S4x8192x512, .f32⟩ : BufTy).Contents (Elt Ideal)) (x1 : (⟨S4x8192x3, .f32⟩ : BufTy).Contents (Elt Ideal))
    (x3 : (⟨S4x2048x2, .i32⟩ : BufTy).Contents (Elt Ideal)) (b : Fin 4) (s : Fin 2048) :
    val_main_v48 (F := Ideal) x0 x1 x2 x3 (ValueIdx.ix3 b s 0)
      = Cert.Spec.loss (Cert.Spec.rows (val_main_v2 (F := Ideal) x0 x3) b) (Cert.Spec.rows (val_main_v8 (F := Ideal) x2 x3) b)
          (Cert.Spec.rows (val_main_v5 (F := Ideal) x1 x3) b) s := by
  rw [val_main_v48_apply, val_main_v47_apply, val_main_v46_apply, val_main_v45_apply, val_main_v44_apply, dpos_apply,
    val_main_v43_apply, val_main_cst_6_apply, val_main_v42_apply,
    show idx_main_v42 (ix3 b s (0 : Fin 1)) = ix2 b s from
    funext fun a => Fin.ext (by match a with | ⟨0, _⟩ => rfl | ⟨1, _⟩ => rfl), denom_apply]
  rfl

end Cert.ReferenceIdeal.Hand

end
-- ==== Proof.KIResult.lean ====
/- The two programs' results are one number: the kernel's mean of its loss array and the reference's mean of its
   losses, each row's loss being `Spec.loss` of the same gathered rows. -/
import proofs.«412390_j6597069766920_3_alg».proof.Proof.KIFrame
import proofs.«412390_j6597069766920_3_alg».proof.Proof.KIGather
import proofs.«412390_j6597069766920_3_alg».proof.Proof.KIValue
import proofs.«412390_j6597069766920_3_alg».proof.Proof.KIArr
import proofs.«412390_j6597069766920_3_alg».proof.Proof.RefValue
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A loss array whose entry (b, s, 0) is the loss of row s of batch b's gathered rows is the reference's loss
    array of the same four arguments, -/
theorem losses_eq (m : (ℓ : Loc nD τ sig) → Buf (Elt Ideal) ℓ) (c : Dev nD) (O : S4x2048x1.Idx → Elt Ideal .f32)
    (hO : ∀ (b : Fin 4) (s : Fin 2048), O (ValueIdx.ix3 b s 0)
      = Cert.Spec.loss (Cert.Spec.rows (V m c main_v2) b) (Cert.Spec.rows (V m c main_v8) b) (Cert.Spec.rows (V m c main_v5) b) s) :
    O = Cert.ReferenceIdeal.ReadP.val_main_v48 (F := Ideal) (m ((c : Thread nD τ).loc main_arg0)) (m ((c : Thread nD τ).loc main_arg1))
          (m ((c : Thread nD τ).loc main_arg2)) (m ((c : Thread nD τ).loc main_arg3)) := by
  funext i
  obtain ⟨b, s, z, rfl⟩ : ∃ (b : Fin 4) (s : Fin 2048) (z : Fin 1), i = ValueIdx.ix3 b s z := ⟨i 0, i 1, i 2, ValueIdx.eq_ix3 i⟩
  obtain rfl : z = 0 := Subsingleton.elim _ _
  refine (hO b s).trans ?_
  rw [V_anchor, V_pos, V_pts]
  exact (Cert.ReferenceIdeal.Hand.loss_apply _ _ _ _ b s).symm

/-- and its mean — the sum from zero over the 8192 rows, divided by 8192 — is the reference's result: the two
    programs name the same shapes and constants. -/
theorem mean_eq (x0 : (⟨S4x8192x512, .f32⟩ : BufTy).Contents (Elt Ideal)) (x1 : (⟨S4x8192x3, .f32⟩ : BufTy).Contents (Elt Ideal))
    (x2 : (⟨S4x8192x512, .f32⟩ : BufTy).Contents (Elt Ideal)) (x3 : (⟨S4x2048x2, .i32⟩ : BufTy).Contents (Elt Ideal)) :
    Host.divf (F := Ideal) (Host.reduceAdd (Cert.ReferenceIdeal.ReadP.val_main_v48 (F := Ideal) x0 x1 x2 x3) (constant S_ .f32 0x00000000#32)
        reducesTo_S4x2048x1_S_d0_1_2 h_S_) (constant S_ .f32 0x46000000#32)
      = Cert.ReferenceIdeal.ReadP.val_main_v50 (F := Ideal) x0 x1 x2 x3 := rfl

/-- The kernel's result, on the extended reals, is the reference's composed stages of the same arguments. -/
theorem result_eq (m : (ℓ : Loc nD τ sig) → Buf (Elt Ideal) ℓ) (c : Dev nD) :
    V8 m (outsOf (dats m)) c main_v11
      = Cert.ReferenceIdeal.ReadP.val_main_v50 (F := Ideal) (m ((c : Thread nD τ).loc main_arg0)) (m ((c : Thread nD τ).loc main_arg1))
          (m ((c : Thread nD τ).loc main_arg2)) (m ((c : Thread nD τ).loc main_arg3)) := by
  have key := losses_eq m c (outsOf (dats m) c) fun b s => (arr_apply m c b s).trans (outL_apply m c b s)
  refine (V8_mean m (outsOf (dats m)) c).trans ?_
  refine Eq.trans ?_ (mean_eq (m ((c : Thread nD τ).loc main_arg0)) (m ((c : Thread nD τ).loc main_arg1))
    (m ((c : Thread nD τ).loc main_arg2)) (m ((c : Thread nD τ).loc main_arg3)))
  exact congrArg (fun X : S4x2048x1.Idx → Elt Ideal .f32 => Host.divf (F := Ideal) (Host.reduceAdd X (constant S_ .f32 0x00000000#32)
    reducesTo_S4x2048x1_S_d0_1_2 h_S_) (constant S_ .f32 0x46000000#32)) key

end Cert.KernelIdeal.Hand

end
-- ==== Proof.RefFold.lean ====
/- The reference's run with its result left as the fold of its operation list over the launch contents: every fair
   run of @main ends with the mean's buffer at what the 131 host operations, applied in order to the arguments'
   contents, leave there, and with the four arguments as launched (no operation writes an argument). -/
import proofs.«412390_j6597069766920_3_alg».proof.Proof.RefRunP

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxRecDepth 65536 in
set_option maxHeartbeats 52400000 in
theorem run_fold (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = StableHlo.after (ops (F := F)) (fun b => m (c, b)) (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v50,
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

/-- The reference's frame: the run with the result forgotten. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => (h c).2) (run_fold m ρ)

end Cert.ReferenceIdeal.Hand

end
-- ==== Proof.RefRun.lean ====
/- The reference's run: every fair run of its @main ends with the mean at the composed stages of the four arguments
   (slices and gathers of the rows, the similarities, the masked row sums, the losses, their mean) and the
   arguments as launched. -/
import proofs.«412390_j6597069766920_3_alg».proof.Proof.RefReadP
import proofs.«412390_j6597069766920_3_alg».proof.Proof.RefFold
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

namespace RefRun

/-! The 131 operations of @main in six consecutive pieces: the three gathers of rows (each a slice, a broadcast
and the index wrapping, range test, gather and select of a take along the row axis), the similarities, the first
concatenate with the squared distances and their mask, and the second concatenate with the masked row sums, the losses
and their mean. -/

abbrev oA : List (HloOp τ sig (Elt F)) :=
  [ unary main_arg3 main_v0 ((extractStridedSlice S4x2048x1 ![0, 0, 0] · slices_S4x2048x2_S4x2048x1_0_0_0) : (⟨S4x2048x2, .i32⟩ : BufTy).Contents (Elt F) → (⟨S4x2048x1, .i32⟩ : BufTy).Contents (Elt F)),
    unary main_v0 main_v1 (broadcastInDim S4x2048x512 ![0, 1, 2] bcast_S4x2048x1_S4x2048x512_0_1_2 : (⟨S4x2048x1, .i32⟩ : BufTy).Contents (Elt F) → (⟨S4x2048x512, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4x2048x512, .i32⟩) main_call0_v0) (broadcastInDim S4x2048x512 ![] bcast_S_S4x2048x512),
    TRef.binary (TRef.of (T := ⟨S4x2048x512, .i32⟩) main_v1) (TRef.of (T := ⟨S4x2048x512, .i32⟩) main_call0_v0) (TRef.of (T := ⟨S4x2048x512, .i1⟩) main_call0_v1) (cmpi .slt),
    TRef.nullary (TRef.of (T := ⟨S_, .i32⟩) main_call0_c_0) (constantI S_ 32 8192#32),
    TRef.unary (TRef.of (T := ⟨S_, .i32⟩) main_call0_c_0) (TRef.of (T := ⟨S4x2048x512, .i32⟩) main_call0_v2) (broadcastInDim S4x2048x512 ![] bcast_S_S4x2048x512),
    TRef.binary (TRef.of (T := ⟨S4x2048x512, .i32⟩) main_v1) (TRef.of (T := ⟨S4x2048x512, .i32⟩) main_call0_v2) (TRef.of (T := ⟨S4x2048x512, .i32⟩) main_call0_v3) addi,
    TRef.ternary (TRef.of (T := ⟨S4x2048x512, .i1⟩) main_call0_v1) (TRef.of (T := ⟨S4x2048x512, .i32⟩) main_call0_v3) (TRef.of (T := ⟨S4x2048x512, .i32⟩) main_v1) (TRef.of (T := ⟨S4x2048x512, .i32⟩) main_call0_v4) select,
    TRef.reshape (TRef.of (T := ⟨S4x2048x512, .i32⟩) main_call0_v4) (TRef.of (T := ⟨S4x2048x512x1, .i32⟩) main_call0_v5) rfl shapeCasts_S4x2048x512_S4x2048x512x1,
    TRef.nullary (TRef.of (T := ⟨S1, .i32⟩) main_call0_c_1) (constantI S1 32 8191#32),
    TRef.nullary (TRef.of (T := ⟨S_, .i32⟩) main_call0_c_2) (constantI S_ 32 0#32),
    TRef.unary (TRef.of (T := ⟨S_, .i32⟩) main_call0_c_2) (TRef.of (T := ⟨S4x2048x512x1, .i32⟩) main_call0_v6) (broadcastInDim S4x2048x512x1 ![] bcast_S_S4x2048x512x1),
    TRef.binary (TRef.of (T := ⟨S4x2048x512x1, .i32⟩) main_call0_v5) (TRef.of (T := ⟨S4x2048x512x1, .i32⟩) main_call0_v6) (TRef.of (T := ⟨S4x2048x512x1, .i1⟩) main_call0_v7) (cmpi .sge),
    TRef.unary (TRef.of (T := ⟨S1, .i32⟩) main_call0_c_1) (TRef.of (T := ⟨S1x1x1x1, .i32⟩) main_call0_v8) (broadcastInDim S1x1x1x1 ![3] bcast_S1_S1x1x1x1_3),
    TRef.unary (TRef.of (T := ⟨S1x1x1x1, .i32⟩) main_call0_v8) (TRef.of (T := ⟨S4x2048x512x1, .i32⟩) main_call0_v9) (broadcastInDim S4x2048x512x1 ![0, 1, 2, 3] bcast_S1x1x1x1_S4x2048x512x1_0_1_2_3),
    TRef.binary (TRef.of (T := ⟨S4x2048x512x1, .i32⟩) main_call0_v5) (TRef.of (T := ⟨S4x2048x512x1, .i32⟩) main_call0_v9) (TRef.of (T := ⟨S4x2048x512x1, .i1⟩) main_call0_v10) (cmpi .sle),
    TRef.binary (TRef.of (T := ⟨S4x2048x512x1, .i1⟩) main_call0_v7) (TRef.of (T := ⟨S4x2048x512x1, .i1⟩) main_call0_v10) (TRef.of (T := ⟨S4x2048x512x1, .i1⟩) main_call0_v11) andi,
    TRef.nullary (TRef.of (T := ⟨S_, .i1⟩) main_call0_c_3) (constantI S_ 1 1#1),
    TRef.binary (TRef.of (T := ⟨S4x2048x512x1, .i1⟩) main_call0_v11) (TRef.of (T := ⟨S_, .i1⟩) main_call0_c_3) (TRef.of (T := ⟨S4x2048x512, .i1⟩) main_call0_v12) (fun x v => Host.reduce IntOp.andi x v reducesTo_S4x2048x512x1_S4x2048x512_d3 h_S_),
    TRef.binary (TRef.of (T := ⟨S4x8192x512, .f32⟩) main_arg0) (TRef.of (T := ⟨S4x2048x512x1, .i32⟩) main_call0_v5) (TRef.of (T := ⟨S4x2048x512, .f32⟩) main_call0_v13) (fun x i => Host.gather gather_S4x8192x512_S4x2048x512x1_S4x2048x512_n_1_02_02_1_3_111 x i),
    TRef.nullary (TRef.of (T := ⟨S_, .f32⟩) main_call0_cst) (constant S_ .f32 0x7FC00000#32),
    TRef.unary (TRef.of (T := ⟨S_, .f32⟩) main_call0_cst) (TRef.of (T := ⟨S4x2048x512, .f32⟩) main_call0_v14) (broadcastInDim S4x2048x512 ![] bcast_S_S4x2048x512),
    TRef.ternary (TRef.of (T := ⟨S4x2048x512, .i1⟩) main_call0_v12) (TRef.of (T := ⟨S4x2048x512, .f32⟩) main_call0_v13) (TRef.of (T := ⟨S4x2048x512, .f32⟩) main_call0_v14) (TRef.of (T := ⟨S4x2048x512, .f32⟩) main_v2) select ]

abbrev oB : List (HloOp τ sig (Elt F)) :=
  [ unary main_arg3 main_v3 ((extractStridedSlice S4x2048x1 ![0, 0, 0] · slices_S4x2048x2_S4x2048x1_0_0_0) : (⟨S4x2048x2, .i32⟩ : BufTy).Contents (Elt F) → (⟨S4x2048x1, .i32⟩ : BufTy).Contents (Elt F)),
    unary main_v3 main_v4 (broadcastInDim S4x2048x3 ![0, 1, 2] bcast_S4x2048x1_S4x2048x3_0_1_2 : (⟨S4x2048x1, .i32⟩ : BufTy).Contents (Elt F) → (⟨S4x2048x3, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4x2048x3, .i32⟩) main_call1_v0) (broadcastInDim S4x2048x3 ![] bcast_S_S4x2048x3),
    TRef.binary (TRef.of (T := ⟨S4x2048x3, .i32⟩) main_v4) (TRef.of (T := ⟨S4x2048x3, .i32⟩) main_call1_v0) (TRef.of (T := ⟨S4x2048x3, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S4x2048x3, .i32⟩) main_call1_v2) (broadcastInDim S4x2048x3 ![] bcast_S_S4x2048x3),
    TRef.binary (TRef.of (T := ⟨S4x2048x3, .i32⟩) main_v4) (TRef.of (T := ⟨S4x2048x3, .i32⟩) main_call1_v2) (TRef.of (T := ⟨S4x2048x3, .i32⟩) main_call1_v3) addi,
    TRef.ternary (TRef.of (T := ⟨S4x2048x3, .i1⟩) main_call1_v1) (TRef.of (T := ⟨S4x2048x3, .i32⟩) main_call1_v3) (TRef.of (T := ⟨S4x2048x3, .i32⟩) main_v4) (TRef.of (T := ⟨S4x2048x3, .i32⟩) main_call1_v4) select,
    TRef.reshape (TRef.of (T := ⟨S4x2048x3, .i32⟩) main_call1_v4) (TRef.of (T := ⟨S4x2048x3x1, .i32⟩) main_call1_v5) rfl shapeCasts_S4x2048x3_S4x2048x3x1,
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S4x2048x3x1, .i32⟩) main_call1_v6) (broadcastInDim S4x2048x3x1 ![] bcast_S_S4x2048x3x1),
    TRef.binary (TRef.of (T := ⟨S4x2048x3x1, .i32⟩) main_call1_v5) (TRef.of (T := ⟨S4x2048x3x1, .i32⟩) main_call1_v6) (TRef.of (T := ⟨S4x2048x3x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S4x2048x3x1, .i32⟩) main_call1_v9) (broadcastInDim S4x2048x3x1 ![0, 1, 2, 3] bcast_S1x1x1x1_S4x2048x3x1_0_1_2_3),
    TRef.binary (TRef.of (T := ⟨S4x2048x3x1, .i32⟩) main_call1_v5) (TRef.of (T := ⟨S4x2048x3x1, .i32⟩) main_call1_v9) (TRef.of (T := ⟨S4x2048x3x1, .i1⟩) main_call1_v10) (cmpi .sle),
    TRef.binary (TRef.of (T := ⟨S4x2048x3x1, .i1⟩) main_call1_v7) (TRef.of (T := ⟨S4x2048x3x1, .i1⟩) main_call1_v10) (TRef.of (T := ⟨S4x2048x3x1, .i1⟩) main_call1_v11) andi,
    TRef.nullary (TRef.of (T := ⟨S_, .i1⟩) main_call1_c_3) (constantI S_ 1 1#1),
    TRef.binary (TRef.of (T := ⟨S4x2048x3x1, .i1⟩) main_call1_v11) (TRef.of (T := ⟨S_, .i1⟩) main_call1_c_3) (TRef.of (T := ⟨S4x2048x3, .i1⟩) main_call1_v12) (fun x v => Host.reduce IntOp.andi x v reducesTo_S4x2048x3x1_S4x2048x3_d3 h_S_),
    TRef.binary (TRef.of (T := ⟨S4x8192x3, .f32⟩) main_arg1) (TRef.of (T := ⟨S4x2048x3x1, .i32⟩) main_call1_v5) (TRef.of (T := ⟨S4x2048x3, .f32⟩) main_call1_v13) (fun x i => Host.gather gather_S4x8192x3_S4x2048x3x1_S4x2048x3_n_1_02_02_1_3_111 x i),
    TRef.nullary (TRef.of (T := ⟨S_, .f32⟩) main_call1_cst) (constant S_ .f32 0x7FC00000#32),
    TRef.unary (TRef.of (T := ⟨S_, .f32⟩) main_call1_cst) (TRef.of (T := ⟨S4x2048x3, .f32⟩) main_call1_v14) (broadcastInDim S4x2048x3 ![] bcast_S_S4x2048x3),
    TRef.ternary (TRef.of (T := ⟨S4x2048x3, .i1⟩) main_call1_v12) (TRef.of (T := ⟨S4x2048x3, .f32⟩) main_call1_v13) (TRef.of (T := ⟨S4x2048x3, .f32⟩) main_call1_v14) (TRef.of (T := ⟨S4x2048x3, .f32⟩) main_v5) select ]

abbrev oC : List (HloOp τ sig (Elt F)) :=
  [ unary main_arg3 main_v6 ((extractStridedSlice S4x2048x1 ![0, 0, 1] · slices_S4x2048x2_S4x2048x1_0_0_1) : (⟨S4x2048x2, .i32⟩ : BufTy).Contents (Elt F) → (⟨S4x2048x1, .i32⟩ : BufTy).Contents (Elt F)),
    unary main_v6 main_v7 (broadcastInDim S4x2048x512 ![0, 1, 2] bcast_S4x2048x1_S4x2048x512_0_1_2 : (⟨S4x2048x1, .i32⟩ : BufTy).Contents (Elt F) → (⟨S4x2048x512, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4x2048x512, .i32⟩) main_call2_v0) (broadcastInDim S4x2048x512 ![] bcast_S_S4x2048x512),
    TRef.binary (TRef.of (T := ⟨S4x2048x512, .i32⟩) main_v7) (TRef.of (T := ⟨S4x2048x512, .i32⟩) main_call2_v0) (TRef.of (T := ⟨S4x2048x512, .i1⟩) main_call2_v1) (cmpi .slt),
    TRef.nullary (TRef.of (T := ⟨S_, .i32⟩) main_call2_c_0) (constantI S_ 32 8192#32),
    TRef.unary (TRef.of (T := ⟨S_, .i32⟩) main_call2_c_0) (TRef.of (T := ⟨S4x2048x512, .i32⟩) main_call2_v2) (broadcastInDim S4x2048x512 ![] bcast_S_S4x2048x512),
    TRef.binary (TRef.of (T := ⟨S4x2048x512, .i32⟩) main_v7) (TRef.of (T := ⟨S4x2048x512, .i32⟩) main_call2_v2) (TRef.of (T := ⟨S4x2048x512, .i32⟩) main_call2_v3) addi,
    TRef.ternary (TRef.of (T := ⟨S4x2048x512, .i1⟩) main_call2_v1) (TRef.of (T := ⟨S4x2048x512, .i32⟩) main_call2_v3) (TRef.of (T := ⟨S4x2048x512, .i32⟩) main_v7) (TRef.of (T := ⟨S4x2048x512, .i32⟩) main_call2_v4) select,
    TRef.reshape (TRef.of (T := ⟨S4x2048x512, .i32⟩) main_call2_v4) (TRef.of (T := ⟨S4x2048x512x1, .i32⟩) main_call2_v5) rfl shapeCasts_S4x2048x512_S4x2048x512x1,
    TRef.nullary (TRef.of (T := ⟨S1, .i32⟩) main_call2_c_1) (constantI S1 32 8191#32),
    TRef.nullary (TRef.of (T := ⟨S_, .i32⟩) main_call2_c_2) (constantI S_ 32 0#32),
    TRef.unary (TRef.of (T := ⟨S_, .i32⟩) main_call2_c_2) (TRef.of (T := ⟨S4x2048x512x1, .i32⟩) main_call2_v6) (broadcastInDim S4x2048x512x1 ![] bcast_S_S4x2048x512x1),
    TRef.binary (TRef.of (T := ⟨S4x2048x512x1, .i32⟩) main_call2_v5) (TRef.of (T := ⟨S4x2048x512x1, .i32⟩) main_call2_v6) (TRef.of (T := ⟨S4x2048x512x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S4x2048x512x1, .i32⟩) main_call2_v9) (broadcastInDim S4x2048x512x1 ![0, 1, 2, 3] bcast_S1x1x1x1_S4x2048x512x1_0_1_2_3),
    TRef.binary (TRef.of (T := ⟨S4x2048x512x1, .i32⟩) main_call2_v5) (TRef.of (T := ⟨S4x2048x512x1, .i32⟩) main_call2_v9) (TRef.of (T := ⟨S4x2048x512x1, .i1⟩) main_call2_v10) (cmpi .sle),
    TRef.binary (TRef.of (T := ⟨S4x2048x512x1, .i1⟩) main_call2_v7) (TRef.of (T := ⟨S4x2048x512x1, .i1⟩) main_call2_v10) (TRef.of (T := ⟨S4x2048x512x1, .i1⟩) main_call2_v11) andi,
    TRef.nullary (TRef.of (T := ⟨S_, .i1⟩) main_call2_c_3) (constantI S_ 1 1#1),
    TRef.binary (TRef.of (T := ⟨S4x2048x512x1, .i1⟩) main_call2_v11) (TRef.of (T := ⟨S_, .i1⟩) main_call2_c_3) (TRef.of (T := ⟨S4x2048x512, .i1⟩) main_call2_v12) (fun x v => Host.reduce IntOp.andi x v reducesTo_S4x2048x512x1_S4x2048x512_d3 h_S_),
    TRef.binary (TRef.of (T := ⟨S4x8192x512, .f32⟩) main_arg2) (TRef.of (T := ⟨S4x2048x512x1, .i32⟩) main_call2_v5) (TRef.of (T := ⟨S4x2048x512, .f32⟩) main_call2_v13) (fun x i => Host.gather gather_S4x8192x512_S4x2048x512x1_S4x2048x512_n_1_02_02_1_3_111 x i),
    TRef.nullary (TRef.of (T := ⟨S_, .f32⟩) main_call2_cst) (constant S_ .f32 0x7FC00000#32),
    TRef.unary (TRef.of (T := ⟨S_, .f32⟩) main_call2_cst) (TRef.of (T := ⟨S4x2048x512, .f32⟩) main_call2_v14) (broadcastInDim S4x2048x512 ![] bcast_S_S4x2048x512),
    TRef.ternary (TRef.of (T := ⟨S4x2048x512, .i1⟩) main_call2_v12) (TRef.of (T := ⟨S4x2048x512, .f32⟩) main_call2_v13) (TRef.of (T := ⟨S4x2048x512, .f32⟩) main_call2_v14) (TRef.of (T := ⟨S4x2048x512, .f32⟩) main_v8) select ]

abbrev oD : List (HloOp τ sig (Elt F)) :=
  [ binary main_v2 main_v8 main_v9 (mulf : (⟨S4x2048x512, .f32⟩ : BufTy).Contents (Elt F) → (⟨S4x2048x512, .f32⟩ : BufTy).Contents (Elt F) → (⟨S4x2048x512, .f32⟩ : BufTy).Contents (Elt F)),
    nullary main_cst (constant S_ .f32 0x00000000#32),
    binary main_v9 main_cst main_v10 ((fun x v => Host.reduceAdd x v reducesTo_S4x2048x512_S4x2048_d2 h_S_) : (⟨S4x2048x512, .f32⟩ : BufTy).Contents (Elt F) → (⟨S_, .f32⟩ : BufTy).Contents (Elt F) → (⟨S4x2048, .f32⟩ : BufTy).Contents (Elt F)),
    TRef.binary (TRef.of (T := ⟨S4x2048x512, .f32⟩) main_v2) (TRef.of (T := ⟨S4x2048x512, .f32⟩) main_v2) (TRef.of (T := ⟨S4x2048x512, .f32⟩) main_call3_v0) mulf,
    TRef.nullary (TRef.of (T := ⟨S_, .f32⟩) main_call3_cst) (constant S_ .f32 0x00000000#32),
    TRef.binary (TRef.of (T := ⟨S4x2048x512, .f32⟩) main_call3_v0) (TRef.of (T := ⟨S_, .f32⟩) main_call3_cst) (TRef.of (T := ⟨S4x2048, .f32⟩) main_call3_v1) (fun x v => Host.reduceAdd x v reducesTo_S4x2048x512_S4x2048_d2 h_S_),
    TRef.unary (TRef.of (T := ⟨S4x2048, .f32⟩) main_call3_v1) (TRef.of (T := ⟨S4x2048, .f32⟩) main_v11) Host.sqrt,
    TRef.binary (TRef.of (T := ⟨S4x2048x512, .f32⟩) main_v8) (TRef.of (T := ⟨S4x2048x512, .f32⟩) main_v8) (TRef.of (T := ⟨S4x2048x512, .f32⟩) main_call4_v0) mulf,
    TRef.nullary (TRef.of (T := ⟨S_, .f32⟩) main_call4_cst) (constant S_ .f32 0x00000000#32),
    TRef.binary (TRef.of (T := ⟨S4x2048x512, .f32⟩) main_call4_v0) (TRef.of (T := ⟨S_, .f32⟩) main_call4_cst) (TRef.of (T := ⟨S4x2048, .f32⟩) main_call4_v1) (fun x v => Host.reduceAdd x v reducesTo_S4x2048x512_S4x2048_d2 h_S_),
    TRef.unary (TRef.of (T := ⟨S4x2048, .f32⟩) main_call4_v1) (TRef.of (T := ⟨S4x2048, .f32⟩) main_v12) Host.sqrt,
    binary main_v11 main_v12 main_v13 (mulf : (⟨S4x2048, .f32⟩ : BufTy).Contents (Elt F) → (⟨S4x2048, .f32⟩ : BufTy).Contents (Elt F) → (⟨S4x2048, .f32⟩ : BufTy).Contents (Elt F)),
    nullary main_cst_0 (constant S_ .f32 0x322BCC77#32),
    unary main_cst_0 main_v14 (broadcastInDim S4x2048 ![] bcast_S_S4x2048 : (⟨S_, .f32⟩ : BufTy).Contents (Elt F) → (⟨S4x2048, .f32⟩ : BufTy).Contents (Elt F)),
    binary main_v13 main_v14 main_v15 (maximumf : (⟨S4x2048, .f32⟩ : BufTy).Contents (Elt F) → (⟨S4x2048, .f32⟩ : BufTy).Contents (Elt F) → (⟨S4x2048, .f32⟩ : BufTy).Contents (Elt F)),
    binary main_v10 main_v15 main_v16 (Host.divf : (⟨S4x2048, .f32⟩ : BufTy).Contents (Elt F) → (⟨S4x2048, .f32⟩ : BufTy).Contents (Elt F) → (⟨S4x2048, .f32⟩ : BufTy).Contents (Elt F)),
    unary main_v16 main_v17 (broadcastInDim S4x2048x1 ![0, 1] bcast_S4x2048_S4x2048x1_0_1 : (⟨S4x2048, .f32⟩ : BufTy).Contents (Elt F) → (⟨S4x2048x1, .f32⟩ : BufTy).Contents (Elt F)),
    binary main_v2 main_v8 main_v18 ((fun l r => Host.dotGeneral dot_S4x2048x512_S4x2048x512_S4x2048x2048_2_2_1_1_0_0 none l r) : (⟨S4x2048x512, .f32⟩ : BufTy).Contents (Elt F) → (⟨S4x2048x512, .f32⟩ : BufTy).Contents (Elt F) → (⟨S4x2048x2048, .f32⟩ : BufTy).Contents (Elt F)) ]

abbrev oE : List (HloOp τ sig (Elt F)) :=
  [ binary main_v17 main_v18 main_v19 ((fun a b => concatenate S4x2048x2049 2 [⟨S4x2048x1, a⟩, ⟨S4x2048x2048, b⟩] concatenates_S4x2048x1_S4x2048x2048_S4x2048x2049_d2) : (⟨S4x2048x1, .f32⟩ : BufTy).Contents (Elt F) → (⟨S4x2048x2048, .f32⟩ : BufTy).Contents (Elt F) → (⟨S4x2048x2049, .f32⟩ : BufTy).Contents (Elt F)),
    binary main_v5 main_v5 main_v20 (mulf : (⟨S4x2048x3, .f32⟩ : BufTy).Contents (Elt F) → (⟨S4x2048x3, .f32⟩ : BufTy).Contents (Elt F) → (⟨S4x2048x3, .f32⟩ : BufTy).Contents (Elt F)),
    nullary main_cst_1 (constant S_ .f32 0x00000000#32),
    binary main_v20 main_cst_1 main_v21 ((fun x v => Host.reduceAdd x v reducesTo_S4x2048x3_S4x2048_d2 h_S_) : (⟨S4x2048x3, .f32⟩ : BufTy).Contents (Elt F) → (⟨S_, .f32⟩ : BufTy).Contents (Elt F) → (⟨S4x2048, .f32⟩ : BufTy).Contents (Elt F)),
    unary main_v21 main_v22 (broadcastInDim S4x2048x1 ![0, 1] bcast_S4x2048_S4x2048x1_0_1 : (⟨S4x2048, .f32⟩ : BufTy).Contents (Elt F) → (⟨S4x2048x1, .f32⟩ : BufTy).Contents (Elt F)),
    unary main_v21 main_v23 (broadcastInDim S4x1x2048 ![0, 2] bcast_S4x2048_S4x1x2048_0_2 : (⟨S4x2048, .f32⟩ : BufTy).Contents (Elt F) → (⟨S4x1x2048, .f32⟩ : BufTy).Contents (Elt F)),
    unary main_v22 main_v24 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    unary main_v23 main_v25 (broadcastInDim S4x2048x2048 ![0, 1, 2] bcast_S4x1x2048_S4x2048x2048_0_1_2 : (⟨S4x1x2048, .f32⟩ : BufTy).Contents (Elt F) → (⟨S4x2048x2048, .f32⟩ : BufTy).Contents (Elt F)),
    binary main_v24 main_v25 main_v26 (addf : (⟨S4x2048x2048, .f32⟩ : BufTy).Contents (Elt F) → (⟨S4x2048x2048, .f32⟩ : BufTy).Contents (Elt F) → (⟨S4x2048x2048, .f32⟩ : BufTy).Contents (Elt F)),
    binary main_v5 main_v5 main_v27 ((fun l r => Host.dotGeneral dot_S4x2048x3_S4x2048x3_S4x2048x2048_2_2_1_1_0_0 none l r) : (⟨S4x2048x3, .f32⟩ : BufTy).Contents (Elt F) → (⟨S4x2048x3, .f32⟩ : BufTy).Contents (Elt F) → (⟨S4x2048x2048, .f32⟩ : BufTy).Contents (Elt F)),
    nullary main_cst_2 (constant S_ .f32 0x40000000#32),
    unary main_cst_2 main_v28 (broadcastInDim S4x2048x2048 ![] bcast_S_S4x2048x2048 : (⟨S_, .f32⟩ : BufTy).Contents (Elt F) → (⟨S4x2048x2048, .f32⟩ : BufTy).Contents (Elt F)),
    binary main_v28 main_v27 main_v29 (mulf : (⟨S4x2048x2048, .f32⟩ : BufTy).Contents (Elt F) → (⟨S4x2048x2048, .f32⟩ : BufTy).Contents (Elt F) → (⟨S4x2048x2048, .f32⟩ : BufTy).Contents (Elt F)),
    binary main_v26 main_v29 main_v30 (subf : (⟨S4x2048x2048, .f32⟩ : BufTy).Contents (Elt F) → (⟨S4x2048x2048, .f32⟩ : BufTy).Contents (Elt F) → (⟨S4x2048x2048, .f32⟩ : BufTy).Contents (Elt F)),
    nullary main_cst_3 (constant S_ .f32 0x41C80000#32),
    unary main_cst_3 main_v31 (broadcastInDim S4x2048x2048 ![] bcast_S_S4x2048x2048 : (⟨S_, .f32⟩ : BufTy).Contents (Elt F) → (⟨S4x2048x2048, .f32⟩ : BufTy).Contents (Elt F)),
    binary main_v30 main_v31 main_v32 (cmpf .ogt : (⟨S4x2048x2048, .f32⟩ : BufTy).Contents (Elt F) → (⟨S4x2048x2048, .f32⟩ : BufTy).Contents (Elt F) → (⟨S4x2048x2048, .i1⟩ : BufTy).Contents (Elt F)),
    unary main_v32 main_v33 ((extractStridedSlice S4x2048x1 ![0, 0, 0] · slices_S4x2048x2048_S4x2048x1_0_0_0) : (⟨S4x2048x2048, .i1⟩ : BufTy).Contents (Elt F) → (⟨S4x2048x1, .i1⟩ : BufTy).Contents (Elt F)),
    nullary main_c (constantI S_ 1 1#1),
    unary main_c main_v34 (broadcastInDim S4x2048x1 ![] bcast_S_S4x2048x1 : (⟨S_, .i1⟩ : BufTy).Contents (Elt F) → (⟨S4x2048x1, .i1⟩ : BufTy).Contents (Elt F)) ]

abbrev oF : List (HloOp τ sig (Elt F)) :=
  [ binary main_v34 main_v32 main_v35 ((fun a b => concatenate S4x2048x2049 2 [⟨S4x2048x1, a⟩, ⟨S4x2048x2048, b⟩] concatenates_S4x2048x1_S4x2048x2048_S4x2048x2049_d2) : (⟨S4x2048x1, .i1⟩ : BufTy).Contents (Elt F) → (⟨S4x2048x2048, .i1⟩ : BufTy).Contents (Elt F) → (⟨S4x2048x2049, .i1⟩ : BufTy).Contents (Elt F)),
    nullary main_cst_4 (constant S_ .f32 0x3DCCCCCD#32),
    unary main_cst_4 main_v36 (broadcastInDim S4x2048x2049 ![] bcast_S_S4x2048x2049 : (⟨S_, .f32⟩ : BufTy).Contents (Elt F) → (⟨S4x2048x2049, .f32⟩ : BufTy).Contents (Elt F)),
    binary main_v19 main_v36 main_v37 (Host.divf : (⟨S4x2048x2049, .f32⟩ : BufTy).Contents (Elt F) → (⟨S4x2048x2049, .f32⟩ : BufTy).Contents (Elt F) → (⟨S4x2048x2049, .f32⟩ : BufTy).Contents (Elt F)),
    unary main_v37 main_v38 (Host.exp : (⟨S4x2048x2049, .f32⟩ : BufTy).Contents (Elt F) → (⟨S4x2048x2049, .f32⟩ : BufTy).Contents (Elt F)),
    unary main_v35 main_v39 (uitofp .f32 : (⟨S4x2048x2049, .i1⟩ : BufTy).Contents (Elt F) → (⟨S4x2048x2049, .f32⟩ : BufTy).Contents (Elt F)),
    binary main_v38 main_v39 main_v40 (mulf : (⟨S4x2048x2049, .f32⟩ : BufTy).Contents (Elt F) → (⟨S4x2048x2049, .f32⟩ : BufTy).Contents (Elt F) → (⟨S4x2048x2049, .f32⟩ : BufTy).Contents (Elt F)),
    nullary main_cst_5 (constant S_ .f32 0x00000000#32),
    binary main_v40 main_cst_5 main_v41 ((fun x v => Host.reduceAdd x v reducesTo_S4x2048x2049_S4x2048_d2 h_S_) : (⟨S4x2048x2049, .f32⟩ : BufTy).Contents (Elt F) → (⟨S_, .f32⟩ : BufTy).Contents (Elt F) → (⟨S4x2048, .f32⟩ : BufTy).Contents (Elt F)),
    unary main_v41 main_v42 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_6 (constant S_ .f32 0x3DCCCCCD#32),
    unary main_cst_6 main_v43 (broadcastInDim S4x2048x1 ![] bcast_S_S4x2048x1 : (⟨S_, .f32⟩ : BufTy).Contents (Elt F) → (⟨S4x2048x1, .f32⟩ : BufTy).Contents (Elt F)),
    binary main_v17 main_v43 main_v44 (Host.divf : (⟨S4x2048x1, .f32⟩ : BufTy).Contents (Elt F) → (⟨S4x2048x1, .f32⟩ : BufTy).Contents (Elt F) → (⟨S4x2048x1, .f32⟩ : BufTy).Contents (Elt F)),
    unary main_v44 main_v45 (Host.exp : (⟨S4x2048x1, .f32⟩ : BufTy).Contents (Elt F) → (⟨S4x2048x1, .f32⟩ : BufTy).Contents (Elt F)),
    binary main_v45 main_v42 main_v46 (Host.divf : (⟨S4x2048x1, .f32⟩ : BufTy).Contents (Elt F) → (⟨S4x2048x1, .f32⟩ : BufTy).Contents (Elt F) → (⟨S4x2048x1, .f32⟩ : BufTy).Contents (Elt F)),
    unary main_v46 main_v47 (Host.log : (⟨S4x2048x1, .f32⟩ : BufTy).Contents (Elt F) → (⟨S4x2048x1, .f32⟩ : BufTy).Contents (Elt F)),
    unary main_v47 main_v48 (Host.negf : (⟨S4x2048x1, .f32⟩ : BufTy).Contents (Elt F) → (⟨S4x2048x1, .f32⟩ : BufTy).Contents (Elt F)),
    nullary main_cst_7 (constant S_ .f32 0x00000000#32),
    binary main_v48 main_cst_7 main_v49 ((fun x v => Host.reduceAdd x v reducesTo_S4x2048x1_S_d0_1_2 h_S_) : (⟨S4x2048x1, .f32⟩ : BufTy).Contents (Elt F) → (⟨S_, .f32⟩ : BufTy).Contents (Elt F) → (⟨S_, .f32⟩ : BufTy).Contents (Elt F)),
    nullary main_cst_8 (constant S_ .f32 0x46000000#32),
    binary main_v49 main_cst_8 main_v50 (Host.divf : (⟨S_, .f32⟩ : BufTy).Contents (Elt F) → (⟨S_, .f32⟩ : BufTy).Contents (Elt F) → (⟨S_, .f32⟩ : BufTy).Contents (Elt F)) ]

/-- The list of operations is its six pieces in a row. -/
theorem ops_split : (ValueP.ops : List (HloOp τ sig (Elt F))) = oA ++ (oB ++ (oC ++ (oD ++ (oE ++ oF)))) := rfl

/-! Each piece, run from any contents `W`: the buffers later pieces read, as the stages of what `W` holds. A gather
is cut further, at its reshape, its reduction and its gather, so that each of these stages is compared on its own, from
contents left opaque; what a later part reads is carried across the parts that do not write it. -/

abbrev oA1 : List (HloOp τ sig (Elt F)) :=
  [ unary main_arg3 main_v0 ((extractStridedSlice S4x2048x1 ![0, 0, 0] · slices_S4x2048x2_S4x2048x1_0_0_0) : (⟨S4x2048x2, .i32⟩ : BufTy).Contents (Elt F) → (⟨S4x2048x1, .i32⟩ : BufTy).Contents (Elt F)),
    unary main_v0 main_v1 (broadcastInDim S4x2048x512 ![0, 1, 2] bcast_S4x2048x1_S4x2048x512_0_1_2 : (⟨S4x2048x1, .i32⟩ : BufTy).Contents (Elt F) → (⟨S4x2048x512, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4x2048x512, .i32⟩) main_call0_v0) (broadcastInDim S4x2048x512 ![] bcast_S_S4x2048x512),
    TRef.binary (TRef.of (T := ⟨S4x2048x512, .i32⟩) main_v1) (TRef.of (T := ⟨S4x2048x512, .i32⟩) main_call0_v0) (TRef.of (T := ⟨S4x2048x512, .i1⟩) main_call0_v1) (cmpi .slt),
    TRef.nullary (TRef.of (T := ⟨S_, .i32⟩) main_call0_c_0) (constantI S_ 32 8192#32),
    TRef.unary (TRef.of (T := ⟨S_, .i32⟩) main_call0_c_0) (TRef.of (T := ⟨S4x2048x512, .i32⟩) main_call0_v2) (broadcastInDim S4x2048x512 ![] bcast_S_S4x2048x512),
    TRef.binary (TRef.of (T := ⟨S4x2048x512, .i32⟩) main_v1) (TRef.of (T := ⟨S4x2048x512, .i32⟩) main_call0_v2) (TRef.of (T := ⟨S4x2048x512, .i32⟩) main_call0_v3) addi,
    TRef.ternary (TRef.of (T := ⟨S4x2048x512, .i1⟩) main_call0_v1) (TRef.of (T := ⟨S4x2048x512, .i32⟩) main_call0_v3) (TRef.of (T := ⟨S4x2048x512, .i32⟩) main_v1) (TRef.of (T := ⟨S4x2048x512, .i32⟩) main_call0_v4) select ]

abbrev oA2 : List (HloOp τ sig (Elt F)) :=
  [ TRef.reshape (TRef.of (T := ⟨S4x2048x512, .i32⟩) main_call0_v4) (TRef.of (T := ⟨S4x2048x512x1, .i32⟩) main_call0_v5) rfl shapeCasts_S4x2048x512_S4x2048x512x1 ]

abbrev oA3 : List (HloOp τ sig (Elt F)) :=
  [ TRef.nullary (TRef.of (T := ⟨S1, .i32⟩) main_call0_c_1) (constantI S1 32 8191#32),
    TRef.nullary (TRef.of (T := ⟨S_, .i32⟩) main_call0_c_2) (constantI S_ 32 0#32),
    TRef.unary (TRef.of (T := ⟨S_, .i32⟩) main_call0_c_2) (TRef.of (T := ⟨S4x2048x512x1, .i32⟩) main_call0_v6) (broadcastInDim S4x2048x512x1 ![] bcast_S_S4x2048x512x1),
    TRef.binary (TRef.of (T := ⟨S4x2048x512x1, .i32⟩) main_call0_v5) (TRef.of (T := ⟨S4x2048x512x1, .i32⟩) main_call0_v6) (TRef.of (T := ⟨S4x2048x512x1, .i1⟩) main_call0_v7) (cmpi .sge),
    TRef.unary (TRef.of (T := ⟨S1, .i32⟩) main_call0_c_1) (TRef.of (T := ⟨S1x1x1x1, .i32⟩) main_call0_v8) (broadcastInDim S1x1x1x1 ![3] bcast_S1_S1x1x1x1_3),
    TRef.unary (TRef.of (T := ⟨S1x1x1x1, .i32⟩) main_call0_v8) (TRef.of (T := ⟨S4x2048x512x1, .i32⟩) main_call0_v9) (broadcastInDim S4x2048x512x1 ![0, 1, 2, 3] bcast_S1x1x1x1_S4x2048x512x1_0_1_2_3),
    TRef.binary (TRef.of (T := ⟨S4x2048x512x1, .i32⟩) main_call0_v5) (TRef.of (T := ⟨S4x2048x512x1, .i32⟩) main_call0_v9) (TRef.of (T := ⟨S4x2048x512x1, .i1⟩) main_call0_v10) (cmpi .sle),
    TRef.binary (TRef.of (T := ⟨S4x2048x512x1, .i1⟩) main_call0_v7) (TRef.of (T := ⟨S4x2048x512x1, .i1⟩) main_call0_v10) (TRef.of (T := ⟨S4x2048x512x1, .i1⟩) main_call0_v11) andi ]

abbrev oA4 : List (HloOp τ sig (Elt F)) :=
  [ TRef.nullary (TRef.of (T := ⟨S_, .i1⟩) main_call0_c_3) (constantI S_ 1 1#1),
    TRef.binary (TRef.of (T := ⟨S4x2048x512x1, .i1⟩) main_call0_v11) (TRef.of (T := ⟨S_, .i1⟩) main_call0_c_3) (TRef.of (T := ⟨S4x2048x512, .i1⟩) main_call0_v12) (fun x v => Host.reduce IntOp.andi x v reducesTo_S4x2048x512x1_S4x2048x512_d3 h_S_) ]

abbrev oA5 : List (HloOp τ sig (Elt F)) :=
  [ TRef.binary (TRef.of (T := ⟨S4x8192x512, .f32⟩) main_arg0) (TRef.of (T := ⟨S4x2048x512x1, .i32⟩) main_call0_v5) (TRef.of (T := ⟨S4x2048x512, .f32⟩) main_call0_v13) (fun x i => Host.gather gather_S4x8192x512_S4x2048x512x1_S4x2048x512_n_1_02_02_1_3_111 x i) ]

abbrev oA6 : List (HloOp τ sig (Elt F)) :=
  [ TRef.nullary (TRef.of (T := ⟨S_, .f32⟩) main_call0_cst) (constant S_ .f32 0x7FC00000#32),
    TRef.unary (TRef.of (T := ⟨S_, .f32⟩) main_call0_cst) (TRef.of (T := ⟨S4x2048x512, .f32⟩) main_call0_v14) (broadcastInDim S4x2048x512 ![] bcast_S_S4x2048x512),
    TRef.ternary (TRef.of (T := ⟨S4x2048x512, .i1⟩) main_call0_v12) (TRef.of (T := ⟨S4x2048x512, .f32⟩) main_call0_v13) (TRef.of (T := ⟨S4x2048x512, .f32⟩) main_call0_v14) (TRef.of (T := ⟨S4x2048x512, .f32⟩) main_v2) select ]

theorem oA_split : (oA : List (HloOp τ sig (Elt F))) = oA1 ++ (oA2 ++ (oA3 ++ (oA4 ++ (oA5 ++ oA6)))) := rfl

/-- The index column, broadcast along the row and wrapped where negative. -/
theorem stA1 (W : Valuation τ sig (Elt F)) :
    StableHlo.after (oA1 (F := F)) W (Proc.devRef .tc main_call0_v4) = ReadP.val_main_call0_v4 (F := F) (W (Proc.devRef .tc main_arg3)) := by
  after_results_simp
  rfl

/-- The reshape of the wrapped indices to index vectors of length one. -/
theorem stA2 (W : Valuation τ sig (Elt F)) (x3 : (⟨S4x2048x2, .i32⟩ : BufTy).Contents (Elt F))
    (h4 : W (Proc.devRef .tc main_call0_v4) = ReadP.val_main_call0_v4 (F := F) x3) :
    StableHlo.after (oA2 (F := F)) W (Proc.devRef .tc main_call0_v5) = ReadP.val_main_call0_v5 (F := F) x3 := by
  rw [StableHlo.after_cons, StableHlo.after_nil, reshape_result, h4]
  rfl

/-- The range test of the index vectors. -/
theorem stA3 (W : Valuation τ sig (Elt F)) (x3 : (⟨S4x2048x2, .i32⟩ : BufTy).Contents (Elt F))
    (h5 : W (Proc.devRef .tc main_call0_v5) = ReadP.val_main_call0_v5 (F := F) x3) :
    StableHlo.after (oA3 (F := F)) W (Proc.devRef .tc main_call0_v11) = ReadP.val_main_call0_v11 (F := F) x3 := by
  after_results_simp
  rw [h5]
  rfl

/-- The contents of the test's buffer at its own type. -/
theorem toBufA_v12 (u : (⟨S4x2048x512, .i1⟩ : BufTy).Contents (Elt F)) :
    (TRef.of (T := ⟨S4x2048x512, .i1⟩) main_call0_v12 : TRef sig ⟨S4x2048x512, .i1⟩).toBuf u = u := rfl

/-- The range test over each index vector, of what the piece finds as the test of its entries. -/
theorem stA4 (W : Valuation τ sig (Elt F)) :
    StableHlo.after (oA4 (F := F)) W (Proc.devRef .tc main_call0_v12)
      = Host.reduce IntOp.andi (W (Proc.devRef .tc main_call0_v11)) (ReadP.val_main_call0_c_3 (F := F)) reducesTo_S4x2048x512x1_S4x2048x512_d3 h_S_ := by
  have e : StableHlo.after (oA4 (F := F)) W (Proc.devRef .tc main_call0_v12)
      = (TRef.of (T := ⟨S4x2048x512, .i1⟩) main_call0_v12 : TRef sig ⟨S4x2048x512, .i1⟩).toBuf
          (Host.reduce IntOp.andi (W (Proc.devRef .tc main_call0_v11)) (ReadP.val_main_call0_c_3 (F := F)) reducesTo_S4x2048x512x1_S4x2048x512_d3 h_S_) := by
    after_results_simp
    rfl
  exact e.trans (toBufA_v12 _)

/-- The gather of the rows. -/
theorem stA5 (W : Valuation τ sig (Elt F)) (x3 : (⟨S4x2048x2, .i32⟩ : BufTy).Contents (Elt F))
    (h5 : W (Proc.devRef .tc main_call0_v5) = ReadP.val_main_call0_v5 (F := F) x3) :
    StableHlo.after (oA5 (F := F)) W (Proc.devRef .tc main_call0_v13) = ReadP.val_main_call0_v13 (F := F) (W (Proc.devRef .tc main_arg0)) x3 := by
  after_results_simp
  rw [h5]
  rfl

/-- The select of a NaN row where the test fails, of what the piece finds as the test and the gathered rows. -/
theorem stA6 (W : Valuation τ sig (Elt F)) :
    StableHlo.after (oA6 (F := F)) W (Proc.devRef .tc main_v2)
      = select (W (Proc.devRef .tc main_call0_v12)) (W (Proc.devRef .tc main_call0_v13)) (ReadP.val_main_call0_v14 (F := F)) := by
  after_results_simp
  rfl

theorem keepA1_arg (W : Valuation τ sig (Elt F)) :
    StableHlo.after (oA1 (F := F)) W (Proc.devRef .tc main_arg0) = W (Proc.devRef .tc main_arg0) := by
  after_results_simp <;> rfl

theorem keepA2_arg (W : Valuation τ sig (Elt F)) :
    StableHlo.after (oA2 (F := F)) W (Proc.devRef .tc main_arg0) = W (Proc.devRef .tc main_arg0) := by
  after_results_simp <;> rfl

theorem keepA3_arg (W : Valuation τ sig (Elt F)) :
    StableHlo.after (oA3 (F := F)) W (Proc.devRef .tc main_arg0) = W (Proc.devRef .tc main_arg0) := by
  after_results_simp <;> rfl

theorem keepA4_arg (W : Valuation τ sig (Elt F)) :
    StableHlo.after (oA4 (F := F)) W (Proc.devRef .tc main_arg0) = W (Proc.devRef .tc main_arg0) := by
  after_results_simp <;> rfl

theorem keepA3_v5 (W : Valuation τ sig (Elt F)) :
    StableHlo.after (oA3 (F := F)) W (Proc.devRef .tc main_call0_v5) = W (Proc.devRef .tc main_call0_v5) := by
  after_results_simp <;> rfl

theorem keepA4_v5 (W : Valuation τ sig (Elt F)) :
    StableHlo.after (oA4 (F := F)) W (Proc.devRef .tc main_call0_v5) = W (Proc.devRef .tc main_call0_v5) := by
  after_results_simp <;> rfl

theorem keepA5_v12 (W : Valuation τ sig (Elt F)) :
    StableHlo.after (oA5 (F := F)) W (Proc.devRef .tc main_call0_v12) = W (Proc.devRef .tc main_call0_v12) := by
  after_results_simp <;> rfl

/-- The first gather: the rows of the first argument at the first index column (a NaN row where the index is out of range). -/
theorem stA (W : Valuation τ sig (Elt F)) :
    StableHlo.after (oA (F := F)) W (Proc.devRef .tc main_v2) = ReadP.val_main_v2 (F := F) (W (Proc.devRef .tc main_arg0)) (W (Proc.devRef .tc main_arg3)) := by
  rw [oA_split, StableHlo.after_append, StableHlo.after_append, StableHlo.after_append, StableHlo.after_append,
    StableHlo.after_append]
  have h5 : (StableHlo.after (oA2 (F := F)) (StableHlo.after (oA1 (F := F)) W)) (Proc.devRef .tc main_call0_v5) = ReadP.val_main_call0_v5 (F := F) (W (Proc.devRef .tc main_arg3)) :=
    stA2 (StableHlo.after (oA1 (F := F)) W) (W (Proc.devRef .tc main_arg3)) (stA1 W)
  have h11 : (StableHlo.after (oA3 (F := F)) (StableHlo.after (oA2 (F := F)) (StableHlo.after (oA1 (F := F)) W))) (Proc.devRef .tc main_call0_v11) = ReadP.val_main_call0_v11 (F := F) (W (Proc.devRef .tc main_arg3)) :=
    stA3 (StableHlo.after (oA2 (F := F)) (StableHlo.after (oA1 (F := F)) W)) (W (Proc.devRef .tc main_arg3)) h5
  have h12 : (StableHlo.after (oA4 (F := F)) (StableHlo.after (oA3 (F := F)) (StableHlo.after (oA2 (F := F)) (StableHlo.after (oA1 (F := F)) W)))) (Proc.devRef .tc main_call0_v12) = ReadP.val_main_call0_v12 (F := F) (W (Proc.devRef .tc main_arg3)) := by
    rw [stA4, h11]; rfl
  have h5' : (StableHlo.after (oA4 (F := F)) (StableHlo.after (oA3 (F := F)) (StableHlo.after (oA2 (F := F)) (StableHlo.after (oA1 (F := F)) W)))) (Proc.devRef .tc main_call0_v5) = ReadP.val_main_call0_v5 (F := F) (W (Proc.devRef .tc main_arg3)) := by
    rw [keepA4_v5, keepA3_v5]; exact h5
  have h13 : (StableHlo.after (oA5 (F := F)) (StableHlo.after (oA4 (F := F)) (StableHlo.after (oA3 (F := F)) (StableHlo.after (oA2 (F := F)) (StableHlo.after (oA1 (F := F)) W))))) (Proc.devRef .tc main_call0_v13) = ReadP.val_main_call0_v13 (F := F) (W (Proc.devRef .tc main_arg0)) (W (Proc.devRef .tc main_arg3)) := by
    have h := stA5 (StableHlo.after (oA4 (F := F)) (StableHlo.after (oA3 (F := F)) (StableHlo.after (oA2 (F := F)) (StableHlo.after (oA1 (F := F)) W)))) (W (Proc.devRef .tc main_arg3)) h5'
    rw [keepA4_arg, keepA3_arg, keepA2_arg, keepA1_arg] at h
    exact h
  have h12' : (StableHlo.after (oA5 (F := F)) (StableHlo.after (oA4 (F := F)) (StableHlo.after (oA3 (F := F)) (StableHlo.after (oA2 (F := F)) (StableHlo.after (oA1 (F := F)) W))))) (Proc.devRef .tc main_call0_v12) = ReadP.val_main_call0_v12 (F := F) (W (Proc.devRef .tc main_arg3)) := by
    rw [keepA5_v12]; exact h12
  rw [stA6, h12', h13]; rfl

abbrev oB1 : List (HloOp τ sig (Elt F)) :=
  [ unary main_arg3 main_v3 ((extractStridedSlice S4x2048x1 ![0, 0, 0] · slices_S4x2048x2_S4x2048x1_0_0_0) : (⟨S4x2048x2, .i32⟩ : BufTy).Contents (Elt F) → (⟨S4x2048x1, .i32⟩ : BufTy).Contents (Elt F)),
    unary main_v3 main_v4 (broadcastInDim S4x2048x3 ![0, 1, 2] bcast_S4x2048x1_S4x2048x3_0_1_2 : (⟨S4x2048x1, .i32⟩ : BufTy).Contents (Elt F) → (⟨S4x2048x3, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4x2048x3, .i32⟩) main_call1_v0) (broadcastInDim S4x2048x3 ![] bcast_S_S4x2048x3),
    TRef.binary (TRef.of (T := ⟨S4x2048x3, .i32⟩) main_v4) (TRef.of (T := ⟨S4x2048x3, .i32⟩) main_call1_v0) (TRef.of (T := ⟨S4x2048x3, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S4x2048x3, .i32⟩) main_call1_v2) (broadcastInDim S4x2048x3 ![] bcast_S_S4x2048x3),
    TRef.binary (TRef.of (T := ⟨S4x2048x3, .i32⟩) main_v4) (TRef.of (T := ⟨S4x2048x3, .i32⟩) main_call1_v2) (TRef.of (T := ⟨S4x2048x3, .i32⟩) main_call1_v3) addi,
    TRef.ternary (TRef.of (T := ⟨S4x2048x3, .i1⟩) main_call1_v1) (TRef.of (T := ⟨S4x2048x3, .i32⟩) main_call1_v3) (TRef.of (T := ⟨S4x2048x3, .i32⟩) main_v4) (TRef.of (T := ⟨S4x2048x3, .i32⟩) main_call1_v4) select ]

abbrev oB2 : List (HloOp τ sig (Elt F)) :=
  [ TRef.reshape (TRef.of (T := ⟨S4x2048x3, .i32⟩) main_call1_v4) (TRef.of (T := ⟨S4x2048x3x1, .i32⟩) main_call1_v5) rfl shapeCasts_S4x2048x3_S4x2048x3x1 ]

abbrev oB3 : List (HloOp τ sig (Elt F)) :=
  [ TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S4x2048x3x1, .i32⟩) main_call1_v6) (broadcastInDim S4x2048x3x1 ![] bcast_S_S4x2048x3x1),
    TRef.binary (TRef.of (T := ⟨S4x2048x3x1, .i32⟩) main_call1_v5) (TRef.of (T := ⟨S4x2048x3x1, .i32⟩) main_call1_v6) (TRef.of (T := ⟨S4x2048x3x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S4x2048x3x1, .i32⟩) main_call1_v9) (broadcastInDim S4x2048x3x1 ![0, 1, 2, 3] bcast_S1x1x1x1_S4x2048x3x1_0_1_2_3),
    TRef.binary (TRef.of (T := ⟨S4x2048x3x1, .i32⟩) main_call1_v5) (TRef.of (T := ⟨S4x2048x3x1, .i32⟩) main_call1_v9) (TRef.of (T := ⟨S4x2048x3x1, .i1⟩) main_call1_v10) (cmpi .sle),
    TRef.binary (TRef.of (T := ⟨S4x2048x3x1, .i1⟩) main_call1_v7) (TRef.of (T := ⟨S4x2048x3x1, .i1⟩) main_call1_v10) (TRef.of (T := ⟨S4x2048x3x1, .i1⟩) main_call1_v11) andi ]

abbrev oB4 : List (HloOp τ sig (Elt F)) :=
  [ TRef.nullary (TRef.of (T := ⟨S_, .i1⟩) main_call1_c_3) (constantI S_ 1 1#1),
    TRef.binary (TRef.of (T := ⟨S4x2048x3x1, .i1⟩) main_call1_v11) (TRef.of (T := ⟨S_, .i1⟩) main_call1_c_3) (TRef.of (T := ⟨S4x2048x3, .i1⟩) main_call1_v12) (fun x v => Host.reduce IntOp.andi x v reducesTo_S4x2048x3x1_S4x2048x3_d3 h_S_) ]

abbrev oB5 : List (HloOp τ sig (Elt F)) :=
  [ TRef.binary (TRef.of (T := ⟨S4x8192x3, .f32⟩) main_arg1) (TRef.of (T := ⟨S4x2048x3x1, .i32⟩) main_call1_v5) (TRef.of (T := ⟨S4x2048x3, .f32⟩) main_call1_v13) (fun x i => Host.gather gather_S4x8192x3_S4x2048x3x1_S4x2048x3_n_1_02_02_1_3_111 x i) ]

abbrev oB6 : List (HloOp τ sig (Elt F)) :=
  [ TRef.nullary (TRef.of (T := ⟨S_, .f32⟩) main_call1_cst) (constant S_ .f32 0x7FC00000#32),
    TRef.unary (TRef.of (T := ⟨S_, .f32⟩) main_call1_cst) (TRef.of (T := ⟨S4x2048x3, .f32⟩) main_call1_v14) (broadcastInDim S4x2048x3 ![] bcast_S_S4x2048x3),
    TRef.ternary (TRef.of (T := ⟨S4x2048x3, .i1⟩) main_call1_v12) (TRef.of (T := ⟨S4x2048x3, .f32⟩) main_call1_v13) (TRef.of (T := ⟨S4x2048x3, .f32⟩) main_call1_v14) (TRef.of (T := ⟨S4x2048x3, .f32⟩) main_v5) select ]

theorem oB_split : (oB : List (HloOp τ sig (Elt F))) = oB1 ++ (oB2 ++ (oB3 ++ (oB4 ++ (oB5 ++ oB6)))) := rfl

/-- The index column, broadcast along the row and wrapped where negative. -/
theorem stB1 (W : Valuation τ sig (Elt F)) :
    StableHlo.after (oB1 (F := F)) W (Proc.devRef .tc main_call1_v4) = ReadP.val_main_call1_v4 (F := F) (W (Proc.devRef .tc main_arg3)) := by
  after_results_simp
  rfl

/-- The reshape of the wrapped indices to index vectors of length one. -/
theorem stB2 (W : Valuation τ sig (Elt F)) (x3 : (⟨S4x2048x2, .i32⟩ : BufTy).Contents (Elt F))
    (h4 : W (Proc.devRef .tc main_call1_v4) = ReadP.val_main_call1_v4 (F := F) x3) :
    StableHlo.after (oB2 (F := F)) W (Proc.devRef .tc main_call1_v5) = ReadP.val_main_call1_v5 (F := F) x3 := by
  rw [StableHlo.after_cons, StableHlo.after_nil, reshape_result, h4]
  rfl

/-- The range test of the index vectors. -/
theorem stB3 (W : Valuation τ sig (Elt F)) (x3 : (⟨S4x2048x2, .i32⟩ : BufTy).Contents (Elt F))
    (h5 : W (Proc.devRef .tc main_call1_v5) = ReadP.val_main_call1_v5 (F := F) x3) :
    StableHlo.after (oB3 (F := F)) W (Proc.devRef .tc main_call1_v11) = ReadP.val_main_call1_v11 (F := F) x3 := by
  after_results_simp
  rw [h5]
  rfl

/-- The contents of the test's buffer at its own type. -/
theorem toBufB_v12 (u : (⟨S4x2048x3, .i1⟩ : BufTy).Contents (Elt F)) :
    (TRef.of (T := ⟨S4x2048x3, .i1⟩) main_call1_v12 : TRef sig ⟨S4x2048x3, .i1⟩).toBuf u = u := rfl

/-- The range test over each index vector, of what the piece finds as the test of its entries. -/
theorem stB4 (W : Valuation τ sig (Elt F)) :
    StableHlo.after (oB4 (F := F)) W (Proc.devRef .tc main_call1_v12)
      = Host.reduce IntOp.andi (W (Proc.devRef .tc main_call1_v11)) (ReadP.val_main_call1_c_3 (F := F)) reducesTo_S4x2048x3x1_S4x2048x3_d3 h_S_ := by
  have e : StableHlo.after (oB4 (F := F)) W (Proc.devRef .tc main_call1_v12)
      = (TRef.of (T := ⟨S4x2048x3, .i1⟩) main_call1_v12 : TRef sig ⟨S4x2048x3, .i1⟩).toBuf
          (Host.reduce IntOp.andi (W (Proc.devRef .tc main_call1_v11)) (ReadP.val_main_call1_c_3 (F := F)) reducesTo_S4x2048x3x1_S4x2048x3_d3 h_S_) := by
    after_results_simp
    rfl
  exact e.trans (toBufB_v12 _)

/-- The gather of the rows. -/
theorem stB5 (W : Valuation τ sig (Elt F)) (x3 : (⟨S4x2048x2, .i32⟩ : BufTy).Contents (Elt F))
    (h5 : W (Proc.devRef .tc main_call1_v5) = ReadP.val_main_call1_v5 (F := F) x3) :
    StableHlo.after (oB5 (F := F)) W (Proc.devRef .tc main_call1_v13) = ReadP.val_main_call1_v13 (F := F) (W (Proc.devRef .tc main_arg1)) x3 := by
  after_results_simp
  rw [h5]
  rfl

/-- The select of a NaN row where the test fails, of what the piece finds as the test and the gathered rows. -/
theorem stB6 (W : Valuation τ sig (Elt F)) :
    StableHlo.after (oB6 (F := F)) W (Proc.devRef .tc main_v5)
      = select (W (Proc.devRef .tc main_call1_v12)) (W (Proc.devRef .tc main_call1_v13)) (ReadP.val_main_call1_v14 (F := F)) := by
  after_results_simp
  rfl

theorem keepB1_arg (W : Valuation τ sig (Elt F)) :
    StableHlo.after (oB1 (F := F)) W (Proc.devRef .tc main_arg1) = W (Proc.devRef .tc main_arg1) := by
  after_results_simp <;> rfl

theorem keepB2_arg (W : Valuation τ sig (Elt F)) :
    StableHlo.after (oB2 (F := F)) W (Proc.devRef .tc main_arg1) = W (Proc.devRef .tc main_arg1) := by
  after_results_simp <;> rfl

theorem keepB3_arg (W : Valuation τ sig (Elt F)) :
    StableHlo.after (oB3 (F := F)) W (Proc.devRef .tc main_arg1) = W (Proc.devRef .tc main_arg1) := by
  after_results_simp <;> rfl

theorem keepB4_arg (W : Valuation τ sig (Elt F)) :
    StableHlo.after (oB4 (F := F)) W (Proc.devRef .tc main_arg1) = W (Proc.devRef .tc main_arg1) := by
  after_results_simp <;> rfl

theorem keepB3_v5 (W : Valuation τ sig (Elt F)) :
    StableHlo.after (oB3 (F := F)) W (Proc.devRef .tc main_call1_v5) = W (Proc.devRef .tc main_call1_v5) := by
  after_results_simp <;> rfl

theorem keepB4_v5 (W : Valuation τ sig (Elt F)) :
    StableHlo.after (oB4 (F := F)) W (Proc.devRef .tc main_call1_v5) = W (Proc.devRef .tc main_call1_v5) := by
  after_results_simp <;> rfl

theorem keepB5_v12 (W : Valuation τ sig (Elt F)) :
    StableHlo.after (oB5 (F := F)) W (Proc.devRef .tc main_call1_v12) = W (Proc.devRef .tc main_call1_v12) := by
  after_results_simp <;> rfl

/-- The second gather: the rows of the second argument at the first index column. -/
theorem stB (W : Valuation τ sig (Elt F)) :
    StableHlo.after (oB (F := F)) W (Proc.devRef .tc main_v5) = ReadP.val_main_v5 (F := F) (W (Proc.devRef .tc main_arg1)) (W (Proc.devRef .tc main_arg3)) := by
  rw [oB_split, StableHlo.after_append, StableHlo.after_append, StableHlo.after_append, StableHlo.after_append,
    StableHlo.after_append]
  have h5 : (StableHlo.after (oB2 (F := F)) (StableHlo.after (oB1 (F := F)) W)) (Proc.devRef .tc main_call1_v5) = ReadP.val_main_call1_v5 (F := F) (W (Proc.devRef .tc main_arg3)) :=
    stB2 (StableHlo.after (oB1 (F := F)) W) (W (Proc.devRef .tc main_arg3)) (stB1 W)
  have h11 : (StableHlo.after (oB3 (F := F)) (StableHlo.after (oB2 (F := F)) (StableHlo.after (oB1 (F := F)) W))) (Proc.devRef .tc main_call1_v11) = ReadP.val_main_call1_v11 (F := F) (W (Proc.devRef .tc main_arg3)) :=
    stB3 (StableHlo.after (oB2 (F := F)) (StableHlo.after (oB1 (F := F)) W)) (W (Proc.devRef .tc main_arg3)) h5
  have h12 : (StableHlo.after (oB4 (F := F)) (StableHlo.after (oB3 (F := F)) (StableHlo.after (oB2 (F := F)) (StableHlo.after (oB1 (F := F)) W)))) (Proc.devRef .tc main_call1_v12) = ReadP.val_main_call1_v12 (F := F) (W (Proc.devRef .tc main_arg3)) := by
    rw [stB4, h11]; rfl
  have h5' : (StableHlo.after (oB4 (F := F)) (StableHlo.after (oB3 (F := F)) (StableHlo.after (oB2 (F := F)) (StableHlo.after (oB1 (F := F)) W)))) (Proc.devRef .tc main_call1_v5) = ReadP.val_main_call1_v5 (F := F) (W (Proc.devRef .tc main_arg3)) := by
    rw [keepB4_v5, keepB3_v5]; exact h5
  have h13 : (StableHlo.after (oB5 (F := F)) (StableHlo.after (oB4 (F := F)) (StableHlo.after (oB3 (F := F)) (StableHlo.after (oB2 (F := F)) (StableHlo.after (oB1 (F := F)) W))))) (Proc.devRef .tc main_call1_v13) = ReadP.val_main_call1_v13 (F := F) (W (Proc.devRef .tc main_arg1)) (W (Proc.devRef .tc main_arg3)) := by
    have h := stB5 (StableHlo.after (oB4 (F := F)) (StableHlo.after (oB3 (F := F)) (StableHlo.after (oB2 (F := F)) (StableHlo.after (oB1 (F := F)) W)))) (W (Proc.devRef .tc main_arg3)) h5'
    rw [keepB4_arg, keepB3_arg, keepB2_arg, keepB1_arg] at h
    exact h
  have h12' : (StableHlo.after (oB5 (F := F)) (StableHlo.after (oB4 (F := F)) (StableHlo.after (oB3 (F := F)) (StableHlo.after (oB2 (F := F)) (StableHlo.after (oB1 (F := F)) W))))) (Proc.devRef .tc main_call1_v12) = ReadP.val_main_call1_v12 (F := F) (W (Proc.devRef .tc main_arg3)) := by
    rw [keepB5_v12]; exact h12
  rw [stB6, h12', h13]; rfl

abbrev oC1 : List (HloOp τ sig (Elt F)) :=
  [ unary main_arg3 main_v6 ((extractStridedSlice S4x2048x1 ![0, 0, 1] · slices_S4x2048x2_S4x2048x1_0_0_1) : (⟨S4x2048x2, .i32⟩ : BufTy).Contents (Elt F) → (⟨S4x2048x1, .i32⟩ : BufTy).Contents (Elt F)),
    unary main_v6 main_v7 (broadcastInDim S4x2048x512 ![0, 1, 2] bcast_S4x2048x1_S4x2048x512_0_1_2 : (⟨S4x2048x1, .i32⟩ : BufTy).Contents (Elt F) → (⟨S4x2048x512, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4x2048x512, .i32⟩) main_call2_v0) (broadcastInDim S4x2048x512 ![] bcast_S_S4x2048x512),
    TRef.binary (TRef.of (T := ⟨S4x2048x512, .i32⟩) main_v7) (TRef.of (T := ⟨S4x2048x512, .i32⟩) main_call2_v0) (TRef.of (T := ⟨S4x2048x512, .i1⟩) main_call2_v1) (cmpi .slt),
    TRef.nullary (TRef.of (T := ⟨S_, .i32⟩) main_call2_c_0) (constantI S_ 32 8192#32),
    TRef.unary (TRef.of (T := ⟨S_, .i32⟩) main_call2_c_0) (TRef.of (T := ⟨S4x2048x512, .i32⟩) main_call2_v2) (broadcastInDim S4x2048x512 ![] bcast_S_S4x2048x512),
    TRef.binary (TRef.of (T := ⟨S4x2048x512, .i32⟩) main_v7) (TRef.of (T := ⟨S4x2048x512, .i32⟩) main_call2_v2) (TRef.of (T := ⟨S4x2048x512, .i32⟩) main_call2_v3) addi,
    TRef.ternary (TRef.of (T := ⟨S4x2048x512, .i1⟩) main_call2_v1) (TRef.of (T := ⟨S4x2048x512, .i32⟩) main_call2_v3) (TRef.of (T := ⟨S4x2048x512, .i32⟩) main_v7) (TRef.of (T := ⟨S4x2048x512, .i32⟩) main_call2_v4) select ]

abbrev oC2 : List (HloOp τ sig (Elt F)) :=
  [ TRef.reshape (TRef.of (T := ⟨S4x2048x512, .i32⟩) main_call2_v4) (TRef.of (T := ⟨S4x2048x512x1, .i32⟩) main_call2_v5) rfl shapeCasts_S4x2048x512_S4x2048x512x1 ]

abbrev oC3 : List (HloOp τ sig (Elt F)) :=
  [ TRef.nullary (TRef.of (T := ⟨S1, .i32⟩) main_call2_c_1) (constantI S1 32 8191#32),
    TRef.nullary (TRef.of (T := ⟨S_, .i32⟩) main_call2_c_2) (constantI S_ 32 0#32),
    TRef.unary (TRef.of (T := ⟨S_, .i32⟩) main_call2_c_2) (TRef.of (T := ⟨S4x2048x512x1, .i32⟩) main_call2_v6) (broadcastInDim S4x2048x512x1 ![] bcast_S_S4x2048x512x1),
    TRef.binary (TRef.of (T := ⟨S4x2048x512x1, .i32⟩) main_call2_v5) (TRef.of (T := ⟨S4x2048x512x1, .i32⟩) main_call2_v6) (TRef.of (T := ⟨S4x2048x512x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S4x2048x512x1, .i32⟩) main_call2_v9) (broadcastInDim S4x2048x512x1 ![0, 1, 2, 3] bcast_S1x1x1x1_S4x2048x512x1_0_1_2_3),
    TRef.binary (TRef.of (T := ⟨S4x2048x512x1, .i32⟩) main_call2_v5) (TRef.of (T := ⟨S4x2048x512x1, .i32⟩) main_call2_v9) (TRef.of (T := ⟨S4x2048x512x1, .i1⟩) main_call2_v10) (cmpi .sle),
    TRef.binary (TRef.of (T := ⟨S4x2048x512x1, .i1⟩) main_call2_v7) (TRef.of (T := ⟨S4x2048x512x1, .i1⟩) main_call2_v10) (TRef.of (T := ⟨S4x2048x512x1, .i1⟩) main_call2_v11) andi ]

abbrev oC4 : List (HloOp τ sig (Elt F)) :=
  [ TRef.nullary (TRef.of (T := ⟨S_, .i1⟩) main_call2_c_3) (constantI S_ 1 1#1),
    TRef.binary (TRef.of (T := ⟨S4x2048x512x1, .i1⟩) main_call2_v11) (TRef.of (T := ⟨S_, .i1⟩) main_call2_c_3) (TRef.of (T := ⟨S4x2048x512, .i1⟩) main_call2_v12) (fun x v => Host.reduce IntOp.andi x v reducesTo_S4x2048x512x1_S4x2048x512_d3 h_S_) ]

abbrev oC5 : List (HloOp τ sig (Elt F)) :=
  [ TRef.binary (TRef.of (T := ⟨S4x8192x512, .f32⟩) main_arg2) (TRef.of (T := ⟨S4x2048x512x1, .i32⟩) main_call2_v5) (TRef.of (T := ⟨S4x2048x512, .f32⟩) main_call2_v13) (fun x i => Host.gather gather_S4x8192x512_S4x2048x512x1_S4x2048x512_n_1_02_02_1_3_111 x i) ]

abbrev oC6 : List (HloOp τ sig (Elt F)) :=
  [ TRef.nullary (TRef.of (T := ⟨S_, .f32⟩) main_call2_cst) (constant S_ .f32 0x7FC00000#32),
    TRef.unary (TRef.of (T := ⟨S_, .f32⟩) main_call2_cst) (TRef.of (T := ⟨S4x2048x512, .f32⟩) main_call2_v14) (broadcastInDim S4x2048x512 ![] bcast_S_S4x2048x512),
    TRef.ternary (TRef.of (T := ⟨S4x2048x512, .i1⟩) main_call2_v12) (TRef.of (T := ⟨S4x2048x512, .f32⟩) main_call2_v13) (TRef.of (T := ⟨S4x2048x512, .f32⟩) main_call2_v14) (TRef.of (T := ⟨S4x2048x512, .f32⟩) main_v8) select ]

theorem oC_split : (oC : List (HloOp τ sig (Elt F))) = oC1 ++ (oC2 ++ (oC3 ++ (oC4 ++ (oC5 ++ oC6)))) := rfl

/-- The index column, broadcast along the row and wrapped where negative. -/
theorem stC1 (W : Valuation τ sig (Elt F)) :
    StableHlo.after (oC1 (F := F)) W (Proc.devRef .tc main_call2_v4) = ReadP.val_main_call2_v4 (F := F) (W (Proc.devRef .tc main_arg3)) := by
  after_results_simp
  rfl

/-- The reshape of the wrapped indices to index vectors of length one. -/
theorem stC2 (W : Valuation τ sig (Elt F)) (x3 : (⟨S4x2048x2, .i32⟩ : BufTy).Contents (Elt F))
    (h4 : W (Proc.devRef .tc main_call2_v4) = ReadP.val_main_call2_v4 (F := F) x3) :
    StableHlo.after (oC2 (F := F)) W (Proc.devRef .tc main_call2_v5) = ReadP.val_main_call2_v5 (F := F) x3 := by
  rw [StableHlo.after_cons, StableHlo.after_nil, reshape_result, h4]
  rfl

/-- The range test of the index vectors. -/
theorem stC3 (W : Valuation τ sig (Elt F)) (x3 : (⟨S4x2048x2, .i32⟩ : BufTy).Contents (Elt F))
    (h5 : W (Proc.devRef .tc main_call2_v5) = ReadP.val_main_call2_v5 (F := F) x3) :
    StableHlo.after (oC3 (F := F)) W (Proc.devRef .tc main_call2_v11) = ReadP.val_main_call2_v11 (F := F) x3 := by
  after_results_simp
  rw [h5]
  rfl

/-- The contents of the test's buffer at its own type. -/
theorem toBufC_v12 (u : (⟨S4x2048x512, .i1⟩ : BufTy).Contents (Elt F)) :
    (TRef.of (T := ⟨S4x2048x512, .i1⟩) main_call2_v12 : TRef sig ⟨S4x2048x512, .i1⟩).toBuf u = u := rfl

/-- The range test over each index vector, of what the piece finds as the test of its entries. -/
theorem stC4 (W : Valuation τ sig (Elt F)) :
    StableHlo.after (oC4 (F := F)) W (Proc.devRef .tc main_call2_v12)
      = Host.reduce IntOp.andi (W (Proc.devRef .tc main_call2_v11)) (ReadP.val_main_call2_c_3 (F := F)) reducesTo_S4x2048x512x1_S4x2048x512_d3 h_S_ := by
  have e : StableHlo.after (oC4 (F := F)) W (Proc.devRef .tc main_call2_v12)
      = (TRef.of (T := ⟨S4x2048x512, .i1⟩) main_call2_v12 : TRef sig ⟨S4x2048x512, .i1⟩).toBuf
          (Host.reduce IntOp.andi (W (Proc.devRef .tc main_call2_v11)) (ReadP.val_main_call2_c_3 (F := F)) reducesTo_S4x2048x512x1_S4x2048x512_d3 h_S_) := by
    after_results_simp
    rfl
  exact e.trans (toBufC_v12 _)

/-- The gather of the rows. -/
theorem stC5 (W : Valuation τ sig (Elt F)) (x3 : (⟨S4x2048x2, .i32⟩ : BufTy).Contents (Elt F))
    (h5 : W (Proc.devRef .tc main_call2_v5) = ReadP.val_main_call2_v5 (F := F) x3) :
    StableHlo.after (oC5 (F := F)) W (Proc.devRef .tc main_call2_v13) = ReadP.val_main_call2_v13 (F := F) (W (Proc.devRef .tc main_arg2)) x3 := by
  after_results_simp
  rw [h5]
  rfl

/-- The select of a NaN row where the test fails, of what the piece finds as the test and the gathered rows. -/
theorem stC6 (W : Valuation τ sig (Elt F)) :
    StableHlo.after (oC6 (F := F)) W (Proc.devRef .tc main_v8)
      = select (W (Proc.devRef .tc main_call2_v12)) (W (Proc.devRef .tc main_call2_v13)) (ReadP.val_main_call2_v14 (F := F)) := by
  after_results_simp
  rfl

theorem keepC1_arg (W : Valuation τ sig (Elt F)) :
    StableHlo.after (oC1 (F := F)) W (Proc.devRef .tc main_arg2) = W (Proc.devRef .tc main_arg2) := by
  after_results_simp <;> rfl

theorem keepC2_arg (W : Valuation τ sig (Elt F)) :
    StableHlo.after (oC2 (F := F)) W (Proc.devRef .tc main_arg2) = W (Proc.devRef .tc main_arg2) := by
  after_results_simp <;> rfl

theorem keepC3_arg (W : Valuation τ sig (Elt F)) :
    StableHlo.after (oC3 (F := F)) W (Proc.devRef .tc main_arg2) = W (Proc.devRef .tc main_arg2) := by
  after_results_simp <;> rfl

theorem keepC4_arg (W : Valuation τ sig (Elt F)) :
    StableHlo.after (oC4 (F := F)) W (Proc.devRef .tc main_arg2) = W (Proc.devRef .tc main_arg2) := by
  after_results_simp <;> rfl

theorem keepC3_v5 (W : Valuation τ sig (Elt F)) :
    StableHlo.after (oC3 (F := F)) W (Proc.devRef .tc main_call2_v5) = W (Proc.devRef .tc main_call2_v5) := by
  after_results_simp <;> rfl

theorem keepC4_v5 (W : Valuation τ sig (Elt F)) :
    StableHlo.after (oC4 (F := F)) W (Proc.devRef .tc main_call2_v5) = W (Proc.devRef .tc main_call2_v5) := by
  after_results_simp <;> rfl

theorem keepC5_v12 (W : Valuation τ sig (Elt F)) :
    StableHlo.after (oC5 (F := F)) W (Proc.devRef .tc main_call2_v12) = W (Proc.devRef .tc main_call2_v12) := by
  after_results_simp <;> rfl

/-- The third gather: the rows of the third argument at the second index column. -/
theorem stC (W : Valuation τ sig (Elt F)) :
    StableHlo.after (oC (F := F)) W (Proc.devRef .tc main_v8) = ReadP.val_main_v8 (F := F) (W (Proc.devRef .tc main_arg2)) (W (Proc.devRef .tc main_arg3)) := by
  rw [oC_split, StableHlo.after_append, StableHlo.after_append, StableHlo.after_append, StableHlo.after_append,
    StableHlo.after_append]
  have h5 : (StableHlo.after (oC2 (F := F)) (StableHlo.after (oC1 (F := F)) W)) (Proc.devRef .tc main_call2_v5) = ReadP.val_main_call2_v5 (F := F) (W (Proc.devRef .tc main_arg3)) :=
    stC2 (StableHlo.after (oC1 (F := F)) W) (W (Proc.devRef .tc main_arg3)) (stC1 W)
  have h11 : (StableHlo.after (oC3 (F := F)) (StableHlo.after (oC2 (F := F)) (StableHlo.after (oC1 (F := F)) W))) (Proc.devRef .tc main_call2_v11) = ReadP.val_main_call2_v11 (F := F) (W (Proc.devRef .tc main_arg3)) :=
    stC3 (StableHlo.after (oC2 (F := F)) (StableHlo.after (oC1 (F := F)) W)) (W (Proc.devRef .tc main_arg3)) h5
  have h12 : (StableHlo.after (oC4 (F := F)) (StableHlo.after (oC3 (F := F)) (StableHlo.after (oC2 (F := F)) (StableHlo.after (oC1 (F := F)) W)))) (Proc.devRef .tc main_call2_v12) = ReadP.val_main_call2_v12 (F := F) (W (Proc.devRef .tc main_arg3)) := by
    rw [stC4, h11]; rfl
  have h5' : (StableHlo.after (oC4 (F := F)) (StableHlo.after (oC3 (F := F)) (StableHlo.after (oC2 (F := F)) (StableHlo.after (oC1 (F := F)) W)))) (Proc.devRef .tc main_call2_v5) = ReadP.val_main_call2_v5 (F := F) (W (Proc.devRef .tc main_arg3)) := by
    rw [keepC4_v5, keepC3_v5]; exact h5
  have h13 : (StableHlo.after (oC5 (F := F)) (StableHlo.after (oC4 (F := F)) (StableHlo.after (oC3 (F := F)) (StableHlo.after (oC2 (F := F)) (StableHlo.after (oC1 (F := F)) W))))) (Proc.devRef .tc main_call2_v13) = ReadP.val_main_call2_v13 (F := F) (W (Proc.devRef .tc main_arg2)) (W (Proc.devRef .tc main_arg3)) := by
    have h := stC5 (StableHlo.after (oC4 (F := F)) (StableHlo.after (oC3 (F := F)) (StableHlo.after (oC2 (F := F)) (StableHlo.after (oC1 (F := F)) W)))) (W (Proc.devRef .tc main_arg3)) h5'
    rw [keepC4_arg, keepC3_arg, keepC2_arg, keepC1_arg] at h
    exact h
  have h12' : (StableHlo.after (oC5 (F := F)) (StableHlo.after (oC4 (F := F)) (StableHlo.after (oC3 (F := F)) (StableHlo.after (oC2 (F := F)) (StableHlo.after (oC1 (F := F)) W))))) (Proc.devRef .tc main_call2_v12) = ReadP.val_main_call2_v12 (F := F) (W (Proc.devRef .tc main_arg3)) := by
    rw [keepC5_v12]; exact h12
  rw [stC6, h12', h13]; rfl

/-- The cosine similarity of the paired rows, as a column. -/
theorem stD17 (W : Valuation τ sig (Elt F)) (x0 x2 : (⟨S4x8192x512, .f32⟩ : BufTy).Contents (Elt F)) (x3 : (⟨S4x2048x2, .i32⟩ : BufTy).Contents (Elt F))
    (h2 : W (Proc.devRef .tc main_v2) = ReadP.val_main_v2 (F := F) x0 x3)
    (h8 : W (Proc.devRef .tc main_v8) = ReadP.val_main_v8 (F := F) x2 x3) :
    StableHlo.after (oD (F := F)) W (Proc.devRef .tc main_v17) = ReadP.val_main_v17 (F := F) x0 x2 x3 := by
  after_results_simp
  try simp only [TRef.ofBuf, TRef.toBuf, cast_eq]
  rw [h2, h8]
  simp only [ReadP.val_main_v9, ReadP.val_main_cst, ReadP.val_main_v10, ReadP.val_main_call3_v0, ReadP.val_main_call3_cst, ReadP.val_main_call3_v1, ReadP.val_main_v11, ReadP.val_main_call4_v0, ReadP.val_main_call4_cst, ReadP.val_main_call4_v1, ReadP.val_main_v12, ReadP.val_main_v13, ReadP.val_main_cst_0, ReadP.val_main_v14, ReadP.val_main_v15, ReadP.val_main_v16, ReadP.val_main_v17, ReadP.val_main_v18] <;> rfl

/-- All the inner products of the gathered rows. -/
theorem stD18 (W : Valuation τ sig (Elt F)) (x0 x2 : (⟨S4x8192x512, .f32⟩ : BufTy).Contents (Elt F)) (x3 : (⟨S4x2048x2, .i32⟩ : BufTy).Contents (Elt F))
    (h2 : W (Proc.devRef .tc main_v2) = ReadP.val_main_v2 (F := F) x0 x3)
    (h8 : W (Proc.devRef .tc main_v8) = ReadP.val_main_v8 (F := F) x2 x3) :
    StableHlo.after (oD (F := F)) W (Proc.devRef .tc main_v18) = ReadP.val_main_v18 (F := F) x0 x2 x3 := by
  after_results_simp
  try simp only [TRef.ofBuf, TRef.toBuf, cast_eq]
  rw [h2, h8]
  simp only [ReadP.val_main_v9, ReadP.val_main_cst, ReadP.val_main_v10, ReadP.val_main_call3_v0, ReadP.val_main_call3_cst, ReadP.val_main_call3_v1, ReadP.val_main_v11, ReadP.val_main_call4_v0, ReadP.val_main_call4_cst, ReadP.val_main_call4_v1, ReadP.val_main_v12, ReadP.val_main_v13, ReadP.val_main_cst_0, ReadP.val_main_v14, ReadP.val_main_v15, ReadP.val_main_v16, ReadP.val_main_v17, ReadP.val_main_v18] <;> rfl

/-- The first concatenate: the similarity column before the inner products. -/
theorem stE19 (W : Valuation τ sig (Elt F)) (x0 x2 : (⟨S4x8192x512, .f32⟩ : BufTy).Contents (Elt F)) (x3 : (⟨S4x2048x2, .i32⟩ : BufTy).Contents (Elt F))
    (h17 : W (Proc.devRef .tc main_v17) = ReadP.val_main_v17 (F := F) x0 x2 x3)
    (h18 : W (Proc.devRef .tc main_v18) = ReadP.val_main_v18 (F := F) x0 x2 x3) :
    StableHlo.after (oE (F := F)) W (Proc.devRef .tc main_v19) = ReadP.val_main_v19 (F := F) x0 x2 x3 := by
  after_results_simp
  try simp only [TRef.ofBuf, TRef.toBuf, cast_eq]
  rw [h17, h18]
  simp only [ReadP.val_main_v19, ReadP.val_main_v20, ReadP.val_main_cst_1, ReadP.val_main_v21, ReadP.val_main_v22, ReadP.val_main_v23, ReadP.val_main_v24, ReadP.val_main_v25, ReadP.val_main_v26, ReadP.val_main_v27, ReadP.val_main_cst_2, ReadP.val_main_v28, ReadP.val_main_v29, ReadP.val_main_v30, ReadP.val_main_cst_3, ReadP.val_main_v31, ReadP.val_main_v32, ReadP.val_main_v33, ReadP.val_main_c, ReadP.val_main_v34] <;> rfl

/-- The mask: where the squared distance of two gathered points exceeds the threshold. -/
theorem stE32 (W : Valuation τ sig (Elt F)) (x1 : (⟨S4x8192x3, .f32⟩ : BufTy).Contents (Elt F)) (x3 : (⟨S4x2048x2, .i32⟩ : BufTy).Contents (Elt F))
    (h5 : W (Proc.devRef .tc main_v5) = ReadP.val_main_v5 (F := F) x1 x3) :
    StableHlo.after (oE (F := F)) W (Proc.devRef .tc main_v32) = ReadP.val_main_v32 (F := F) x1 x3 := by
  after_results_simp
  try simp only [TRef.ofBuf, TRef.toBuf, cast_eq]
  rw [h5]
  simp only [ReadP.val_main_v19, ReadP.val_main_v20, ReadP.val_main_cst_1, ReadP.val_main_v21, ReadP.val_main_v22, ReadP.val_main_v23, ReadP.val_main_v24, ReadP.val_main_v25, ReadP.val_main_v26, ReadP.val_main_v27, ReadP.val_main_cst_2, ReadP.val_main_v28, ReadP.val_main_v29, ReadP.val_main_v30, ReadP.val_main_cst_3, ReadP.val_main_v31, ReadP.val_main_v32, ReadP.val_main_v33, ReadP.val_main_c, ReadP.val_main_v34] <;> rfl

/-- The column of ones the mask is extended by. -/
theorem stE34 (W : Valuation τ sig (Elt F)) :
    StableHlo.after (oE (F := F)) W (Proc.devRef .tc main_v34) = ReadP.val_main_v34 (F := F) := by
  after_results_simp
  try simp only [TRef.ofBuf, TRef.toBuf, cast_eq]
  simp only [ReadP.val_main_v19, ReadP.val_main_v20, ReadP.val_main_cst_1, ReadP.val_main_v21, ReadP.val_main_v22, ReadP.val_main_v23, ReadP.val_main_v24, ReadP.val_main_v25, ReadP.val_main_v26, ReadP.val_main_v27, ReadP.val_main_cst_2, ReadP.val_main_v28, ReadP.val_main_v29, ReadP.val_main_v30, ReadP.val_main_cst_3, ReadP.val_main_v31, ReadP.val_main_v32, ReadP.val_main_v33, ReadP.val_main_c, ReadP.val_main_v34] <;> rfl

/-- The second concatenate, the masked row sums, the losses and their mean. -/
theorem stF (W : Valuation τ sig (Elt F)) (x0 : (⟨S4x8192x512, .f32⟩ : BufTy).Contents (Elt F)) (x1 : (⟨S4x8192x3, .f32⟩ : BufTy).Contents (Elt F)) (x2 : (⟨S4x8192x512, .f32⟩ : BufTy).Contents (Elt F)) (x3 : (⟨S4x2048x2, .i32⟩ : BufTy).Contents (Elt F))
    (h34 : W (Proc.devRef .tc main_v34) = ReadP.val_main_v34 (F := F))
    (h32 : W (Proc.devRef .tc main_v32) = ReadP.val_main_v32 (F := F) x1 x3)
    (h19 : W (Proc.devRef .tc main_v19) = ReadP.val_main_v19 (F := F) x0 x2 x3)
    (h17 : W (Proc.devRef .tc main_v17) = ReadP.val_main_v17 (F := F) x0 x2 x3) :
    StableHlo.after (oF (F := F)) W (Proc.devRef .tc main_v50) = ReadP.val_main_v50 (F := F) x0 x1 x2 x3 := by
  after_results_simp
  try simp only [TRef.ofBuf, TRef.toBuf, cast_eq]
  rw [h34, h32, h19, h17]
  simp only [ReadP.val_main_v35, ReadP.val_main_cst_4, ReadP.val_main_v36, ReadP.val_main_v37, ReadP.val_main_v38, ReadP.val_main_v39, ReadP.val_main_v40, ReadP.val_main_cst_5, ReadP.val_main_v41, ReadP.val_main_v42, ReadP.val_main_cst_6, ReadP.val_main_v43, ReadP.val_main_v44, ReadP.val_main_v45, ReadP.val_main_v46, ReadP.val_main_v47, ReadP.val_main_v48, ReadP.val_main_cst_7, ReadP.val_main_v49, ReadP.val_main_cst_8, ReadP.val_main_v50] <;> rfl

/-! What a piece does not write it keeps. -/

theorem keepA_arg1 (W : Valuation τ sig (Elt F)) :
    StableHlo.after (oA (F := F)) W (Proc.devRef .tc main_arg1) = W (Proc.devRef .tc main_arg1) := by
  after_results_simp <;> rfl

theorem keepA_arg2 (W : Valuation τ sig (Elt F)) :
    StableHlo.after (oA (F := F)) W (Proc.devRef .tc main_arg2) = W (Proc.devRef .tc main_arg2) := by
  after_results_simp <;> rfl

theorem keepA_arg3 (W : Valuation τ sig (Elt F)) :
    StableHlo.after (oA (F := F)) W (Proc.devRef .tc main_arg3) = W (Proc.devRef .tc main_arg3) := by
  after_results_simp <;> rfl

theorem keepB_arg2 (W : Valuation τ sig (Elt F)) :
    StableHlo.after (oB (F := F)) W (Proc.devRef .tc main_arg2) = W (Proc.devRef .tc main_arg2) := by
  after_results_simp <;> rfl

theorem keepB_arg3 (W : Valuation τ sig (Elt F)) :
    StableHlo.after (oB (F := F)) W (Proc.devRef .tc main_arg3) = W (Proc.devRef .tc main_arg3) := by
  after_results_simp <;> rfl

theorem keepB_v2 (W : Valuation τ sig (Elt F)) :
    StableHlo.after (oB (F := F)) W (Proc.devRef .tc main_v2) = W (Proc.devRef .tc main_v2) := by
  after_results_simp <;> rfl

theorem keepC_v2 (W : Valuation τ sig (Elt F)) :
    StableHlo.after (oC (F := F)) W (Proc.devRef .tc main_v2) = W (Proc.devRef .tc main_v2) := by
  after_results_simp <;> rfl

theorem keepC_v5 (W : Valuation τ sig (Elt F)) :
    StableHlo.after (oC (F := F)) W (Proc.devRef .tc main_v5) = W (Proc.devRef .tc main_v5) := by
  after_results_simp <;> rfl

theorem keepD_v5 (W : Valuation τ sig (Elt F)) :
    StableHlo.after (oD (F := F)) W (Proc.devRef .tc main_v5) = W (Proc.devRef .tc main_v5) := by
  after_results_simp <;> rfl

theorem keepE_v17 (W : Valuation τ sig (Elt F)) :
    StableHlo.after (oE (F := F)) W (Proc.devRef .tc main_v17) = W (Proc.devRef .tc main_v17) := by
  after_results_simp <;> rfl

/-- The result buffer after all the operations, run from any contents `V`: the last stage of the four arguments as `V`
    holds them. Piece by piece: each piece's stage lemma at the contents the pieces before it leave, the buffers a
    later piece reads carried across the pieces that do not write them. -/
theorem after_main_v50 (V : Valuation τ sig (Elt F)) :
    StableHlo.after (ValueP.ops (F := F)) V (Proc.devRef .tc main_v50)
      = ReadP.val_main_v50 (F := F) (V (Proc.devRef .tc main_arg0)) (V (Proc.devRef .tc main_arg1)) (V (Proc.devRef .tc main_arg2)) (V (Proc.devRef .tc main_arg3)) := by
  have e : StableHlo.after (ValueP.ops (F := F)) V
      = StableHlo.after (oF (F := F)) (StableHlo.after (oE (F := F)) (StableHlo.after (oD (F := F)) (StableHlo.after (oC (F := F)) (StableHlo.after (oB (F := F)) (StableHlo.after (oA (F := F)) V))))) := by
    rw [ops_split, StableHlo.after_append, StableHlo.after_append, StableHlo.after_append, StableHlo.after_append,
      StableHlo.after_append]
  rw [e]
  have h2 : (StableHlo.after (oC (F := F)) (StableHlo.after (oB (F := F)) (StableHlo.after (oA (F := F)) V))) (Proc.devRef .tc main_v2) = ReadP.val_main_v2 (F := F) (V (Proc.devRef .tc main_arg0)) (V (Proc.devRef .tc main_arg3)) := by
    rw [keepC_v2, keepB_v2, stA]
  have h5 : (StableHlo.after (oC (F := F)) (StableHlo.after (oB (F := F)) (StableHlo.after (oA (F := F)) V))) (Proc.devRef .tc main_v5) = ReadP.val_main_v5 (F := F) (V (Proc.devRef .tc main_arg1)) (V (Proc.devRef .tc main_arg3)) := by
    rw [keepC_v5, stB, keepA_arg1, keepA_arg3]
  have h8 : (StableHlo.after (oC (F := F)) (StableHlo.after (oB (F := F)) (StableHlo.after (oA (F := F)) V))) (Proc.devRef .tc main_v8) = ReadP.val_main_v8 (F := F) (V (Proc.devRef .tc main_arg2)) (V (Proc.devRef .tc main_arg3)) := by
    rw [stC, keepB_arg2, keepB_arg3, keepA_arg2, keepA_arg3]
  have h17 : (StableHlo.after (oD (F := F)) (StableHlo.after (oC (F := F)) (StableHlo.after (oB (F := F)) (StableHlo.after (oA (F := F)) V)))) (Proc.devRef .tc main_v17) = ReadP.val_main_v17 (F := F) (V (Proc.devRef .tc main_arg0)) (V (Proc.devRef .tc main_arg2)) (V (Proc.devRef .tc main_arg3)) :=
    stD17 (StableHlo.after (oC (F := F)) (StableHlo.after (oB (F := F)) (StableHlo.after (oA (F := F)) V))) _ _ _ h2 h8
  have h18 : (StableHlo.after (oD (F := F)) (StableHlo.after (oC (F := F)) (StableHlo.after (oB (F := F)) (StableHlo.after (oA (F := F)) V)))) (Proc.devRef .tc main_v18) = ReadP.val_main_v18 (F := F) (V (Proc.devRef .tc main_arg0)) (V (Proc.devRef .tc main_arg2)) (V (Proc.devRef .tc main_arg3)) :=
    stD18 (StableHlo.after (oC (F := F)) (StableHlo.after (oB (F := F)) (StableHlo.after (oA (F := F)) V))) _ _ _ h2 h8
  have h5' : (StableHlo.after (oD (F := F)) (StableHlo.after (oC (F := F)) (StableHlo.after (oB (F := F)) (StableHlo.after (oA (F := F)) V)))) (Proc.devRef .tc main_v5) = ReadP.val_main_v5 (F := F) (V (Proc.devRef .tc main_arg1)) (V (Proc.devRef .tc main_arg3)) := by
    rw [keepD_v5]; exact h5
  have h19 : (StableHlo.after (oE (F := F)) (StableHlo.after (oD (F := F)) (StableHlo.after (oC (F := F)) (StableHlo.after (oB (F := F)) (StableHlo.after (oA (F := F)) V))))) (Proc.devRef .tc main_v19) = ReadP.val_main_v19 (F := F) (V (Proc.devRef .tc main_arg0)) (V (Proc.devRef .tc main_arg2)) (V (Proc.devRef .tc main_arg3)) :=
    stE19 (StableHlo.after (oD (F := F)) (StableHlo.after (oC (F := F)) (StableHlo.after (oB (F := F)) (StableHlo.after (oA (F := F)) V)))) _ _ _ h17 h18
  have h32 : (StableHlo.after (oE (F := F)) (StableHlo.after (oD (F := F)) (StableHlo.after (oC (F := F)) (StableHlo.after (oB (F := F)) (StableHlo.after (oA (F := F)) V))))) (Proc.devRef .tc main_v32) = ReadP.val_main_v32 (F := F) (V (Proc.devRef .tc main_arg1)) (V (Proc.devRef .tc main_arg3)) :=
    stE32 (StableHlo.after (oD (F := F)) (StableHlo.after (oC (F := F)) (StableHlo.after (oB (F := F)) (StableHlo.after (oA (F := F)) V)))) _ _ h5'
  have h34 : (StableHlo.after (oE (F := F)) (StableHlo.after (oD (F := F)) (StableHlo.after (oC (F := F)) (StableHlo.after (oB (F := F)) (StableHlo.after (oA (F := F)) V))))) (Proc.devRef .tc main_v34) = ReadP.val_main_v34 (F := F) :=
    stE34 (StableHlo.after (oD (F := F)) (StableHlo.after (oC (F := F)) (StableHlo.after (oB (F := F)) (StableHlo.after (oA (F := F)) V))))
  have h17' : (StableHlo.after (oE (F := F)) (StableHlo.after (oD (F := F)) (StableHlo.after (oC (F := F)) (StableHlo.after (oB (F := F)) (StableHlo.after (oA (F := F)) V))))) (Proc.devRef .tc main_v17) = ReadP.val_main_v17 (F := F) (V (Proc.devRef .tc main_arg0)) (V (Proc.devRef .tc main_arg2)) (V (Proc.devRef .tc main_arg3)) := by
    rw [keepE_v17]; exact h17
  exact stF (StableHlo.after (oE (F := F)) (StableHlo.after (oD (F := F)) (StableHlo.after (oC (F := F)) (StableHlo.after (oB (F := F)) (StableHlo.after (oA (F := F)) V))))) _ _ _ _ h34 h32 h19 h17'

end RefRun

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
        = ReadP.val_main_v50 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans (RefRun.after_main_v50 (fun b => m (c, b))), (h c).2⟩) (run_fold m ρ)

end Cert.ReferenceIdeal.Hand

end
-- ==== Proof.lean ====
/- The proof of `Cert.Claim`: the kernel computes, row by row over four batches of 2048 anchor rows, the contrastive
   loss `-log (e^{dpos/τ} / (e^{dpos/τ} + Σ_t e^{a_s·q_t/τ} · far(s,t)))` in two tiles of 1024 columns, carrying the row
   sums, the positive terms and a cached copy of the anchor block between the two grid points of a batch; the
   reference computes the same sums over all 2049 concatenated entries at once. On the extended reals both are the
   same number, because a sum does not depend on how it is tiled or ordered and the change of float format is the
   identity. The frames: each program runs to the end without a fault and leaves its four arguments as launched; the
   kernel's, at both instances, by the pipeline's launch theorem for an @main given as a list of host stretches and one
   kernel region whose anchor-points array is read through two windows, each holding half of it. -/
import proofs.«412390_j6597069766920_3_alg».proof.Defs
import proofs.«412390_j6597069766920_3_alg».proof.Proof.Gen.Kernel
import proofs.«412390_j6597069766920_3_alg».proof.Proof.Gen.KernelIdeal
import proofs.«412390_j6597069766920_3_alg».proof.Proof.Gen.ReferenceIdeal
import proofs.«412390_j6597069766920_3_alg».proof.Proof.Gen.Pre_finite_inputs
import proofs.«412390_j6597069766920_3_alg».proof.Proof.KBFrame
import proofs.«412390_j6597069766920_3_alg».proof.Proof.KIFrame
import proofs.«412390_j6597069766920_3_alg».proof.Proof.KIResult
import proofs.«412390_j6597069766920_3_alg».proof.Proof.RefFold
import proofs.«412390_j6597069766920_3_alg».proof.Proof.RefRun
import Idealize.ShloMosaic.Adequacy
import Idealize.ShloMosaic.Init

noncomputable section

namespace Cert.Proof

open Idealize.ShloMosaic Idealize.SL.Sem Idealize.ShloMosaic.TcCoe

/-- The word-level kernel runs and keeps its arguments. -/
theorem frame_p : Cert.frame_Kernel (hKernel := Cert.Kernel.Gen.facts) (hPre_finite_inputs := Cert.Pre_finite_inputs.Gen.facts) :=
  fun m ρ _ => Cert.Kernel.Hand.frame (F := Bits) m ρ

/-- The idealized kernel runs and keeps its arguments. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The idealized reference runs and keeps its arguments. -/
theorem frame_ri : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ

/-- From memories that agree on the arguments both idealized programs end with the same mean: the kernel's result is
    the reference's stages of its own arguments (`result_eq`), which are the reference's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.V8 m (Cert.KernelIdeal.Hand.outsOf (Cert.KernelIdeal.Hand.dats m)) c Cert.KernelIdeal.main_v11,
    Cert.KernelIdeal.Hand.run_main (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
